-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S2x64x64 : Shape := ⟨3, ![2, 64, 64]⟩
abbrev S2x64 : Shape := ⟨2, ![2, 64]⟩
abbrev S2x8192x64 : Shape := ⟨3, ![2, 8192, 64]⟩
abbrev S2x8192 : Shape := ⟨2, ![2, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x8192x64 : S_.BroadcastsInDim S2x8192x64 (![] : Fin 0 → Fin S2x8192x64.rank)
  reducesTo_S2x8192x64_S_d0_1_2 : S2x8192x64.ReducesTo [0, 1, 2] S_
  bcast_S_S2x8192 : S_.BroadcastsInDim S2x8192 (![] : Fin 0 → Fin S2x8192.rank)
  reducesTo_S2x8192_S_d0_1 : S2x8192.ReducesTo [0, 1] S_

variable [Facts]

def fn_part1 {F : FTy → Type} [FloatOps F] (main_arg4 : FVec F S2x64 .f32) (main_arg5 : FVec F S2x8192x64 .f32) (main_arg6 : FVec F S2x8192 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x8192x64 .f32 := Host.absf main_arg5
  let main_cst_8 : FVec F S_ .f32 := constant S_ .f32 0x7F800000#32
  let main_v25 : FVec F S2x8192x64 .f32 := broadcastInDim S2x8192x64 ![] bcast_S_S2x8192x64 main_cst_8
  let main_v26 : IVec S2x8192x64 1 := cmpf .olt main_v24 main_v25
  let main_c_9 : IVec S_ 1 := constantI S_ 1 1#1
  let main_v27 : IVec S_ 1 := (fun x v => Host.reduce IntOp.andi x v reducesTo_S2x8192x64_S_d0_1_2 h_S_) main_v26 main_c_9
  let main_v28 : IVec S_ 1 := andi main_v23 main_v27
  let main_v29 : FVec F S2x8192 .f32 := Host.absf main_arg6
  let main_cst_10 : FVec F S_ .f32 := constant S_ .f32 0x7F800000#32
  let main_v30 : FVec F S2x8192 .f32 := broadcastInDim S2x8192 ![] bcast_S_S2x8192 main_cst_10
  let main_v31 : IVec S2x8192 1 := cmpf .olt main_v29 main_v30
  let main_c_11 : IVec S_ 1 := constantI S_ 1 1#1
  let main_v32 : IVec S_ 1 := (fun x v => Host.reduce IntOp.andi x v reducesTo_S2x8192_S_d0_1 h_S_) main_v31 main_c_11
  let main_v33 : IVec S_ 1 := andi main_v28 main_v32
  main_v33

def fn {F : FTy → Type} [FloatOps F] (main_arg0 : FVec F S8192x64 .f32) (main_arg1 : FVec F S2x64x64 .f32) (main_arg2 : FVec F S2x64 .f32) (main_arg3 : FVec F S2x64x64 .f32) (main_arg4 : FVec F S2x64 .f32) (main_arg5 : FVec F S2x8192x64 .f32) (main_arg6 : FVec F S2x8192 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S2x64x64 .f32 := Host.absf main_arg1
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S2x64 .f32 := Host.absf main_arg2
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S2x64x64 .f32 := Host.absf main_arg3
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg4 main_arg5 main_arg6 main_v13 main_v16
-- ==== Kernel.lean ====
abbrev S8192x64 : Shape := ⟨2, ![8192, 64]⟩
abbrev S2x64x64 : Shape := ⟨3, ![2, 64, 64]⟩
abbrev S2x64 : Shape := ⟨2, ![2, 64]⟩
abbrev S2x8192x64 : Shape := ⟨3, ![2, 8192, 64]⟩
abbrev S2x8192 : Shape := ⟨2, ![2, 8192]⟩
abbrev S1024x64 : Shape := ⟨2, ![1024, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x8192x64 : Shape := ⟨3, ![1, 8192, 64]⟩
abbrev S1x8192 : Shape := ⟨2, ![1, 8192]⟩
abbrev S8192 : Shape := ⟨1, ![8192]⟩
abbrev S512x64 : Shape := ⟨2, ![512, 64]⟩
abbrev S1x512 : Shape := ⟨2, ![1, 512]⟩
abbrev S64x512 : Shape := ⟨2, ![64, 512]⟩
abbrev S512x512 : Shape := ⟨2, ![512, 512]⟩

abbrev nBuf : Space → Nat
  | .hbm => 30
  | .vmem => 24
  | .smem => 0
  | _ => 0

abbrev bufTy : (tb : Table) → Fin (tcTables nBuf tb) → BufTy
  | .hbm, ⟨0, _⟩ => ⟨S8192x64, .f32⟩
  | .hbm, ⟨1, _⟩ => ⟨S2x64x64, .f32⟩
  | .hbm, ⟨2, _⟩ => ⟨S2x64, .f32⟩
  | .hbm, ⟨3, _⟩ => ⟨S2x64x64, .f32⟩
  | .hbm, ⟨4, _⟩ => ⟨S2x64, .f32⟩
  | .hbm, ⟨5, _⟩ => ⟨S2x8192x64, .f32⟩
  | .hbm, ⟨6, _⟩ => ⟨S2x8192, .f32⟩
  | .hbm, ⟨7, _⟩ => ⟨S8192x64, .f32⟩
  | .hbm, ⟨8, _⟩ => ⟨S1x64x64, .f32⟩
  | .hbm, ⟨9, _⟩ => ⟨S64x64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S1x8192x64, .f32⟩
  | .hbm, ⟨14, _⟩ => ⟨S8192x64, .f32⟩
  | .hbm, ⟨15, _⟩ => ⟨S1x8192, .f32⟩
  | .hbm, ⟨16, _⟩ => ⟨S8192, .f32⟩
  | .hbm, ⟨17, _⟩ => ⟨S1x8192, .f32⟩
  | .hbm, ⟨18, _⟩ => ⟨S8192x64, .f32⟩
  | .hbm, ⟨19, _⟩ => ⟨S1x64x64, .f32⟩
  | .hbm, ⟨20, _⟩ => ⟨S64x64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S1x8192x64, .f32⟩
  | .hbm, ⟨25, _⟩ => ⟨S8192x64, .f32⟩
  | .hbm, ⟨26, _⟩ => ⟨S1x8192, .f32⟩
  | .hbm, ⟨27, _⟩ => ⟨S8192, .f32⟩
  | .hbm, ⟨28, _⟩ => ⟨S1x8192, .f32⟩
  | .hbm, ⟨29, _⟩ => ⟨S8192x64, .f32⟩
  | .local _ .vmem, ⟨0, _⟩ => ⟨S1024x64, .f32⟩
  | .local _ .vmem, ⟨1, _⟩ => ⟨S1024x64, .f32⟩
  | .local _ .vmem, ⟨2, _⟩ => ⟨S2x64x64, .f32⟩
  | .local _ .vmem, ⟨3, _⟩ => ⟨S2x64, .f32⟩
  | .local _ .vmem, ⟨4, _⟩ => ⟨S1024x64, .f32⟩
  | .local _ .vmem, ⟨5, _⟩ => ⟨S1024x64, .f32⟩
  | .local _ .vmem, ⟨6, _⟩ => ⟨S512x64, .f32⟩
  | .local _ .vmem, ⟨7, _⟩ => ⟨S512x64, .f32⟩
  | .local _ .vmem, ⟨8, _⟩ => ⟨S64x64, .f32⟩
  | .local _ .vmem, ⟨9, _⟩ => ⟨S1x64, .f32⟩
  | .local _ .vmem, ⟨10, _⟩ => ⟨S8192x64, .f32⟩
  | .local _ .vmem, ⟨11, _⟩ => ⟨S1x8192, .f32⟩
  | .local _ .vmem, ⟨12, _⟩ => ⟨S8192x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S64x64, .f32⟩
  | .local _ .vmem, ⟨18, _⟩ => ⟨S1x64, .f32⟩
  | .local _ .vmem, ⟨19, _⟩ => ⟨S8192x64, .f32⟩
  | .local _ .vmem, ⟨20, _⟩ => ⟨S1x8192, .f32⟩
  | .local _ .vmem, ⟨21, _⟩ => ⟨S8192x64, .f32⟩
  | .local _ .vmem, ⟨22, _⟩ => ⟨S512x64, .f32⟩
  | .local _ .vmem, ⟨23, _⟩ => ⟨S512x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

@[reducible] def k1_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c512_i32_10 : BitVec 32 := 512#32
  let v19 : BitVec 32 := Scalar.muli arg8 c512_i32_10
  v19
def k1_off1 (k1_t1 : Fin k1_t1_loop.trips) : Fin 2 → Nat :=
  let c0_i32 : BitVec 32 := 0#32
  let c1_i32 : BitVec 32 := 1#32
  let arg8 : BitVec 32 := Scf.iv c0_i32 c1_i32 k1_t1
  let c512_i32_10 : BitVec 32 := 512#32
  let v19 : BitVec 32 := Scalar.muli arg8 c512_i32_10
  let v20 : BitVec 32 := v19
  let v21 : Index := Scalar.indexCast v20
  let c0_11 : Index := 0#32
  ![v21.toNat, 0]
def k1_off2 (k1_t1 : Fin k1_t1_loop.trips) : Fin 2 → Nat :=
  let c0_12 : Index := 0#32
  let c0_i32 : BitVec 32 := 0#32
  let c1_i32 : BitVec 32 := 1#32
  let arg8 : BitVec 32 := Scf.iv c0_i32 c1_i32 k1_t1
  let c512_i32_10 : BitVec 32 := 512#32
  let v19 : BitVec 32 := Scalar.muli arg8 c512_i32_10
  let v20 : BitVec 32 := v19
  let v25 : Index := Scalar.indexCast v20
  ![0, v25.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8192x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

@[reducible] def k2_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k2_mult1 (k2_t1 : Fin k2_t1_loop.trips) : BitVec 32 :=
  let c0_i32 : BitVec 32 := 0#32
  let c1_i32 : BitVec 32 := 1#32
  let arg8 : BitVec 32 := Scf.iv c0_i32 c1_i32 k2_t1
  let c512_i32_10 : BitVec 32 := 512#32
  let v19 : BitVec 32 := Scalar.muli arg8 c512_i32_10
  v19
def k2_off1 (k2_t1 : Fin k2_t1_loop.trips) : Fin 2 → Nat :=
  let c0_i32 : BitVec 32 := 0#32
  let c1_i32 : BitVec 32 := 1#32
  let arg8 : BitVec 32 := Scf.iv c0_i32 c1_i32 k2_t1
  let c512_i32_10 : BitVec 32 := 512#32
  let v19 : BitVec 32 := Scalar.muli arg8 c512_i32_10
  let v20 : BitVec 32 := v19
  let v21 : Index := Scalar.indexCast v20
  let c0_11 : Index := 0#32
  ![v21.toNat, 0]
def k2_off2 (k2_t1 : Fin k2_t1_loop.trips) : Fin 2 → Nat :=
  let c0_12 : Index := 0#32
  let c0_i32 : BitVec 32 := 0#32
  let c1_i32 : BitVec 32 := 1#32
  let arg8 : BitVec 32 := Scf.iv c0_i32 c1_i32 k2_t1
  let c512_i32_10 : BitVec 32 := 512#32
  let v19 : BitVec 32 := Scalar.muli arg8 c512_i32_10
  let v20 : BitVec 32 := v19
  let v25 : Index := Scalar.indexCast v20
  ![0, v25.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8192x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8192x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S1024x64_S1024x64_0_0 : ∀ a, (![0, 0] : Fin 2 → Nat) a + S1024x64.size a ≤ S1024x64.size a
  h_S1024x64 : 0 < S1024x64.numel
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  bitsLt_bf16_f32 : FTy.bits .bf16 < FTy.bits .f32
  inb_S2x64_S1x64_0_0 : ∀ a, (![0, 0] : Fin 2 → Nat) a + S1x64.size a ≤ S2x64.size a
  h_S1x64 : 0 < S1x64.numel
  shapeCasts_S1x64_S64 : S1x64.ShapeCasts S64
  transposes_S64x64_p1_0_S64x64 : S64x64.Transposes [1, 0] S64x64
  shapeCasts_S64_S1x64 : S64.ShapeCasts S1x64
  broadcasts_S1x64_S1024x64 : S1x64.Broadcasts S1024x64
  inb_S2x64x64_S1x64x64_1_0_0 : ∀ a, (![1, 0, 0] : Fin 3 → Nat) a + S1x64x64.size a ≤ S2x64x64.size a
  inb_S2x64_S1x64_1_0 : ∀ a, (![1, 0] : Fin 2 → Nat) a + S1x64.size a ≤ S2x64.size a
  slices_S2x64x64_S1x64x64_0_0_0 : S2x64x64.Slices ![0, 0, 0] S1x64x64
  slices_S2x64_S1x64_0_0 : S2x64.Slices ![0, 0] S1x64
  slices_S2x8192x64_S1x8192x64_0_0_0 : S2x8192x64.Slices ![0, 0, 0] S1x8192x64
  shapeCasts_S1x8192x64_S8192x64 : S1x8192x64.ShapeCasts S8192x64
  slices_S2x8192_S1x8192_0_0 : S2x8192.Slices ![0, 0] S1x8192
  shapeCasts_S1x8192_S8192 : S1x8192.ShapeCasts S8192
  shapeCasts_S8192_S1x8192 : S8192.ShapeCasts S1x8192
  inb_S512x64_S512x64_0_0 : ∀ a, (![0, 0] : Fin 2 → Nat) a + S512x64.size a ≤ S512x64.size a
  h_S512x64 : 0 < S512x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  shapeCasts_S1x64_S1x64 : S1x64.ShapeCasts S1x64
  broadcasts_S1x64_S512x64 : S1x64.Broadcasts S512x64
  shapeCasts_S512x64_S512x64 : S512x64.ShapeCasts S512x64
  h_S1x512 : 0 < S1x512.numel
  shapeCasts_S1x512_S1x512 : S1x512.ShapeCasts S1x512
  transposes_S512x64_p1_0_S64x512 : S512x64.Transposes [1, 0] S64x512
  broadcasts_S1x512_S512x512 : S1x512.Broadcasts S512x512
  iota_S512x512_d0_w32 : S512x512.Iotas .tc 32 [0]
  iota_S512x512_d1_w32 : S512x512.Iotas .tc 32 [1]
  slices_S2x64x64_S1x64x64_1_0_0 : S2x64x64.Slices ![1, 0, 0] S1x64x64
  slices_S2x64_S1x64_1_0 : S2x64.Slices ![1, 0] S1x64
  slices_S2x8192x64_S1x8192x64_1_0_0 : S2x8192x64.Slices ![1, 0, 0] S1x8192x64
  slices_S2x8192_S1x8192_1_0 : S2x8192.Slices ![1, 0] S1x8192
  dot_S1024x64_S64x64_S1024x64_1_0_0_1_n_n_wf : DotDims.WF S1024x64 S64x64 S1024x64 [1] [0] [0] [1] [] []
  dot_S512x64_S64x64_S512x64_1_0_0_1_n_n_wf : DotDims.WF S512x64 S64x64 S512x64 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64x64.size a ≤ S2x64x64.size a
  hwx0_1 : ∀ i : grid0.Coords, EltTy.bits .f32 = 32 ∨ (Rect.block (s := S2x64x64) S2x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x64.size a ≤ S8192x64.size a
  k1_off2_inb : ∀ k1_t1 : Fin k1_t1_loop.trips, ∀ a, (k1_off2 k1_t1) a + S1x512.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S8192x64.size a
  hwx1_3 : ∀ i : grid1.Coords, EltTy.bits .f32 = 32 ∨ (Rect.block (s := S8192x64) S8192x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8192.size a ≤ S1x8192.size a
  hwx1_4 : ∀ i : grid1.Coords, EltTy.bits .f32 = 32 ∨ (Rect.block (s := S1x8192) S1x8192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8192x64.size a ≤ S8192x64.size a
  hwx1_5 : ∀ i : grid1.Coords, EltTy.bits .f32 = 32 ∨ (Rect.block (s := S8192x64) S8192x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S8192x64.size a
  hwx1_6 : ∀ i : grid1.Coords, EltTy.bits .f32 = 32 ∨ (Rect.block (s := S8192x64) S512x64.size (cc1_transform_6 i) (hinb1_6 i)).WholeWords (EltTy.packing .f32)
  hrank2 : 0 < grid2.rank
  k2_t1_ok : k2_t1_loop.OK
  k2_mult1_dvd : ∀ k2_t1 : Fin k2_t1_loop.trips, 512 ∣ (k2_mult1 k2_t1).toNat
  k2_off1_inb : ∀ k2_t1 : Fin k2_t1_loop.trips, ∀ a, (k2_off1 k2_t1) a + S512x64.size a ≤ S8192x64.size a
  k2_off2_inb : ∀ k2_t1 : Fin k2_t1_loop.trips, ∀ a, (k2_off2 k2_t1) a + S1x512.size a ≤ S1x8192.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S8192x64.size a
  hwx2_0 : ∀ i : grid2.Coords, EltTy.bits .f32 = 32 ∨ (Rect.block (s := S8192x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S8192x64.size a
  hwx2_3 : ∀ i : grid2.Coords, EltTy.bits .f32 = 32 ∨ (Rect.block (s := S8192x64) S8192x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8192.size a ≤ S1x8192.size a
  hwx2_4 : ∀ i : grid2.Coords, EltTy.bits .f32 = 32 ∨ (Rect.block (s := S1x8192) S1x8192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8192x64.size a ≤ S8192x64.size a
  hwx2_5 : ∀ i : grid2.Coords, EltTy.bits .f32 = 32 ∨ (Rect.block (s := S8192x64) S8192x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S8192x64.size a
  hwx2_6 : ∀ i : grid2.Coords, EltTy.bits .f32 = 32 ∨ (Rect.block (s := S8192x64) S512x64.size (cc2_transform_6 i) (hinb2_6 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x8192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S8192x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S512x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S8192x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x8192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S8192x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S512x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8192x64 : Shape := ⟨2, ![8192, 64]⟩
abbrev S2x64x64 : Shape := ⟨3, ![2, 64, 64]⟩
abbrev S2x64 : Shape := ⟨2, ![2, 64]⟩
abbrev S2x8192x64 : Shape := ⟨3, ![2, 8192, 64]⟩
abbrev S2x8192 : Shape := ⟨2, ![2, 8192]⟩
abbrev S8192x8192 : Shape := ⟨2, ![8192, 8192]⟩
abbrev S_ : Shape := ⟨0, ![]⟩
abbrev S8192x1 : Shape := ⟨2, ![8192, 1]⟩
abbrev S8192x8191 : Shape := ⟨2, ![8192, 8191]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x8192x64 : Shape := ⟨3, ![1, 8192, 64]⟩
abbrev S64x8192 : Shape := ⟨2, ![64, 8192]⟩
abbrev S1x8192 : Shape := ⟨2, ![1, 8192]⟩
abbrev S8192 : Shape := ⟨1, ![8192]⟩

abbrev nBuf : Space → Nat
  | .hbm => 97
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S2x64x64, .f32⟩
  | .hbm, ⟨2, _⟩ => ⟨S2x64, .f32⟩
  | .hbm, ⟨3, _⟩ => ⟨S2x64x64, .f32⟩
  | .hbm, ⟨4, _⟩ => ⟨S2x64, .f32⟩
  | .hbm, ⟨5, _⟩ => ⟨S2x8192x64, .f32⟩
  | .hbm, ⟨6, _⟩ => ⟨S2x8192, .f32⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S8192x8192, .f32⟩
  | .hbm, ⟨14, _⟩ => ⟨S8192x1, .f32⟩
  | .hbm, ⟨15, _⟩ => ⟨S8192x8191, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S1x64x64, .f32⟩
  | .hbm, ⟨22, _⟩ => ⟨S64x64, .f32⟩
  | .hbm, ⟨23, _⟩ => ⟨S64x64, .f32⟩
  | .hbm, ⟨24, _⟩ => ⟨S8192x64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S8192x64, .f32⟩
  | .hbm, ⟨29, _⟩ => ⟨S8192x64, .f32⟩
  | .hbm, ⟨30, _⟩ => ⟨S_, .f32⟩
  | .hbm, ⟨31, _⟩ => ⟨S8192x64, .f32⟩
  | .hbm, ⟨32, _⟩ => ⟨S8192x64, .f32⟩
  | .hbm, ⟨33, _⟩ => ⟨S1x64x64, .f32⟩
  | .hbm, ⟨34, _⟩ => ⟨S64x64, .f32⟩
  | .hbm, ⟨35, _⟩ => ⟨S64x64, .f32⟩
  | .hbm, ⟨36, _⟩ => ⟨S8192x64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .f32⟩
  | .hbm, ⟨45, _⟩ => ⟨S1x64x64, .f32⟩
  | .hbm, ⟨46, _⟩ => ⟨S64x64, .f32⟩
  | .hbm, ⟨47, _⟩ => ⟨S64x64, .f32⟩
  | .hbm, ⟨48, _⟩ => ⟨S8192x64, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S8192x64, .f32⟩
  | .hbm, ⟨53, _⟩ => ⟨S8192x64, .f32⟩
  | .hbm, ⟨54, _⟩ => ⟨S_, .f32⟩
  | .hbm, ⟨55, _⟩ => ⟨S8192x64, .f32⟩
  | .hbm, ⟨56, _⟩ => ⟨S8192x64, .f32⟩
  | .hbm, ⟨57, _⟩ => ⟨S1x8192x64, .f32⟩
  | .hbm, ⟨58, _⟩ => ⟨S8192x64, .f32⟩
  | .hbm, ⟨59, _⟩ => ⟨S64x8192, .f32⟩
  | .hbm, ⟨60, _⟩ => ⟨S8192x8192, .f32⟩
  | .hbm, ⟨61, _⟩ => ⟨S1x8192, .f32⟩
  | .hbm, ⟨62, _⟩ => ⟨S8192, .f32⟩
  | .hbm, ⟨63, _⟩ => ⟨S1x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S8192x64, .f32⟩
  | .hbm, ⟨71, _⟩ => ⟨S1x64x64, .f32⟩
  | .hbm, ⟨72, _⟩ => ⟨S64x64, .f32⟩
  | .hbm, ⟨73, _⟩ => ⟨S64x64, .f32⟩
  | .hbm, ⟨74, _⟩ => ⟨S8192x64, .f32⟩
  | .hbm, ⟨75, _⟩ => ⟨S1x64, .f32⟩
  | .hbm, ⟨76, _⟩ => ⟨S64, .f32⟩
  | .hbm, ⟨77, _⟩ => ⟨S1x64, .f32⟩
  | .hbm, ⟨78, _⟩ => ⟨S8192x64, .f32⟩
  | .hbm, ⟨79, _⟩ => ⟨S8192x64, .f32⟩
  | .hbm, ⟨80, _⟩ => ⟨S_, .f32⟩
  | .hbm, ⟨81, _⟩ => ⟨S8192x64, .f32⟩
  | .hbm, ⟨82, _⟩ => ⟨S8192x64, .f32⟩
  | .hbm, ⟨83, _⟩ => ⟨S1x8192x64, .f32⟩
  | .hbm, ⟨84, _⟩ => ⟨S8192x64, .f32⟩
  | .hbm, ⟨85, _⟩ => ⟨S64x8192, .f32⟩
  | .hbm, ⟨86, _⟩ => ⟨S8192x8192, .f32⟩
  | .hbm, ⟨87, _⟩ => ⟨S1x8192, .f32⟩
  | .hbm, ⟨88, _⟩ => ⟨S8192, .f32⟩
  | .hbm, ⟨89, _⟩ => ⟨S1x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192x8192, .f32⟩
  | .hbm, ⟨94, _⟩ => ⟨S8192x8192, .f32⟩
  | .hbm, ⟨95, _⟩ => ⟨S8192x8192, .f32⟩
  | .hbm, ⟨96, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_cst : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call2_cst : Ref sig .tc := ⟨.hbm, 42, rfl⟩
abbrev main_call2_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call3_cst : Ref sig .tc := ⟨.hbm, 54, rfl⟩
abbrev main_call3_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call4_cst : Ref sig .tc := ⟨.hbm, 66, rfl⟩
abbrev main_call4_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call5_cst : Ref sig .tc := ⟨.hbm, 80, rfl⟩
abbrev main_call5_v0 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call6_cst : Ref sig .tc := ⟨.hbm, 92, rfl⟩
abbrev main_call6_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S8192x8192_S8192x1_0_8191 : S8192x8192.Slices ![0, 8191] S8192x1
  slices_S8192x8192_S8192x8191_0_0 : S8192x8192.Slices ![0, 0] S8192x8191
  concatenates_S8192x1_S8192x8191_S8192x8192_d1 : Shape.Concatenates [S8192x1, S8192x8191] S8192x8192 1
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  slices_S2x64x64_S1x64x64_1_0_0 : S2x64x64.Slices ![1, 0, 0] S1x64x64
  slices_S2x64_S1x64_1_0 : S2x64.Slices ![1, 0] S1x64
  slices_S2x8192x64_S1x8192x64_0_0_0 : S2x8192x64.Slices ![0, 0, 0] S1x8192x64
  shapeCasts_S1x8192x64_S8192x64 : S1x8192x64.ShapeCasts S8192x64
  transposes_S8192x64_S64x8192_1_0 : S8192x64.Transposes [1, 0] S64x8192
  slices_S2x8192_S1x8192_0_0 : S2x8192.Slices ![0, 0] S1x8192
  shapeCasts_S1x8192_S8192 : S1x8192.ShapeCasts S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S2x8192x64_S1x8192x64_1_0_0 : S2x8192x64.Slices ![1, 0, 0] S1x8192x64
  slices_S2x8192_S1x8192_1_0 : S2x8192.Slices ![1, 0] S1x8192
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Spec.lean ====
/-
  The function both programs compute, over the extended reals, written on curried index functions.

  A dense layer is `max (∑ₖ x k · w j k + b j) 0`.  The value array is first passed through two dense layers
  (`gstack`).  A chord layer then replaces row `r` of the value array `V` by
  `∑_c M r c · V c`, where `M r c` is the score `max (∑ₖ h r k · wL c k + bL c) 0` of the hidden row
  `h r = dense w0 b0 (X r)` on the chord pattern (the diagonal, the superdiagonal and the corner `(8191, 0)`) and
  `0` off it.  The result is two chord layers applied to `gstack`.

  Only the commutative-monoid structure of `+` and `x * 0 = 0`, `x * 1 = x` are used to compare the two programs, so
  nothing here asks the entries to be finite.
-/
import Idealize.ShloMosaic.PureOps.Ideal
import Idealize.ShloMosaic.PureOps.Ideal.Laws
import Idealize.ShloMosaic.Lib.ValueIdx
import Mathlib.Algebra.BigOperators.Fin

noncomputable section

namespace Cert.Chord

open Idealize.ShloMosaic Idealize.ShloMosaic.ValueIdx
open scoped BigOperators

/-! ## Arrays as curried functions -/

/-- A rank-2 array read at its two coordinates. -/
def cur2 {a b : Nat} (A : (⟨2, ![a, b]⟩ : Shape).Idx → EReal) : Fin a → Fin b → EReal := fun p q => A (ix2 p q)
/-- A rank-3 array read at its three coordinates. -/
def cur3 {a b d : Nat} (A : (⟨3, ![a, b, d]⟩ : Shape).Idx → EReal) : Fin a → Fin b → Fin d → EReal := fun p q s => A (ix3 p q s)
/-- The one row of a `1 × n` array. -/
def row {n : Nat} (A : (⟨2, ![1, n]⟩ : Shape).Idx → EReal) : Fin n → EReal := fun q => A (ix2 0 q)
/-- A function of two coordinates as a rank-2 array. -/
def unc2 {a b : Nat} (f : Fin a → Fin b → EReal) : (⟨2, ![a, b]⟩ : Shape).Idx → EReal := fun i => f (i 0) (i 1)

theorem unc2_ix2 {a b : Nat} (f : Fin a → Fin b → EReal) (p : Fin a) (q : Fin b) : unc2 f (ix2 p q) = f p q := rfl
theorem cur2_unc2 {a b : Nat} (f : Fin a → Fin b → EReal) : cur2 (unc2 f) = f := rfl
theorem unc2_cur2 {a b : Nat} (A : (⟨2, ![a, b]⟩ : Shape).Idx → EReal) : unc2 (cur2 A) = A := by
  funext i; exact congrArg A (eq_ix2 i).symm

/-! ## The layers -/

/-- A dense layer followed by the positive part. -/
def dense (w : Fin 64 → Fin 64 → EReal) (b : Fin 64 → EReal) (x : Fin 64 → EReal) (j : Fin 64) : EReal :=
  max ((∑ k : Fin 64, x k * w j k) + b j) 0

/-- The two dense layers applied to each row of `X`. -/
def gstack (gw : Fin 2 → Fin 64 → Fin 64 → EReal) (gb : Fin 2 → Fin 64 → EReal) (X : Fin 8192 → Fin 64 → EReal)
    (r : Fin 8192) : Fin 64 → EReal :=
  dense (gw 1) (gb 1) (dense (gw 0) (gb 0) (X r))

/-- The score of a hidden row `h` against column `c`. -/
def score (wL : Fin 8192 → Fin 64 → EReal) (bL : Fin 8192 → EReal) (h : Fin 64 → EReal) (c : Fin 8192) : EReal :=
  max ((∑ k : Fin 64, h k * wL c k) + bL c) 0

/-- The chord pattern: the diagonal, the superdiagonal, and the corner where the superdiagonal wraps around. -/
def chordNat (r c : ℕ) : Prop := c = r ∨ c = r + 1 ∨ (r = 8191 ∧ c = 0)

instance (r c : ℕ) : Decidable (chordNat r c) := by unfold chordNat; infer_instance

/-- The chord pattern on the 8192 rows and columns. -/
def chord (r c : Fin 8192) : Prop := chordNat r.val c.val

instance (r c : Fin 8192) : Decidable (chord r c) := by unfold chord; infer_instance

/-- The masked score: the score on the chord pattern, zero off it. -/
def mscore (X : Fin 8192 → Fin 64 → EReal) (w0 : Fin 64 → Fin 64 → EReal) (b0 : Fin 64 → EReal)
    (wL : Fin 8192 → Fin 64 → EReal) (bL : Fin 8192 → EReal) (r c : Fin 8192) : EReal :=
  if chord r c then score wL bL (dense w0 b0 (X r)) c else 0

/-- One chord layer: row `r` of the new value array is the masked scores of row `r` against the old value array. -/
def layer (X : Fin 8192 → Fin 64 → EReal) (w0 : Fin 64 → Fin 64 → EReal) (b0 : Fin 64 → EReal)
    (wL : Fin 8192 → Fin 64 → EReal) (bL : Fin 8192 → EReal) (V : Fin 8192 → Fin 64 → EReal)
    (r : Fin 8192) (j : Fin 64) : EReal :=
  ∑ c : Fin 8192, mscore X w0 b0 wL bL r c * V c j

/-- The whole function: the dense stack, then the two chord layers. -/
def result (X : Fin 8192 → Fin 64 → EReal) (gw : Fin 2 → Fin 64 → Fin 64 → EReal) (gb : Fin 2 → Fin 64 → EReal)
    (f0w : Fin 2 → Fin 64 → Fin 64 → EReal) (f0b : Fin 2 → Fin 64 → EReal)
    (fLw : Fin 2 → Fin 8192 → Fin 64 → EReal) (fLb : Fin 2 → Fin 8192 → EReal) : Fin 8192 → Fin 64 → EReal :=
  layer X (f0w 1) (f0b 1) (fLw 1) (fLb 1) (layer X (f0w 0) (f0b 0) (fLw 0) (fLb 0) (gstack gw gb X))

/-! ## A sum over 8192 columns in 16 chunks of 512 -/

/-- Column `512 · a + b` of chunk `a`. -/
def col (a : Fin 16) (b : Fin 512) : Fin 8192 := ⟨512 * a.val + b.val, by have := a.isLt; have := b.isLt; omega⟩

theorem col_val (a : Fin 16) (b : Fin 512) : (col a b).val = 512 * a.val + b.val := rfl

/-- A sum over the 8192 columns is the sum over the 16 chunks of the sums over each chunk's 512 columns. -/
theorem sum_chunks (f : Fin 8192 → EReal) : ∑ c : Fin 8192, f c = ∑ a : Fin 16, ∑ b : Fin 512, f (col a b) := by
  have e := (Equiv.sum_comp (finProdFinEquiv (m := 16) (n := 512)) (fun c : Fin (16 * 512) => f c)).symm
  refine e.trans ?_
  rw [Fintype.sum_prod_type]
  refine Finset.sum_congr rfl fun a _ => Finset.sum_congr rfl fun b _ => ?_
  refine congrArg f (Fin.ext ?_)
  show b.val + 512 * a.val = 512 * a.val + b.val
  omega

/-- An accumulator that starts at zero and adds `s a` at step `a` holds, after `n` steps, the sum of the first `n` terms. -/
theorem acc_eq_sum (s : ℕ → EReal) (acc : ℕ → EReal) (h0 : acc 0 = 0) (hs : ∀ a, acc (a + 1) = acc a + s a) (n : ℕ) :
    acc n = ∑ a ∈ Finset.range n, s a := by
  induction n with
  | zero => rw [h0, Finset.sum_range_zero]
  | succ n ih => rw [hs, ih, Finset.sum_range_succ]

/-- The chord layer chunk by chunk. -/
theorem layer_eq_chunks (X : Fin 8192 → Fin 64 → EReal) (w0 : Fin 64 → Fin 64 → EReal) (b0 : Fin 64 → EReal)
    (wL : Fin 8192 → Fin 64 → EReal) (bL : Fin 8192 → EReal) (V : Fin 8192 → Fin 64 → EReal)
    (r : Fin 8192) (j : Fin 64) :
    layer X w0 b0 wL bL V r j = ∑ a : Fin 16, ∑ b : Fin 512, mscore X w0 b0 wL bL r (col a b) * V (col a b) j :=
  sum_chunks _

end Cert.Chord

end
-- ==== Proof.Host.lean ====
/-
  What the later regions find in their windows.

  Between the kernel regions the host program only slices layer 0 (then layer 1) out of the four stacked weight and bias
  arguments and reshapes the slices; it writes no argument and no region's output.  So each region finds the input rows
  as launched, its weights and biases as one layer of the launched arguments, and as its value array the previous
  region's output.
-/
import proofs.«104786_j3375844295380_1_alg».proof.Proof.Gen.KernelIdeal.Frame
import proofs.«104786_j3375844295380_1_alg».proof.Proof.Spec
import Idealize.ShloMosaic.Lib.StableHlo.Run
import Idealize.ShloMosaic.Lib.ValueIdx
import Idealize.ShloMosaic.Lib.Pipeline.Value

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen Cert.Chord

variable (m : (ℓ : Loc nD τ sig) → Buf (Elt Ideal) ℓ) (ρ : Dev nD → PrngReg)

/-! ## The arguments at each boundary -/

/-- The input rows after the first region: an input window's array is left as entered. -/
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)

theorem W2_arg0 (c : Dev nD) : W2 m ρ c (Proc.devRef .tc main_arg0) = m ((c : Thread nD τ).loc main_arg0) := by
  show StableHlo.after hostOps1 (W1 m ρ c) (Proc.devRef .tc main_arg0) = _
  after_results
  exact W1_arg0 m ρ c
theorem W2_arg3 (c : Dev nD) : W2 m ρ c (Proc.devRef .tc main_arg3) = m ((c : Thread nD τ).loc main_arg3) := by
  show StableHlo.after hostOps1 (W1 m ρ c) (Proc.devRef .tc main_arg3) = _
  after_results
  exact W1_arg3 m ρ c
theorem W2_arg4 (c : Dev nD) : W2 m ρ c (Proc.devRef .tc main_arg4) = m ((c : Thread nD τ).loc main_arg4) := by
  show StableHlo.after hostOps1 (W1 m ρ c) (Proc.devRef .tc main_arg4) = _
  after_results
  exact W1_arg4 m ρ c
theorem W2_arg5 (c : Dev nD) : W2 m ρ c (Proc.devRef .tc main_arg5) = m ((c : Thread nD τ).loc main_arg5) := by
  show StableHlo.after hostOps1 (W1 m ρ c) (Proc.devRef .tc main_arg5) = _
  after_results
  exact W1_arg5 m ρ c
theorem W2_arg6 (c : Dev nD) : W2 m ρ c (Proc.devRef .tc main_arg6) = m ((c : Thread nD τ).loc main_arg6) := by
  show StableHlo.after hostOps1 (W1 m ρ c) (Proc.devRef .tc main_arg6) = _
  after_results
  exact W1_arg6 m ρ c

/-- The input rows after the second region: again an input window's array, left as entered. -/
theorem W3_arg0 (c : Dev nD) : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (W2_arg0 m ρ c)
theorem W3_arg3 (c : Dev nD) : W3 m ρ c (Proc.devRef .tc main_arg3) = m ((c : Thread nD τ).loc main_arg3) :=
  (W3_of_ne m ρ c main_arg3 (by decide)).trans (W2_arg3 m ρ c)
theorem W3_arg4 (c : Dev nD) : W3 m ρ c (Proc.devRef .tc main_arg4) = m ((c : Thread nD τ).loc main_arg4) :=
  (W3_of_ne m ρ c main_arg4 (by decide)).trans (W2_arg4 m ρ c)
theorem W3_arg5 (c : Dev nD) : W3 m ρ c (Proc.devRef .tc main_arg5) = m ((c : Thread nD τ).loc main_arg5) :=
  (W3_of_ne m ρ c main_arg5 (by decide)).trans (W2_arg5 m ρ c)
theorem W3_arg6 (c : Dev nD) : W3 m ρ c (Proc.devRef .tc main_arg6) = m ((c : Thread nD τ).loc main_arg6) :=
  (W3_of_ne m ρ c main_arg6 (by decide)).trans (W2_arg6 m ρ c)

/-! ## The second region's windows -/

/-- The input rows, as the second region finds them. -/
theorem V2_main_arg0 (c : Dev nD) : (V2 m ρ c main_arg0 : S8192x64.Idx → EReal) = m ((c : Thread nD τ).loc main_arg0) :=
  W2_arg0 m ρ c

/-- The hidden layer's weights, as the region finds them: layer 0 of the third argument. -/
theorem V2_main_v2 (c : Dev nD) (p q : Fin 64) :
    (V2 m ρ c main_v2 : S64x64.Idx → EReal) (ix2 p q) = (m ((c : Thread nD τ).loc main_arg3) : S2x64x64.Idx → EReal) (ix3 0 p q) := by
  have e : (V2 m ρ c main_v2 : S64x64.Idx → EReal)
      = shapeCast S64x64 (extractStridedSlice S1x64x64 ![0, 0, 0] (W1 m ρ c (Proc.devRef .tc main_arg3)) slices_S2x64x64_S1x64x64_0_0_0) shapeCasts_S1x64x64_S64x64 := by
    show StableHlo.after hostOps1 (W1 m ρ c) (Proc.devRef .tc main_v2) = _
    after_results
    rfl
  rw [e, W1_arg3]
  refine (shapeCast_dropUnit_apply ![64, 64] _ shapeCasts_S1x64x64_S64x64 (ix2 p q)).trans ?_
  refine extractStridedSlice_apply _ _ _ _ (ix3 0 p q) fun a => ?_
  match a with
  | ⟨0, _⟩ => rfl
  | ⟨1, _⟩ => exact (Nat.zero_add _).symm
  | ⟨2, _⟩ => exact (Nat.zero_add _).symm

/-- The hidden layer's bias row, as the region finds it: row 0 of the fourth argument. -/
theorem V2_main_v5 (c : Dev nD) (q : Fin 64) :
    (V2 m ρ c main_v5 : S1x64.Idx → EReal) (ix2 0 q) = (m ((c : Thread nD τ).loc main_arg4) : S2x64.Idx → EReal) (ix2 0 q) := by
  have e : (V2 m ρ c main_v5 : S1x64.Idx → EReal)
      = shapeCast S1x64 (shapeCast S64 (extractStridedSlice S1x64 ![0, 0] (W1 m ρ c (Proc.devRef .tc main_arg4)) slices_S2x64_S1x64_0_0) shapeCasts_S1x64_S64) shapeCasts_S64_S1x64 := by
    show StableHlo.after hostOps1 (W1 m ρ c) (Proc.devRef .tc main_v5) = _
    after_results
    rfl
  rw [e, W1_arg4, shapeCast_shapeCast]
  refine extractStridedSlice_apply _ _ _ _ (ix2 0 q) fun a => ?_
  match a with
  | ⟨0, _⟩ => rfl
  | ⟨1, _⟩ => exact (Nat.zero_add _).symm

/-- The score layer's weights, as the region finds them: layer 0 of the fifth argument. -/
theorem V2_main_v7 (c : Dev nD) (r : Fin 8192) (k : Fin 64) :
    (V2 m ρ c main_v7 : S8192x64.Idx → EReal) (ix2 r k) = (m ((c : Thread nD τ).loc main_arg5) : S2x8192x64.Idx → EReal) (ix3 0 r k) := by
  have e : (V2 m ρ c main_v7 : S8192x64.Idx → EReal)
      = shapeCast S8192x64 (extractStridedSlice S1x8192x64 ![0, 0, 0] (W1 m ρ c (Proc.devRef .tc main_arg5)) slices_S2x8192x64_S1x8192x64_0_0_0) shapeCasts_S1x8192x64_S8192x64 := by
    show StableHlo.after hostOps1 (W1 m ρ c) (Proc.devRef .tc main_v7) = _
    after_results
    rfl
  rw [e, W1_arg5]
  refine (shapeCast_dropUnit_apply ![8192, 64] _ shapeCasts_S1x8192x64_S8192x64 (ix2 r k)).trans ?_
  refine extractStridedSlice_apply _ _ _ _ (ix3 0 r k) fun a => ?_
  match a with
  | ⟨0, _⟩ => rfl
  | ⟨1, _⟩ => exact (Nat.zero_add _).symm
  | ⟨2, _⟩ => exact (Nat.zero_add _).symm

/-- The score layer's bias row, as the region finds it: row 0 of the sixth argument. -/
theorem V2_main_v10 (c : Dev nD) (r : Fin 8192) :
    (V2 m ρ c main_v10 : S1x8192.Idx → EReal) (ix2 0 r) = (m ((c : Thread nD τ).loc main_arg6) : S2x8192.Idx → EReal) (ix2 0 r) := by
  have e : (V2 m ρ c main_v10 : S1x8192.Idx → EReal)
      = shapeCast S1x8192 (shapeCast S8192 (extractStridedSlice S1x8192 ![0, 0] (W1 m ρ c (Proc.devRef .tc main_arg6)) slices_S2x8192_S1x8192_0_0) shapeCasts_S1x8192_S8192) shapeCasts_S8192_S1x8192 := by
    show StableHlo.after hostOps1 (W1 m ρ c) (Proc.devRef .tc main_v10) = _
    after_results
    rfl
  rw [e, W1_arg6, shapeCast_shapeCast]
  refine extractStridedSlice_apply _ _ _ _ (ix2 0 r) fun a => ?_
  match a with
  | ⟨0, _⟩ => rfl
  | ⟨1, _⟩ => exact (Nat.zero_add _).symm

/-- The value array the second region finds is the first region's output. -/
theorem V2_main_v0 (c : Dev nD) : (V2 m ρ c main_v0 : S8192x64.Idx → EReal) = (dat0 (V0 m ρ) c).arrAt 3 cfg0.N := by
  show StableHlo.after hostOps1 (W1 m ρ c) (Proc.devRef .tc main_v0) = _
  after_results
  exact W1_arr m ρ c 3

/-! ## The third region's windows -/

/-- The input rows, as the third region finds them. -/
theorem V4_main_arg0 (c : Dev nD) : (V4 m ρ c main_arg0 : S8192x64.Idx → EReal) = m ((c : Thread nD τ).loc main_arg0) := by
  show StableHlo.after hostOps2 (W3 m ρ c) (Proc.devRef .tc main_arg0) = _
  after_results
  exact W3_arg0 m ρ c

/-- The hidden layer's weights, as the region finds them: layer 1 of the third argument. -/
theorem V4_main_v13 (c : Dev nD) (p q : Fin 64) :
    (V4 m ρ c main_v13 : S64x64.Idx → EReal) (ix2 p q) = (m ((c : Thread nD τ).loc main_arg3) : S2x64x64.Idx → EReal) (ix3 1 p q) := by
  have e : (V4 m ρ c main_v13 : S64x64.Idx → EReal)
      = shapeCast S64x64 (extractStridedSlice S1x64x64 ![1, 0, 0] (W3 m ρ c (Proc.devRef .tc main_arg3)) slices_S2x64x64_S1x64x64_1_0_0) shapeCasts_S1x64x64_S64x64 := by
    show StableHlo.after hostOps2 (W3 m ρ c) (Proc.devRef .tc main_v13) = _
    after_results
    rfl
  rw [e, W3_arg3]
  refine (shapeCast_dropUnit_apply ![64, 64] _ shapeCasts_S1x64x64_S64x64 (ix2 p q)).trans ?_
  refine extractStridedSlice_apply _ _ _ _ (ix3 1 p q) fun a => ?_
  match a with
  | ⟨0, _⟩ => rfl
  | ⟨1, _⟩ => exact (Nat.zero_add _).symm
  | ⟨2, _⟩ => exact (Nat.zero_add _).symm

/-- The hidden layer's bias row, as the region finds it: row 1 of the fourth argument. -/
theorem V4_main_v16 (c : Dev nD) (q : Fin 64) :
    (V4 m ρ c main_v16 : S1x64.Idx → EReal) (ix2 0 q) = (m ((c : Thread nD τ).loc main_arg4) : S2x64.Idx → EReal) (ix2 1 q) := by
  have e : (V4 m ρ c main_v16 : S1x64.Idx → EReal)
      = shapeCast S1x64 (shapeCast S64 (extractStridedSlice S1x64 ![1, 0] (W3 m ρ c (Proc.devRef .tc main_arg4)) slices_S2x64_S1x64_1_0) shapeCasts_S1x64_S64) shapeCasts_S64_S1x64 := by
    show StableHlo.after hostOps2 (W3 m ρ c) (Proc.devRef .tc main_v16) = _
    after_results
    rfl
  rw [e, W3_arg4, shapeCast_shapeCast]
  refine extractStridedSlice_apply _ _ _ _ (ix2 1 q) fun a => ?_
  match a with
  | ⟨0, _⟩ => rfl
  | ⟨1, _⟩ => exact (Nat.zero_add _).symm

/-- The score layer's weights, as the region finds them: layer 1 of the fifth argument. -/
theorem V4_main_v18 (c : Dev nD) (r : Fin 8192) (k : Fin 64) :
    (V4 m ρ c main_v18 : S8192x64.Idx → EReal) (ix2 r k) = (m ((c : Thread nD τ).loc main_arg5) : S2x8192x64.Idx → EReal) (ix3 1 r k) := by
  have e : (V4 m ρ c main_v18 : S8192x64.Idx → EReal)
      = shapeCast S8192x64 (extractStridedSlice S1x8192x64 ![1, 0, 0] (W3 m ρ c (Proc.devRef .tc main_arg5)) slices_S2x8192x64_S1x8192x64_1_0_0) shapeCasts_S1x8192x64_S8192x64 := by
    show StableHlo.after hostOps2 (W3 m ρ c) (Proc.devRef .tc main_v18) = _
    after_results
    rfl
  rw [e, W3_arg5]
  refine (shapeCast_dropUnit_apply ![8192, 64] _ shapeCasts_S1x8192x64_S8192x64 (ix2 r k)).trans ?_
  refine extractStridedSlice_apply _ _ _ _ (ix3 1 r k) fun a => ?_
  match a with
  | ⟨0, _⟩ => rfl
  | ⟨1, _⟩ => exact (Nat.zero_add _).symm
  | ⟨2, _⟩ => exact (Nat.zero_add _).symm

/-- The score layer's bias row, as the region finds it: row 1 of the sixth argument. -/
theorem V4_main_v21 (c : Dev nD) (r : Fin 8192) :
    (V4 m ρ c main_v21 : S1x8192.Idx → EReal) (ix2 0 r) = (m ((c : Thread nD τ).loc main_arg6) : S2x8192.Idx → EReal) (ix2 1 r) := by
  have e : (V4 m ρ c main_v21 : S1x8192.Idx → EReal)
      = shapeCast S1x8192 (shapeCast S8192 (extractStridedSlice S1x8192 ![1, 0] (W3 m ρ c (Proc.devRef .tc main_arg6)) slices_S2x8192_S1x8192_1_0) shapeCasts_S1x8192_S8192) shapeCasts_S8192_S1x8192 := by
    show StableHlo.after hostOps2 (W3 m ρ c) (Proc.devRef .tc main_v21) = _
    after_results
    rfl
  rw [e, W3_arg6, shapeCast_shapeCast]
  refine extractStridedSlice_apply _ _ _ _ (ix2 1 r) fun a => ?_
  match a with
  | ⟨0, _⟩ => rfl
  | ⟨1, _⟩ => exact (Nat.zero_add _).symm

/-- The value array the third region finds is the second region's output. -/
theorem V4_main_v11 (c : Dev nD) : (V4 m ρ c main_v11 : S8192x64.Idx → EReal) = (dat1 (V2 m ρ) c).arrAt 6 cfg1.N := by
  show StableHlo.after hostOps2 (W3 m ρ c) (Proc.devRef .tc main_v11) = _
  after_results
  exact W3_arr m ρ c 6

end Cert.KernelIdeal.Host

end
-- ==== Proof.Pay0.lean ====
import proofs.«104786_j3375844295380_1_alg».proof.Proof.Spec
import proofs.«104786_j3375844295380_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.Chord
open scoped BigOperators

/-! ## The block product

Entry `(p, q)` of the product of a `1024 × 64` block with a `64 × 64` matrix into the zero accumulator is
`∑ₖ x p k · w k q`: the contraction runs over the second axis of the left factor and the first of the right. -/

theorem lhs_mm_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_mm_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_mm_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_mm_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

theorem mm_apply (x : FVec Ideal S1024x64 .bf16) (w : FVec Ideal S64x64 .bf16) (p : Fin 1024) (q : Fin 64) :
    matmul (F := Ideal) dot_S1024x64_S64x64_S1024x64_1_0_0_1_n_n none x w (constant (F := Ideal) S1024x64 .f32 0x00000000#32) (ix2 p q)
      = ∑ k : Fin 64, x (ix2 p k) * w (ix2 k q) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 p q) ((ValueIdx.contrEquiv1 dot_S1024x64_S64x64_S1024x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S1024x64_S64x64_S1024x64_1_0_0_1_n_n.rhsIdx (ix2 p q) ((ValueIdx.contrEquiv1 dot_S1024x64_S64x64_S1024x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-! ## One dense layer at an entry -/

/-- The bias row, flattened, unflattened and repeated down the 1024 rows, reads at `(p, q)` its entry `q`. -/
theorem bias_apply (b : Vec Ideal S1x64 .f32) (p : Fin 1024) (q : Fin 64) :
    broadcastTo S1024x64 (shapeCast S1x64 (shapeCast S64 b Gen.shapeCasts_S1x64_S64) Gen.shapeCasts_S64_S1x64)
      Gen.broadcasts_S1x64_S1024x64 (ix2 p q) = row b q := by
  rw [shapeCast_shapeCast]
  exact broadcastTo_apply b Gen.broadcasts_S1x64_S1024x64 (ix2 p q) (ix2 0 q) (fun a => match a with
    | ⟨0, _⟩ => rfl
    | ⟨1, _⟩ => rfl)

/-- The weight slice with its unit axis dropped and then transposed reads at `(k, q)` the slice's entry `(0, q, k)`. -/
theorem weight_apply (w : Vec Ideal S1x64x64 .f32) (k q : Fin 64) :
    transpose S64x64 [1, 0] (truncf (F := Ideal) .bf16 (shapeCast S64x64 w Gen.shapeCasts_S1x64x64_S64x64) Gen.bitsLt_bf16_f32)
      Gen.transposes_S64x64_p1_0_S64x64 (ix2 k q) = cur3 w 0 q k := by
  rw [transpose_ix2_apply, truncf_apply, shapeCast_1ab_ab_apply]
  rfl

/-- One layer: the block times the transposed weight slice, plus the bias row, then the positive part. -/
theorem layer_apply (x : FVec Ideal S1024x64 .f32) (w : Vec Ideal S1x64x64 .f32) (b : Vec Ideal S1x64 .f32)
    (p : Fin 1024) (q : Fin 64) :
    maximumf
      (addf
        (matmul (F := Ideal) dot_S1024x64_S64x64_S1024x64_1_0_0_1_n_n none (truncf .bf16 x Gen.bitsLt_bf16_f32)
          (transpose S64x64 [1, 0] (truncf .bf16 (shapeCast S64x64 w Gen.shapeCasts_S1x64x64_S64x64) Gen.bitsLt_bf16_f32)
            Gen.transposes_S64x64_p1_0_S64x64)
          (constant (F := Ideal) S1024x64 .f32 0x00000000#32))
        (broadcastTo S1024x64 (shapeCast S1x64 (shapeCast S64 b Gen.shapeCasts_S1x64_S64) Gen.shapeCasts_S64_S1x64)
          Gen.broadcasts_S1x64_S1024x64))
      (broadcast S1024x64 (FloatOps.ofBits (F := Ideal) .f32 0x00000000#32)) (ix2 p q)
      = dense (cur3 w 0) (row b) (fun k => x (ix2 p k)) q := by
  rw [maximumf_apply, addf_apply, mm_apply, broadcast_apply, bias_apply]
  unfold dense
  rw [Ideal.ofBits_def, Ideal.ofBits_zero_f32]
  refine congrArg (fun s => max (s + row b q) 0) (Finset.sum_congr rfl fun k _ => ?_)
  rw [weight_apply, truncf_apply]

/-- The first kernel's stored value at row `p`, column `q` of its block: the two dense layers applied to row `p` of the
    input block, with the two weight matrices and bias rows as loaded. -/
theorem pay0_apply (v0 : Vec Ideal S1024x64 .f32) (v1 : Vec Ideal S1x64x64 .f32) (v4 : Vec Ideal S1x64 .f32)
    (v14 : Vec Ideal S1x64x64 .f32) (v17 : Vec Ideal S1x64 .f32) (p : Fin 1024) (q : Fin 64) :
    Gen.k0_pay1 (F := Ideal) v0 v1 v4 v14 v17 (ix2 p q)
      = dense (cur3 v14 0) (row v17) (dense (cur3 v1 0) (row v4) (cur2 v0 p)) q := by
  unfold Gen.k0_pay1
  rw [layer_apply]
  refine congrArg (fun f => dense (cur3 v14 0) (row v17) f q) (funext fun k => ?_)
  exact layer_apply v0 v1 v4 p k

end Cert.KernelIdeal.Pay

end
-- ==== Proof.Region0.lean ====
import proofs.«104786_j3375844295380_1_alg».proof.Proof.Spec
import proofs.«104786_j3375844295380_1_alg».proof.Proof.Pay0
import proofs.«104786_j3375844295380_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R0

open Idealize.ShloMosaic Idealize.ShloMosaic.TcCoe Idealize.ShloMosaic.ValueIdx Idealize.SL.Sem
open Cert.KernelIdeal Cert.KernelIdeal.Gen Cert.Chord
open scoped BigOperators

variable (V : (c : Dev nD) → (b : Ref sig .tc) → Buf (Elt Ideal) ((c : Thread nD τ).loc b))

/-! ## The slices a point loads

Each point loads slice `0` and slice `1` of the stacked weights and of the stacked biases: the loaded slice read at
`(0, q, k)` is the stack at `(s, q, k)`, and the loaded bias row at `q` is the stack at `(s, q)`. -/

theorem ld_w0 (x1 : Vec Ideal S2x64x64 .f32) :
    cur3 (View.ld x1 Gen.r0_1 : Vec Ideal S1x64x64 .f32) 0 = cur3 x1 0 := by
  funext q k
  refine congrArg x1 (funext fun a => Fin.ext ?_)
  match a with
  | ⟨0, _⟩ => rfl
  | ⟨1, _⟩ => show 0 + 1 * q.val = q.val; omega
  | ⟨2, _⟩ => show 0 + 1 * k.val = k.val; omega

theorem ld_w1 (x1 : Vec Ideal S2x64x64 .f32) :
    cur3 (View.ld x1 Gen.r0_3 : Vec Ideal S1x64x64 .f32) 0 = cur3 x1 1 := by
  funext q k
  refine congrArg x1 (funext fun a => Fin.ext ?_)
  match a with
  | ⟨0, _⟩ => rfl
  | ⟨1, _⟩ => show 0 + 1 * q.val = q.val; omega
  | ⟨2, _⟩ => show 0 + 1 * k.val = k.val; omega

theorem ld_b0 (x2 : Vec Ideal S2x64 .f32) :
    row (View.ld x2 Gen.r0_2 : Vec Ideal S1x64 .f32) = cur2 x2 0 := by
  funext q
  refine congrArg x2 (funext fun a => Fin.ext ?_)
  match a with
  | ⟨0, _⟩ => rfl
  | ⟨1, _⟩ => show 0 + 1 * q.val = q.val; omega

theorem ld_b1 (x2 : Vec Ideal S2x64 .f32) :
    row (View.ld x2 Gen.r0_4 : Vec Ideal S1x64 .f32) = cur2 x2 1 := by
  funext q
  refine congrArg x2 (funext fun a => Fin.ext ?_)
  match a with
  | ⟨0, _⟩ => rfl
  | ⟨1, _⟩ => show 0 + 1 * q.val = q.val; omega

/-- What a point stores at row `p` of its block, when that row of its input block is row `r` of `X`: the two dense
    layers applied to row `r`. -/
theorem point_eq (x0 : Vec Ideal S1024x64 .f32) (x1 : Vec Ideal S2x64x64 .f32) (x2 : Vec Ideal S2x64 .f32)
    (X : Fin 8192 → Fin 64 → EReal) (p : Fin 1024) (q : Fin 64) (r : Fin 8192) (h0 : ∀ k, x0 (ix2 p k) = X r k) :
    Gen.k0_pay1 (F := Ideal) x0 (View.ld x1 Gen.r0_1) (View.ld x2 Gen.r0_2) (View.ld x1 Gen.r0_3) (View.ld x2 Gen.r0_4)
      (ix2 p q) = gstack (cur3 x1) (cur2 x2) X r q := by
  rw [Pay.pay0_apply, ld_w0, ld_w1, ld_b0, ld_b1]
  unfold gstack
  rw [show cur2 x0 p = X r from funext h0]

/-- A whole block of a point: the stored value at an index `y` of the block is the two dense layers on the array's row
    `1024 · T + y₀`, when the input block holds the array's rows `1024 · T …`. -/
theorem block_eq (x0 : Vec Ideal S1024x64 .f32) (x1 : Vec Ideal S2x64x64 .f32) (x2 : Vec Ideal S2x64 .f32)
    (A0 : S8192x64.Idx → EReal) (T : ℕ)
    (h0 : ∀ (p : Fin 1024) (k : Fin 64) (r : Fin 8192), r.val = T * 1024 + p.val → x0 (ix2 p k) = A0 (ix2 r k))
    (y : S1024x64.Idx) (i : S8192x64.Idx) (hi0 : (i 0).val = T * 1024 + (y 0).val) (hi1 : (i 1).val = (y 1).val) :
    Gen.k0_pay1 (F := Ideal) x0 (View.ld x1 Gen.r0_1) (View.ld x2 Gen.r0_2) (View.ld x1 Gen.r0_3) (View.ld x2 Gen.r0_4) y
      = unc2 (gstack (cur3 x1) (cur2 x2) (cur2 A0)) i := by
  obtain ⟨p, q, rfl⟩ : ∃ (p : Fin 1024) (q : Fin 64), y = ix2 p q := ⟨y 0, y 1, eq_ix2 y⟩
  obtain ⟨r, s, rfl⟩ : ∃ (r : Fin 8192) (s : Fin 64), i = ix2 r s := ⟨i 0, i 1, eq_ix2 i⟩
  obtain rfl : s = q := Fin.ext hi1
  rw [unc2_ix2]
  exact point_eq x0 x1 x2 (cur2 A0) p s r (fun k => h0 p k r hi0)

theorem hz : (![0, 0] : Fin 2 → Nat) = fun _ => 0 := funext fun a => by fin_cases a <;> rfl

/-- The index maps over the grid: point `t` reads block `t` of the input rows and writes block `t` of the output rows;
    the weights and biases are one block each. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block of point `t` holds rows `1024 · t …` of the input array. -/
theorem iblk0_apply (c : Dev nD) (t : Fin cfg0.N) (p : Fin 1024) (k : Fin 64) (r : Fin 8192)
    (hr : r.val = t.val * 1024 + p.val) :
    (iblk0 V c 0 t : Vec Ideal S1024x64 .f32) (ix2 p k) = (V c main_arg0 : S8192x64.Idx → EReal) (ix2 r k) := by
  obtain ⟨e0, e1, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 64 + 1 * k.val = k.val; rw [e1]; omega

/-- The weights' block is the whole stack at every point. -/
theorem iblk1_eq (c : Dev nD) (t : Fin cfg0.N) :
    (iblk0 V c 1 t : Vec Ideal S2x64x64 .f32) = (V c main_arg1 : S2x64x64.Idx → EReal) := by
  obtain ⟨-, -, e0, e1, e2, -⟩ := idx_facts t
  funext y
  show V c main_arg1 (((cfg0.win 1).blk t).view.emb y) = V c main_arg1 y
  refine congrArg _ (funext fun a => Fin.ext ?_)
  match a with
  | ⟨0, _⟩ => show win0_1.index t (0 : Fin 3) * 2 + 1 * (y 0).val = (y 0).val; rw [e0]; omega
  | ⟨1, _⟩ => show win0_1.index t (1 : Fin 3) * 64 + 1 * (y 1).val = (y 1).val; rw [e1]; omega
  | ⟨2, _⟩ => show win0_1.index t (2 : Fin 3) * 64 + 1 * (y 2).val = (y 2).val; rw [e2]; omega

/-- The biases' block is the whole stack at every point. -/
theorem iblk2_eq (c : Dev nD) (t : Fin cfg0.N) :
    (iblk0 V c 2 t : Vec Ideal S2x64 .f32) = (V c main_arg2 : S2x64.Idx → EReal) := by
  obtain ⟨-, -, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 2 + 1 * (y 0).val = (y 0).val; rw [e0]; omega
  | ⟨1, _⟩ => show win0_2.index t (1 : Fin 2) * 64 + 1 * (y 1).val = (y 1).val; rw [e1]; omega

/-- The array the region leaves: the two dense layers on every row of the input array. -/
abbrev G0 (c : Dev nD) : S8192x64.Idx → EReal :=
  unc2 (gstack (cur3 (V c main_arg1 : S2x64x64.Idx → EReal)) (cur2 (V c main_arg2 : S2x64.Idx → EReal))
          (cur2 (V c main_arg0 : S8192x64.Idx → EReal)))

/-- What point `t` writes back is block `t` of that array. -/
theorem flushed_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S1024x64) hz]
  rw [iblk1_eq V c t, iblk2_eq V c t]
  funext j
  rw [View.read_apply]
  obtain ⟨-, -, -, -, -, -, -, e7, e8⟩ := idx_facts t
  refine block_eq (iblk0 V c 0 t) _ _ (V c main_arg0) t.val (fun p k r hr => iblk0_apply V c t p k r hr) _ _ ?_ ?_
  · show win0_3.index t (0 : Fin 2) * 1024 + 1 * (j 0).val = t.val * 1024 + (j 0).val
    rw [e7]; omega
  · show win0_3.index t (1 : Fin 2) * 64 + 1 * (j 1).val = (j 1).val
    rw [e8]; omega

/-- An index of the output array is in point `t`'s block iff each coordinate is in the block's range on its axis. -/
theorem mem_blk (t : Fin cfg0.N) (i : S8192x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v0).slice (win0_3.rect t)).set ↔ _
  rw [View.set_slice_whole, Rect.mem_set_unit]
  exact Iff.rfl

/-- Row `r` of the output array is written back by point `r / 1024`, so the eight blocks cover the array. -/
theorem cover (i : S8192x64.Idx) :
    ∃ t : Fin cfg0.N, (cfg0.win 3).flush t = true ∧ i ∈ ((cfg0.win 3).blk t).view.set := by
  have hN : grid0.N = 8 := Gen.N_0
  have hi0 : (i 0).val < 8192 := (i 0).isLt
  have hi1 : (i 1).val < 64 := (i 1).isLt
  have ht : (i 0).val / 1024 < cfg0.N := by show _ < grid0.N; omega
  obtain ⟨-, -, -, -, -, -, -, e7, e8⟩ := idx_facts ⟨(i 0).val / 1024, ht⟩
  refine ⟨⟨(i 0).val / 1024, ht⟩, flush0_3 _, ?_⟩
  rw [mem_blk]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e7]; show (i 0).val / 1024 * 1024 ≤ (i 0).val ∧ (i 0).val < (i 0).val / 1024 * 1024 + 1024; omega
  | ⟨1, _⟩ =>
    show win0_3.index ⟨(i 0).val / 1024, ht⟩ (1 : Fin 2) * 64 ≤ (i 1).val
      ∧ (i 1).val < win0_3.index ⟨(i 0).val / 1024, ht⟩ (1 : Fin 2) * 64 + 64
    rw [e8]; omega

/-- After the first region its output array holds the two dense layers applied to every row of the input array, with
    the weights and biases as the region finds them. -/
theorem arr (c : Dev nD) :
    ((dat0 V c).arrAt 3 cfg0.N : S8192x64.Idx → EReal)
      = unc2 (gstack (cur3 (V c main_arg1 : S2x64x64.Idx → EReal)) (cur2 (V c main_arg2 : S2x64.Idx → EReal))
          (cur2 (V c main_arg0 : S8192x64.Idx → EReal))) :=
  (dat0 V c).arrAt_eq_of_cover 3 (G0 V c) (fun t _ => flushed_eq V c t) cover

end Cert.KernelIdeal.R0

end
-- ==== Proof.Pay1.lean ====
import proofs.«104786_j3375844295380_1_alg».proof.Proof.Spec
import proofs.«104786_j3375844295380_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
One trip of the first chord layer, read at one entry.

The trip takes a block of 512 rows `x` of the input, the hidden layer's weights `w₀`, `b₀`, a chunk of 512 rows
`wL` and 512 entries `bL` of the score layer, and the matching 512 rows `V` of the value array.  It forms the hidden
rows `h p = max (x p · w₀ᵀ + b₀) 0`, the scores `s p b = max (h p · wL b + bL b) 0`, keeps a score only where the
pair (row of the whole array, column of the whole array) lies on the chord pattern, and adds `∑_b s p b · V b q` to
the carried entry.  Over the extended reals the narrowing and widening of formats are the identity, so every step is
an exact sum, maximum or choice, and the statement needs no finiteness.

The file has four parts: the layout operations at an entry (transposes, row broadcasts, the two counters); the three
products as sums over the contracted coordinate; the mask, an equation between 32-bit words turned into the chord
pattern on naturals that stay far below `2 ^ 32`; and the assembly.
-/

noncomputable section

namespace Cert.KernelIdeal.Pay

open Idealize.ShloMosaic Idealize.ShloMosaic.ValueIdx Cert.KernelIdeal Cert.Chord
open scoped BigOperators

namespace K1

/-! ## Layout operations at an entry -/

section Layout
variable {α : Type}

/-- The transpose of a square array at `(a, b)` is the array at `(b, a)`. -/
theorem transpose_sq_apply (x : S64x64.Idx → α) (a b : Fin 64) :
    transpose S64x64 [1, 0] x Gen.transposes_S64x64_p1_0_S64x64 (ix2 a b) = x (ix2 b a) :=
  transpose_apply [1, 0] x Gen.transposes_S64x64_p1_0_S64x64 (ix2 a b) (ix2 b a) (fun c => match c with
    | ⟨0, _⟩ => rfl
    | ⟨1, _⟩ => rfl)

/-- The transpose of a `512 × 64` array at `(e, b)` is the array at `(b, e)`. -/
theorem transpose_tall_apply (x : S512x64.Idx → α) (e : Fin 64) (b : Fin 512) :
    transpose S64x512 [1, 0] x Gen.transposes_S512x64_p1_0_S64x512 (ix2 e b) = x (ix2 b e) :=
  transpose_apply [1, 0] x Gen.transposes_S512x64_p1_0_S64x512 (ix2 e b) (ix2 b e) (fun c => match c with
    | ⟨0, _⟩ => rfl
    | ⟨1, _⟩ => rfl)

/-- A row of 64 entries repeated down 512 rows: entry `(p, q)` is the row's entry `q`. -/
theorem bcast_row64_apply (x : S1x64.Idx → α) (p : Fin 512) (q : Fin 64) :
    broadcastTo S512x64 x Gen.broadcasts_S1x64_S512x64 (ix2 p q) = x (ix2 0 q) :=
  broadcastTo_apply x Gen.broadcasts_S1x64_S512x64 (ix2 p q) (ix2 0 q) (fun a => match a with
    | ⟨0, _⟩ => rfl
    | ⟨1, _⟩ => rfl)

/-- A row of 512 entries repeated down 512 rows: entry `(p, b)` is the row's entry `b`. -/
theorem bcast_row512_apply (x : S1x512.Idx → α) (p : Fin 512) (b : Fin 512) :
    broadcastTo S512x512 x Gen.broadcasts_S1x512_S512x512 (ix2 p b) = x (ix2 0 b) :=
  broadcastTo_apply x Gen.broadcasts_S1x512_S512x512 (ix2 p b) (ix2 0 b) (fun a => match a with
    | ⟨0, _⟩ => rfl
    | ⟨1, _⟩ => rfl)

/-- The row counter at `(p, b)` is the word of `p`. -/
theorem iota_rows_apply (p b : Fin 512) :
    iota .tc S512x512 32 [0] Gen.iota_S512x512_d0_w32 (ix2 p b) = BitVec.ofNat 32 p.val :=
  iota_single_apply .tc S512x512 32 0 Gen.iota_S512x512_d0_w32 (ix2 p b)

/-- The column counter at `(p, b)` is the word of `b`. -/
theorem iota_cols_apply (p b : Fin 512) :
    iota .tc S512x512 32 [1] Gen.iota_S512x512_d1_w32 (ix2 p b) = BitVec.ofNat 32 b.val :=
  iota_single_apply .tc S512x512 32 1 Gen.iota_S512x512_d1_w32 (ix2 p b)

end Layout

/-! ## The three products

Each product contracts the second coordinate of its left factor with the first coordinate of its right factor and
starts from the zero array, so its entry `(p, q)` is `∑ₖ A (p, k) · B (k, q)`.  For each of the three shapes the four
coordinate equations of the two operand indices come first; the sum is then re-indexed from the one-coordinate
contraction index to `Fin n`. -/

section Products

/-- In the hidden layer's product (`512 × 64` by `64 × 64`) the left factor is read at the output's row … -/
theorem lhs_hidden_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
/-- … and at the contracted coordinate. -/
theorem lhs_hidden_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
/-- The right factor is read at the contracted coordinate … -/
theorem rhs_hidden_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
/-- … and at the output's column. -/
theorem rhs_hidden_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- Entry `(p, q)` of the hidden layer's product (`512 × 64` by `64 × 64`), started from zero: `∑ₖ A (p, k) · B (k, q)`. -/
theorem matmul_hidden_apply {φ₁ φ₂ : FTy} (A : FVec Ideal S512x64 φ₁) (B : FVec Ideal S64x64 φ₂) (p : Fin 512) (q : Fin 64) :
    matmul (F := Ideal) dot_S512x64_S64x64_S512x64_1_0_0_1_n_n none A B (constant (F := Ideal) S512x64 .f32 0x00000000#32) (ix2 p q)
      = ∑ k : Fin 64, A (ix2 p k) * B (ix2 k q) := by
  simp only [matmul]
  rw [Ideal.matmul_constant_zero_apply, ← Equiv.sum_comp (ValueIdx.contrEquiv1 dot_S512x64_S64x64_S512x64_1_0_0_1_n_n 64 rfl rfl).symm]
  refine Finset.sum_congr rfl fun k _ => ?_
  have hk := ValueIdx.contrEquiv1_symm_val dot_S512x64_S64x64_S512x64_1_0_0_1_n_n 64 rfl rfl k
  have el : dot_S512x64_S64x64_S512x64_1_0_0_1_n_n.lhsIdx (ix2 p q) ((ValueIdx.contrEquiv1 dot_S512x64_S64x64_S512x64_1_0_0_1_n_n 64 rfl rfl).symm k) = ix2 p k := funext fun a => Fin.ext (by
    match a with
    | ⟨0, _⟩ => exact lhs_hidden_0 _ _
    | ⟨1, _⟩ => exact (lhs_hidden_1 _ _).trans hk)
  have er : dot_S512x64_S64x64_S512x64_1_0_0_1_n_n.rhsIdx (ix2 p q) ((ValueIdx.contrEquiv1 dot_S512x64_S64x64_S512x64_1_0_0_1_n_n 64 rfl rfl).symm k) = ix2 k q := funext fun a => Fin.ext (by
    match a with
    | ⟨0, _⟩ => exact (rhs_hidden_0 _ _).trans hk
    | ⟨1, _⟩ => exact rhs_hidden_1 _ _)
  rw [el, er]

/-- In the score product (`512 × 64` by `64 × 512`) the left factor is read at the output's row … -/
theorem lhs_score_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
/-- … and at the contracted coordinate. -/
theorem lhs_score_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
/-- The right factor is read at the contracted coordinate … -/
theorem rhs_score_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
/-- … and at the output's column. -/
theorem rhs_score_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- Entry `(p, q)` of the score product (`512 × 64` by `64 × 512`), started from zero: `∑ₖ A (p, k) · B (k, q)`. -/
theorem matmul_score_apply {φ₁ φ₂ : FTy} (A : FVec Ideal S512x64 φ₁) (B : FVec Ideal S64x512 φ₂) (p : Fin 512) (q : Fin 512) :
    matmul (F := Ideal) dot_S512x64_S64x512_S512x512_1_0_0_1_n_n none A B (constant (F := Ideal) S512x512 .f32 0x00000000#32) (ix2 p q)
      = ∑ k : Fin 64, A (ix2 p k) * B (ix2 k q) := by
  simp only [matmul]
  rw [Ideal.matmul_constant_zero_apply, ← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 p q) ((ValueIdx.contrEquiv1 dot_S512x64_S64x512_S512x512_1_0_0_1_n_n 64 rfl rfl).symm k) = ix2 p k := funext fun a => Fin.ext (by
    match a with
    | ⟨0, _⟩ => exact lhs_score_0 _ _
    | ⟨1, _⟩ => exact (lhs_score_1 _ _).trans hk)
  have er : dot_S512x64_S64x512_S512x512_1_0_0_1_n_n.rhsIdx (ix2 p q) ((ValueIdx.contrEquiv1 dot_S512x64_S64x512_S512x512_1_0_0_1_n_n 64 rfl rfl).symm k) = ix2 k q := funext fun a => Fin.ext (by
    match a with
    | ⟨0, _⟩ => exact (rhs_score_0 _ _).trans hk
    | ⟨1, _⟩ => exact rhs_score_1 _ _)
  rw [el, er]

/-- In the product of the masked scores with the value rows (`512 × 512` by `512 × 64`) the left factor is read at the output's row … -/
theorem lhs_mix_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
/-- … and at the contracted coordinate. -/
theorem lhs_mix_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
/-- The right factor is read at the contracted coordinate … -/
theorem rhs_mix_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
/-- … and at the output's column. -/
theorem rhs_mix_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Entry `(p, q)` of the product of the masked scores with the value rows (`512 × 512` by `512 × 64`), started from zero: `∑ₖ A (p, k) · B (k, q)`. -/
theorem matmul_mix_apply {φ₁ φ₂ : FTy} (A : FVec Ideal S512x512 φ₁) (B : FVec Ideal S512x64 φ₂) (p : Fin 512) (q : Fin 64) :
    matmul (F := Ideal) dot_S512x512_S512x64_S512x64_1_0_0_1_n_n none A B (constant (F := Ideal) S512x64 .f32 0x00000000#32) (ix2 p q)
      = ∑ k : Fin 512, A (ix2 p k) * B (ix2 k q) := by
  simp only [matmul]
  rw [Ideal.matmul_constant_zero_apply, ← Equiv.sum_comp (ValueIdx.contrEquiv1 dot_S512x512_S512x64_S512x64_1_0_0_1_n_n 512 rfl rfl).symm]
  refine Finset.sum_congr rfl fun k _ => ?_
  have hk := ValueIdx.contrEquiv1_symm_val dot_S512x512_S512x64_S512x64_1_0_0_1_n_n 512 rfl rfl k
  have el : dot_S512x512_S512x64_S512x64_1_0_0_1_n_n.lhsIdx (ix2 p q) ((ValueIdx.contrEquiv1 dot_S512x512_S512x64_S512x64_1_0_0_1_n_n 512 rfl rfl).symm k) = ix2 p k := funext fun a => Fin.ext (by
    match a with
    | ⟨0, _⟩ => exact lhs_mix_0 _ _
    | ⟨1, _⟩ => exact (lhs_mix_1 _ _).trans hk)
  have er : dot_S512x512_S512x64_S512x64_1_0_0_1_n_n.rhsIdx (ix2 p q) ((ValueIdx.contrEquiv1 dot_S512x512_S512x64_S512x64_1_0_0_1_n_n 512 rfl rfl).symm k) = ix2 k q := funext fun a => Fin.ext (by
    match a with
    | ⟨0, _⟩ => exact (rhs_mix_0 _ _).trans hk
    | ⟨1, _⟩ => exact rhs_mix_1 _ _)
  rw [el, er]

end Products

/-! ## The mask

Rows and columns of the whole array are numbered below `8192`, their words are formed as `base · 512 + counter`, and the
three comparisons are equalities of such words; below `2 ^ 32` a word determines its natural. -/

section Mask

/-- Two naturals below `2 ^ 32` are equal exactly when their 32-bit words are. -/
theorem word_eq_iff (a b : ℕ) (ha : a < 2 ^ 32) (hb : b < 2 ^ 32) : BitVec.ofNat 32 a = BitVec.ofNat 32 b ↔ a = b := by
  constructor
  · intro h
    have e := congrArg BitVec.toNat h
    rwa [BitVec.toNat_ofNat, BitVec.toNat_ofNat, Nat.mod_eq_of_lt ha, Nat.mod_eq_of_lt hb] at e
  · intro h; rw [h]

/-- The chord word of a row word `r` and a column word `c`: diagonal, superdiagonal, or the corner. -/
def chordWord (R C : BitVec 32) : BitVec 1 :=
  IntOp.ori (IntOp.ori (IntOp.cmpi .eq R C) (IntOp.cmpi .eq (IntOp.addi R 1#32) C))
    (IntOp.andi (IntOp.cmpi .eq R 8191#32) (IntOp.cmpi .eq C 0#32))

theorem chordWord_iff (r c : ℕ) (hr : r + 1 < 2 ^ 32) (hc : c < 2 ^ 32) :
    chordWord (BitVec.ofNat 32 r) (BitVec.ofNat 32 c) = 1#1 ↔ chordNat r c := by
  unfold chordWord chordNat
  rw [IntOp.ori_eq_one, IntOp.ori_eq_one, IntOp.andi_eq_one, IntOp.cmpi_eq, IntOp.cmpi_eq, IntOp.cmpi_eq, IntOp.cmpi_eq]
  have e1 : IntOp.addi (BitVec.ofNat 32 r) 1#32 = BitVec.ofNat 32 (r + 1) := (BitVec.ofNat_add r 1).symm
  rw [e1, word_eq_iff r c (by omega) hc, word_eq_iff (r + 1) c hr hc,
    word_eq_iff r 8191 (by omega) (by omega), word_eq_iff c 0 hc (by omega)]
  constructor
  · rintro ((h | h) | h)
    · exact Or.inl h.symm
    · exact Or.inr (Or.inl h.symm)
    · exact Or.inr (Or.inr h)
  · rintro (h | h | h)
    · exact Or.inl (Or.inl h.symm)
    · exact Or.inl (Or.inr h.symm)
    · exact Or.inr h

/-- The row word: the block's base `512 · a` plus the row inside the block. -/
theorem row_word (a p : ℕ) :
    IntOp.addi (Scalar.muli (BitVec.ofNat 32 a) 512#32) (BitVec.ofNat 32 p) = BitVec.ofNat 32 (512 * a + p) := by
  show BitVec.ofNat 32 a * BitVec.ofNat 32 512 + BitVec.ofNat 32 p = _
  rw [← BitVec.ofNat_mul, ← BitVec.ofNat_add, Nat.mul_comm]

/-- The column word of trip `k`: the trip's base `512 · k` plus the column inside the chunk. -/
theorem col_word (k b : ℕ) :
    IntOp.addi (Scalar.muli (Scf.iv 0#32 1#32 k) 512#32) (BitVec.ofNat 32 b) = BitVec.ofNat 32 (512 * k + b) := by
  have e : Scf.iv 0#32 1#32 k = BitVec.ofNat 32 k := by
    unfold Scf.iv
    rw [BitVec.zero_add, BitVec.mul_one]
  rw [e]
  exact row_word k b

end Mask

/-! ## Pieces of the assembly -/

section Assembly

/-- The zero word is the extended real `0`. -/
theorem zero_word : (FloatOps.ofBits .f32 0x00000000#32 : Ideal .f32) = 0 := Ideal.ofBits_zero_f32

/-- The mask array at an index is the chord word of the row array and the column array there. -/
theorem mask_word (R C : IVec S512x512 32) (j : S512x512.Idx) :
    (ori (ori (cmpi .eq R C) (cmpi .eq (addi R (broadcast S512x512 1#32)) C))
      (andi (cmpi .eq R (broadcast S512x512 8191#32)) (cmpi .eq C (broadcast S512x512 0#32)))) j
      = chordWord (R j) (C j) := rfl

/-- A base word plus the row counter, at row `p`. -/
theorem row_vec_apply (w : BitVec 32) (p b : Fin 512) :
    (addi (broadcast S512x512 w) (iota .tc S512x512 32 [0] Gen.iota_S512x512_d0_w32)) (ix2 p b)
      = IntOp.addi w (BitVec.ofNat 32 p.val) := by
  show IntOp.addi w (iota .tc S512x512 32 [0] Gen.iota_S512x512_d0_w32 (ix2 p b)) = _
  rw [iota_rows_apply]

/-- A base word plus the column counter, at column `b`. -/
theorem col_vec_apply (w : BitVec 32) (p b : Fin 512) :
    (addi (broadcast S512x512 w) (iota .tc S512x512 32 [1] Gen.iota_S512x512_d1_w32)) (ix2 p b)
      = IntOp.addi w (BitVec.ofNat 32 b.val) := by
  show IntOp.addi w (iota .tc S512x512 32 [1] Gen.iota_S512x512_d1_w32 (ix2 p b)) = _
  rw [iota_cols_apply]

/-- Selecting by the chord word of two small naturals is the `if` on the chord pattern. -/
theorem select_chord (r c : ℕ) (hr : r + 1 < 2 ^ 32) (hc : c < 2 ^ 32) (x y : EReal) :
    Scalar.select (chordWord (BitVec.ofNat 32 r) (BitVec.ofNat 32 c)) x y = if chordNat r c then x else y := by
  by_cases h : chordNat r c
  · rw [if_pos h, (chordWord_iff r c hr hc).2 h, select_one]
  · rw [if_neg h, eq_zero_of_ne_one (fun e => h ((chordWord_iff r c hr hc).1 e)), select_zero]

end Assembly

end K1

open K1

/-- The accumulator of the second kernel starts at zero. -/
theorem pay1_1_apply (y : S512x64.Idx) : Gen.k1_pay1 (F := Ideal) y = 0 := by
  unfold Gen.k1_pay1
  exact Ideal.ofBits_zero_f32

/-- One trip of the second kernel's loop, at row `p`, column `q` of the row block: the carried value plus the
    trip's 512 masked scores against the trip's 512 rows of the value array.  The row of the whole array is
    `512 · i + p`, the trip's columns are `512 · k + b`. -/
theorem pay1_2_apply (i : grid1.Coords) (v1 : Vec Ideal S512x64 .f32) (v3 : Vec Ideal S64x64 .f32) (v6 : Vec Ideal S1x64 .f32)
    (k : Fin k1_t1_loop.trips) (acc : FVec Ideal S512x64 .f32) (v22 : Vec Ideal S512x64 .f32) (v26 : Vec Ideal S1x512 .f32)
    (v55 : Vec Ideal S512x64 .f32) (p : Fin 512) (q : Fin 64) :
    Gen.k1_pay2 (F := Ideal) i v1 v3 v6 k acc v22 v26 v55 (ix2 p q)
      = acc (ix2 p q) + ∑ b : Fin 512,
          (if chordNat (512 * (i 0).val + p.val) (512 * k.val + b.val)
            then max ((∑ e : Fin 64, dense (cur2 v3) (row v6) (cur2 v1 p) e * v22 (ix2 b e)) + v26 (ix2 0 b)) 0
            else 0) * v55 (ix2 b q) := by
  have hi : (i 0).val < 16 := (i 0).isLt
  have hk : k.val < 16 := Nat.lt_of_lt_of_le k.isLt Gen.k1_t1_abs.2.1
  unfold Gen.k1_pay2
  simp only [shapeCast_self]
  -- the outer sum: the carried entry plus the masked scores against the value rows
  rw [addf_apply, matmul_mix_apply]
  refine congrArg (acc (ix2 p q) + ·) (Finset.sum_congr rfl fun b _ => ?_)
  have hr : 512 * (i 0).val + p.val + 1 < 2 ^ 32 := by have := p.isLt; omega
  have hc : 512 * k.val + b.val < 2 ^ 32 := by have := b.isLt; omega
  -- the mask at `(p, b)` is the chord pattern at row `512 · i + p`, column `512 · k + b`
  rw [truncf_apply, truncf_apply, select_apply, mask_word, row_vec_apply, col_vec_apply, row_word, col_word,
    select_chord _ _ hr hc, broadcast_apply, zero_word]
  -- the score at `(p, b)`: the hidden row `p` against row `b` of the chunk, plus the chunk's bias
  rw [maximumf_apply, addf_apply, matmul_score_apply, bcast_row512_apply, broadcast_apply]
  refine congrArg (fun s => (if chordNat (512 * (i 0).val + p.val) (512 * k.val + b.val) then max (s + v26 (ix2 0 b)) 0 else 0) * v55 (ix2 b q))
    (Finset.sum_congr rfl fun e _ => ?_)
  -- the hidden entry `(p, e)` is the dense layer of row `p`
  rw [transpose_tall_apply, truncf_apply, truncf_apply, maximumf_apply, addf_apply, matmul_hidden_apply, bcast_row64_apply,
    broadcast_apply]
  unfold dense cur2 row
  refine congrArg (fun s => max (s + v6 (ix2 0 e)) 0 * v22 (ix2 b e)) (Finset.sum_congr rfl fun c _ => ?_)
  rw [truncf_apply, transpose_sq_apply, truncf_apply]

end Cert.KernelIdeal.Pay

end
-- ==== Proof.Region1.lean ====
import proofs.«104786_j3375844295380_1_alg».proof.Proof.Spec
import proofs.«104786_j3375844295380_1_alg».proof.Proof.Pay1
import proofs.«104786_j3375844295380_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

/-!
  The second region's output array is one chord layer of the value array the region finds.

  The region's grid has sixteen points; point `t` owns rows `512 · t … 512 · t + 511`.  At a point the kernel starts a
  512 × 64 accumulator at zero and makes sixteen trips; trip `a` adds, for each of the point's rows, the masked scores
  of that row against columns `512 · a … 512 · a + 511` times those rows of the value array.  So after the sixteen
  trips entry `(p, q)` of the accumulator is the sum over the sixteen chunks of 512 columns, which is the chord
  layer's sum over all 8192 columns at row `512 · t + p`.  The point's blocks are rows of the input array (window 0)
  and the five other operands whole (windows 1 to 5); the sixteen output blocks tile the output array.
-/

noncomputable section

namespace Cert.KernelIdeal.R1

open Idealize.ShloMosaic Idealize.ShloMosaic.TcCoe Idealize.ShloMosaic.ValueIdx Idealize.SL.Sem Idealize.ShloMosaic.Tactic
open Cert.KernelIdeal Cert.KernelIdeal.Gen Cert.Chord
open scoped BigOperators

/-! ## The kernel's one store and one trip, at any float instance -/

section Generic
variable {F : FTy → Type} [FloatOps F]

/-- The zero offsets of a whole-block access. -/
theorem hz : (![0, 0] : Fin 2 → Nat) = fun _ => 0 := funext fun a => by fin_cases a <;> rfl

/-- What the kernel leaves in its output block is the loop's carried value after the last trip, started from the
    zero accumulator, over the blocks the kernel loads whole (input rows, hidden weights, hidden bias) and the contents
    of the three buffers the trips load from. -/
theorem out1_A_6_eq (c : Dev nD) (i : grid1.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec F S512x64 .f32) (x1 : Vec F S64x64 .f32) (x2 : Vec F S1x64 .f32) (x3 : Vec F S8192x64 .f32) (x4 : Vec F S1x8192 .f32) (x5 : Vec F S8192x64 .f32) :
    out1_A_6 (F := F) c i arg1 harg1 arg2 harg2 arg3 harg3 arg4 harg4 arg5 harg5 arg6 harg6 arg7 harg7 x0 x1 x2 x3 x4 x5
      = st_k1_t1 Variants.none c none i arg1 harg1 arg2 harg2 arg3 harg3 arg4 harg4 arg5 harg5 arg6 harg6 arg7 harg7 x0 x1 x2 (harg4.unread x3) (harg5.unread x4) (harg6.unread x5) k1_pay1 k1_t1_loop.trips := by
  unfold out1_A_6
  rw [View.read_writes_eq_canon _ _ _ (cover1_A_6 c i arg1 harg1 arg2 harg2 arg3 harg3 arg4 harg4 arg5 harg5 arg6 harg6 arg7 harg7 x0 x1 x2 x3 x4 x5)]
  unfold kernelRun1_A
  dsimp only
  sl_unfold_words
  rw [View.canon_unit_zero hz]
  simp only [View.readAt_eq_ld, harg1.read_unread, harg2.read_unread, harg3.read_unread, View.ld_unit_zero (S := S512x64) hz, View.ld_unit_zero (S := S64x64) hz, View.ld_unit_zero (S := S1x64) hz]

/-- One trip of the loop yields the trip's arithmetic on the carried value and on the three loads at the trip's
    offsets (512 rows of the score weights, 512 columns of the score bias, 512 rows of the value array). -/
theorem tripR_k1_t1_eq (𝒱 : Variants) (bd : Option 𝒱.V) (c : Dev nD) (i : grid1.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (v1 : Vec F S512x64 .f32) (v3 : Vec F S64x64 .f32) (v6 : Vec F S1x64 .f32) (X4 : BufTy.Contents (Elt F) arg4.view.ty) (X5 : BufTy.Contents (Elt F) arg5.view.ty) (X6 : BufTy.Contents (Elt F) arg6.view.ty) (k : Fin k1_t1_loop.trips) (acc : FVec F S512x64 .f32) :
    tripR_k1_t1 (F := F) 𝒱 c bd i arg1 harg1 arg2 harg2 arg3 harg3 arg4 harg4 arg5 harg5 arg6 harg6 arg7 harg7 v1 v3 v6 X4 X5 X6 k acc
      = k1_pay2 i v1 v3 v6 k acc
          (View.readAt (Elt F) arg4.view (Rect.unit (s := S8192x64) (k1_off1 k) S512x64.size (k1_off1_inb k)).toLoadRect X4)
          (View.readAt (Elt F) arg5.view (Rect.unit (s := S1x8192) (k1_off2 k) S1x512.size (k1_off2_inb k)).toLoadRect X5)
          (View.readAt (Elt F) arg6.view (Rect.unit (s := S8192x64) (k1_off1 k) S512x64.size (k1_off1_inb k)).toLoadRect X6) := by
  unfold tripR_k1_t1
  unfold trip_k1_t1
  dsimp only

end Generic

/-! ## The sixteen trips at the extended reals -/

/-- The loop makes sixteen trips. -/
theorem trips1 : k1_t1_loop.trips = 16 := by decide +kernel

/-- Trip number `a` of the sixteen, as the loop counts it. -/
def kk1 (a : Fin 16) : Fin k1_t1_loop.trips := ⟨a.val, by rw [trips1]; exact a.isLt⟩

/-- The trip's 512 rows of an 8192-row array are rows `512 · a + b`. -/
theorem ld1_rows (x : Vec Ideal S8192x64 .f32) (a : Fin 16) (b : Fin 512) (e : Fin 64) :
    View.ld x (Rect.unit (s := S8192x64) (k1_off1 (kk1 a)) S512x64.size (k1_off1_inb (kk1 a))) (ix2 b e) = x (ix2 (col a b) e) := by
  refine congrArg x (funext fun d => Fin.ext ?_)
  match d with
  | ⟨0, _⟩ =>
    show k1_off1 (kk1 a) 0 + 1 * b.val = 512 * a.val + b.val
    rw [k1_off1_eq]; show 512 * a.val + 1 * b.val = _; omega
  | ⟨1, _⟩ =>
    show k1_off1 (kk1 a) 1 + 1 * e.val = e.val
    rw [k1_off1_eq]; show 0 + 1 * e.val = _; omega

/-- The trip's 512 columns of the one-row array are columns `512 · a + b`. -/
theorem ld1_cols (x : Vec Ideal S1x8192 .f32) (a : Fin 16) (b : Fin 512) :
    View.ld x (Rect.unit (s := S1x8192) (k1_off2 (kk1 a)) S1x512.size (k1_off2_inb (kk1 a))) (ix2 0 b) = x (ix2 0 (col a b)) := by
  refine congrArg x (funext fun d => Fin.ext ?_)
  match d with
  | ⟨0, _⟩ =>
    show k1_off2 (kk1 a) 0 + 1 * 0 = 0
    rw [k1_off2_eq]; rfl
  | ⟨1, _⟩ =>
    show k1_off2 (kk1 a) 1 + 1 * b.val = 512 * a.val + b.val
    rw [k1_off2_eq]; show 512 * a.val + 1 * b.val = _; omega

/-- Chunk `a` of a block row's chord sum: the masked scores of row `512 · i + p` (hidden row from the block `x0`,
    the hidden layer `x1`, `x2`) against columns `512 · a + b` of the score layer `x3`, `x4`, times those rows of the
    value array `x5`, at column `q`. -/
def chunk1 (i : grid1.Coords) (x0 : Vec Ideal S512x64 .f32) (x1 : Vec Ideal S64x64 .f32) (x2 : Vec Ideal S1x64 .f32)
    (x3 : Vec Ideal S8192x64 .f32) (x4 : Vec Ideal S1x8192 .f32) (x5 : Vec Ideal S8192x64 .f32) (p : Fin 512) (q : Fin 64)
    (a : Fin 16) : EReal :=
  ∑ b : Fin 512,
    (if chordNat (512 * (i 0).val + p.val) (512 * a.val + b.val)
      then max ((∑ e : Fin 64, dense (cur2 x1) (row x2) (cur2 x0 p) e * x3 (ix2 (col a b) e)) + x4 (ix2 0 (col a b))) 0
      else 0) * x5 (ix2 (col a b) q)

/-- One trip adds its chunk to the carried value. -/
theorem trip1_apply (c : Dev nD) (i : grid1.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec Ideal S512x64 .f32) (x1 : Vec Ideal S64x64 .f32) (x2 : Vec Ideal S1x64 .f32) (x3 : Vec Ideal S8192x64 .f32) (x4 : Vec Ideal S1x8192 .f32) (x5 : Vec Ideal S8192x64 .f32)
    (a : Fin 16) (acc : FVec Ideal S512x64 .f32) (p : Fin 512) (q : Fin 64) :
    tripR_k1_t1 (F := Ideal) Variants.none c none i arg1 harg1 arg2 harg2 arg3 harg3 arg4 harg4 arg5 harg5 arg6 harg6 arg7 harg7 x0 x1 x2 (harg4.unread x3) (harg5.unread x4) (harg6.unread x5) (kk1 a) acc (ix2 p q)
      = acc (ix2 p q) + chunk1 i x0 x1 x2 x3 x4 x5 p q a := by
  rw [tripR_k1_t1_eq]
  simp only [View.readAt_eq_ld, harg4.read_unread, harg5.read_unread, harg6.read_unread]
  refine (Pay.pay1_2_apply i x0 x1 x2 (kk1 a) acc _ _ _ p q).trans ?_
  unfold chunk1
  refine congrArg (acc (ix2 p q) + ·) (Finset.sum_congr rfl fun b _ => ?_)
  rw [ld1_rows x5 a b q, ld1_cols x4 a b]
  simp only [ld1_rows x3 a b]
  rfl

/-- The carried value before trip `n` is the sum of the first `n` chunks. -/
theorem st1_apply (c : Dev nD) (i : grid1.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec Ideal S512x64 .f32) (x1 : Vec Ideal S64x64 .f32) (x2 : Vec Ideal S1x64 .f32) (x3 : Vec Ideal S8192x64 .f32) (x4 : Vec Ideal S1x8192 .f32) (x5 : Vec Ideal S8192x64 .f32)
    (p : Fin 512) (q : Fin 64) (n : ℕ) (hn : n ≤ 16) :
    st_k1_t1 (F := Ideal) Variants.none c none i arg1 harg1 arg2 harg2 arg3 harg3 arg4 harg4 arg5 harg5 arg6 harg6 arg7 harg7 x0 x1 x2 (harg4.unread x3) (harg5.unread x4) (harg6.unread x5) k1_pay1 n (ix2 p q)
      = ∑ a ∈ Finset.range n, if h : a < 16 then chunk1 i x0 x1 x2 x3 x4 x5 p q ⟨a, h⟩ else 0 := by
  induction n with
  | zero => rw [Finset.sum_range_zero]; exact Pay.pay1_1_apply _
  | succ n ih =>
    have h : n < 16 := hn
    rw [Finset.sum_range_succ, dif_pos h, ← ih (Nat.le_of_lt h)]
    exact (congrFun (st_k1_t1_succ (F := Ideal) Variants.none c none i arg1 harg1 arg2 harg2 arg3 harg3 arg4 harg4 arg5 harg5 arg6 harg6 arg7 harg7 x0 x1 x2 (harg4.unread x3) (harg5.unread x4) (harg6.unread x5) k1_pay1 (kk1 ⟨n, h⟩)) (ix2 p q)).trans
      (trip1_apply c i arg1 harg1 arg2 harg2 arg3 harg3 arg4 harg4 arg5 harg5 arg6 harg6 arg7 harg7 x0 x1 x2 x3 x4 x5 ⟨n, h⟩ _ p q)

/-- What the kernel leaves in its output block, entry by entry: the sixteen chunks added. -/
theorem out1_apply (c : Dev nD) (i : grid1.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec Ideal S512x64 .f32) (x1 : Vec Ideal S64x64 .f32) (x2 : Vec Ideal S1x64 .f32) (x3 : Vec Ideal S8192x64 .f32) (x4 : Vec Ideal S1x8192 .f32) (x5 : Vec Ideal S8192x64 .f32)
    (p : Fin 512) (q : Fin 64) :
    out1_A_6 (F := Ideal) c i arg1 harg1 arg2 harg2 arg3 harg3 arg4 harg4 arg5 harg5 arg6 harg6 arg7 harg7 x0 x1 x2 x3 x4 x5 (ix2 p q) = ∑ a : Fin 16, chunk1 i x0 x1 x2 x3 x4 x5 p q a := by
  rw [out1_A_6_eq, trips1, st1_apply c i arg1 harg1 arg2 harg2 arg3 harg3 arg4 harg4 arg5 harg5 arg6 harg6 arg7 harg7 x0 x1 x2 x3 x4 x5 p q 16 (Nat.le_refl 16), Finset.sum_range]
  exact Finset.sum_congr rfl fun a _ => dif_pos a.isLt

/-! ## One grid point's block, in the layer's terms -/

/-- A chunk is the chord layer's masked scores against the chunk's columns, once the block's row `p` is row `r` of the
    input rows `X`. -/
theorem chunk1_eq (i : grid1.Coords) (x0 : Vec Ideal S512x64 .f32) (x1 : Vec Ideal S64x64 .f32) (x2 : Vec Ideal S1x64 .f32)
    (x3 : Vec Ideal S8192x64 .f32) (x4 : Vec Ideal S1x8192 .f32) (x5 : Vec Ideal S8192x64 .f32) (p : Fin 512) (q : Fin 64)
    (a : Fin 16) (t : ℕ) (hi : (i 0).val = t) (X : Fin 8192 → Fin 64 → EReal) (r : Fin 8192) (hr : r.val = 512 * t + p.val)
    (hX : ∀ e : Fin 64, x0 (ix2 p e) = X r e) :
    chunk1 i x0 x1 x2 x3 x4 x5 p q a
      = ∑ b : Fin 512, mscore X (cur2 x1) (row x2) (cur2 x3) (row x4) r (col a b) * cur2 x5 (col a b) q := by
  have hrow : cur2 x0 p = X r := funext hX
  unfold chunk1 mscore score chord
  rw [hrow, hi, ← hr]
  rfl

/-- The sixteen chunks of a block row are the chord layer's row. -/
theorem point1_apply (i : grid1.Coords) (x0 : Vec Ideal S512x64 .f32) (x1 : Vec Ideal S64x64 .f32) (x2 : Vec Ideal S1x64 .f32)
    (x3 : Vec Ideal S8192x64 .f32) (x4 : Vec Ideal S1x8192 .f32) (x5 : Vec Ideal S8192x64 .f32) (p : Fin 512) (q : Fin 64)
    (t : ℕ) (hi : (i 0).val = t) (X : Fin 8192 → Fin 64 → EReal) (r : Fin 8192) (hr : r.val = 512 * t + p.val)
    (hX : ∀ e : Fin 64, x0 (ix2 p e) = X r e) :
    ∑ a : Fin 16, chunk1 i x0 x1 x2 x3 x4 x5 p q a = layer X (cur2 x1) (row x2) (cur2 x3) (row x4) (cur2 x5) r q := by
  rw [layer_eq_chunks]
  exact Finset.sum_congr rfl fun a _ => chunk1_eq i x0 x1 x2 x3 x4 x5 p q a t hi X r hr hX

/-! ## The blocks the region stages -/

variable (V : (c : Dev nD) → (b : Ref sig .tc) → Buf (Elt Ideal) ((c : Thread nD τ).loc b))

/-- The seven windows' block indices over the grid: the input rows and the output move with the point, 512 rows a
    block; the five other operands are staged whole; the point's one coordinate is its number. -/
theorem idx1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ ((grid1.coords t) 0).val = t.val :=
  (by decide +kernel : ∀ t : Fin grid1.N, _)

/-- The blocks of the six input windows at point `t`, each at its literal shape. -/
abbrev blk1_0 (c : Dev nD) (t : Fin cfg1.N) : Vec Ideal S512x64 .f32 := iblk1 V c 0 t
abbrev blk1_1 (c : Dev nD) (t : Fin cfg1.N) : Vec Ideal S64x64 .f32 := iblk1 V c 1 t
abbrev blk1_2 (c : Dev nD) (t : Fin cfg1.N) : Vec Ideal S1x64 .f32 := iblk1 V c 2 t
abbrev blk1_3 (c : Dev nD) (t : Fin cfg1.N) : Vec Ideal S8192x64 .f32 := iblk1 V c 3 t
abbrev blk1_4 (c : Dev nD) (t : Fin cfg1.N) : Vec Ideal S1x8192 .f32 := iblk1 V c 4 t
abbrev blk1_5 (c : Dev nD) (t : Fin cfg1.N) : Vec Ideal S8192x64 .f32 := iblk1 V c 5 t

/-- Row `p` of the input rows' block at point `t` is row `512 · t + p` of the array. -/
theorem blk1_0_apply (c : Dev nD) (t : Fin cfg1.N) (p : Fin 512) (e : Fin 64) (r : Fin 8192) (hr : r.val = 512 * t.val + p.val) :
    blk1_0 V c t (ix2 p e) = cur2 (V c main_arg0 : S8192x64.Idx → EReal) r e := by
  obtain ⟨e0, e1, -⟩ := idx1_facts t
  show V c main_arg0 (((cfg1.win 0).blk t).view.emb (ix2 p e)) = V c main_arg0 (ix2 r e)
  refine congrArg (V c main_arg0) (funext fun a => Fin.ext ?_)
  match a with
  | ⟨0, _⟩ => show win1_0.index t (0 : Fin 2) * 512 + 1 * p.val = r.val; rw [e0, hr]; omega
  | ⟨1, _⟩ => show win1_0.index t (1 : Fin 2) * 64 + 1 * e.val = e.val; rw [e1]; omega

/-- The hidden layer's weights are staged whole. -/
theorem blk1_1_eq (c : Dev nD) (t : Fin cfg1.N) : blk1_1 V c t = (V c main_v2 : S64x64.Idx → EReal) := by
  obtain ⟨-, -, e0, e1, -⟩ := idx1_facts t
  funext y
  show V c main_v2 (((cfg1.win 1).blk t).view.emb y) = V c main_v2 y
  refine congrArg (V c main_v2) (funext fun a => Fin.ext ?_)
  match a with
  | ⟨0, _⟩ => show win1_1.index t (0 : Fin 2) * 64 + 1 * (y 0).val = (y 0).val; rw [e0]; omega
  | ⟨1, _⟩ => show win1_1.index t (1 : Fin 2) * 64 + 1 * (y 1).val = (y 1).val; rw [e1]; omega

/-- The hidden layer's bias is staged whole. -/
theorem blk1_2_eq (c : Dev nD) (t : Fin cfg1.N) : blk1_2 V c t = (V c main_v5 : S1x64.Idx → EReal) := by
  obtain ⟨-, -, -, -, e0, e1, -⟩ := idx1_facts t
  funext y
  show V c main_v5 (((cfg1.win 2).blk t).view.emb y) = V c main_v5 y
  refine congrArg (V c main_v5) (funext fun a => Fin.ext ?_)
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- The score layer's weights are staged whole. -/
theorem blk1_3_eq (c : Dev nD) (t : Fin cfg1.N) : blk1_3 V c t = (V c main_v7 : S8192x64.Idx → EReal) := by
  obtain ⟨-, -, -, -, -, -, e0, e1, -⟩ := idx1_facts t
  funext y
  show V c main_v7 (((cfg1.win 3).blk t).view.emb y) = V c main_v7 y
  refine congrArg (V c main_v7) (funext fun a => Fin.ext ?_)
  match a with
  | ⟨0, _⟩ => show win1_3.index t (0 : Fin 2) * 8192 + 1 * (y 0).val = (y 0).val; rw [e0]; omega
  | ⟨1, _⟩ => show win1_3.index t (1 : Fin 2) * 64 + 1 * (y 1).val = (y 1).val; rw [e1]; omega

/-- The score layer's bias is staged whole. -/
theorem blk1_4_eq (c : Dev nD) (t : Fin cfg1.N) : blk1_4 V c t = (V c main_v10 : S1x8192.Idx → EReal) := by
  obtain ⟨-, -, -, -, -, -, -, -, e0, e1, -⟩ := idx1_facts t
  funext y
  show V c main_v10 (((cfg1.win 4).blk t).view.emb y) = V c main_v10 y
  refine congrArg (V c main_v10) (funext fun a => Fin.ext ?_)
  match a with
  | ⟨0, _⟩ => show win1_4.index t (0 : Fin 2) * 1 + 1 * (y 0).val = (y 0).val; rw [e0]; omega
  | ⟨1, _⟩ => show win1_4.index t (1 : Fin 2) * 8192 + 1 * (y 1).val = (y 1).val; rw [e1]; omega

/-- The value array is staged whole. -/
theorem blk1_5_eq (c : Dev nD) (t : Fin cfg1.N) : blk1_5 V c t = (V c main_v0 : S8192x64.Idx → EReal) := by
  obtain ⟨-, -, -, -, -, -, -, -, -, -, e0, e1, -⟩ := idx1_facts t
  funext y
  show V c main_v0 (((cfg1.win 5).blk t).view.emb y) = V c main_v0 y
  refine congrArg (V c main_v0) (funext fun a => Fin.ext ?_)
  match a with
  | ⟨0, _⟩ => show win1_5.index t (0 : Fin 2) * 8192 + 1 * (y 0).val = (y 0).val; rw [e0]; omega
  | ⟨1, _⟩ => show win1_5.index t (1 : Fin 2) * 64 + 1 * (y 1).val = (y 1).val; rw [e1]; omega

/-! ## From the blocks to the array -/

/-- The chord layer of the value array the region finds, as an array. -/
abbrev G1 (c : Dev nD) : S8192x64.Idx → EReal :=
  unc2 (layer (cur2 (V c main_arg0 : S8192x64.Idx → EReal)) (cur2 (V c main_v2 : S64x64.Idx → EReal))
    (row (V c main_v5 : S1x64.Idx → EReal)) (cur2 (V c main_v7 : S8192x64.Idx → EReal))
    (row (V c main_v10 : S1x8192.Idx → EReal)) (cur2 (V c main_v0 : S8192x64.Idx → EReal)))

/-- What the output's staging buffer holds after point `t`, entry by entry: the sixteen chunks over the point's blocks. -/
theorem outs1_apply (c : Dev nD) (t : Fin cfg1.N) (p : Fin 512) (q : Fin 64) :
    (outsAt1 V c t : S512x64.Idx → EReal) (ix2 p q)
      = ∑ a : Fin 16, chunk1 (grid1.coords t) (blk1_0 V c t) (blk1_1 V c t) (blk1_2 V c t) (blk1_3 V c t) (blk1_4 V c t) (blk1_5 V c t) p q a := by
  unfold outsAt1
  exact out1_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
    (blk1_0 V c t) (blk1_1 V c t) (blk1_2 V c t) (blk1_3 V c t) (blk1_4 V c t) (blk1_5 V c t) p q

/-- Point `t` writes back rows `512 · t … 512 · t + 511` of the chord layer. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  funext y
  obtain ⟨p, q, rfl⟩ : ∃ (p : Fin 512) (q : Fin 64), y = ix2 p q := ⟨y 0, y 1, eq_ix2 y⟩
  have hN : cfg1.N = 16 := N_1
  have hr : 512 * t.val + p.val < 8192 := by have := t.isLt; have := p.isLt; omega
  obtain ⟨-, -, -, -, -, -, -, -, -, -, -, -, e0, e1, ec⟩ := idx1_facts t
  have hemb : ((cfg1.win 6).blk t).view.emb (ix2 p q) = (ix2 (⟨512 * t.val + p.val, hr⟩ : Fin 8192) q : S8192x64.Idx) := by
    funext a; apply Fin.ext
    match a with
    | ⟨0, _⟩ => show win1_6.index t (0 : Fin 2) * 512 + 1 * p.val = 512 * t.val + p.val; rw [e0]; omega
    | ⟨1, _⟩ => show win1_6.index t (1 : Fin 2) * 64 + 1 * q.val = q.val; rw [e1]; omega
  show (outsAt1 V c t : S512x64.Idx → EReal) (ix2 p q) = G1 V c (((cfg1.win 6).blk t).view.emb (ix2 p q))
  rw [hemb]
  refine (outs1_apply V c t p q).trans ?_
  refine (point1_apply (grid1.coords t) (blk1_0 V c t) (blk1_1 V c t) (blk1_2 V c t) (blk1_3 V c t) (blk1_4 V c t) (blk1_5 V c t) p q
    t.val ec (cur2 (V c main_arg0 : S8192x64.Idx → EReal)) ⟨512 * t.val + p.val, hr⟩ rfl
    (fun e => blk1_0_apply V c t p e ⟨512 * t.val + p.val, hr⟩ rfl)).trans ?_
  rw [blk1_1_eq V c t, blk1_2_eq V c t, blk1_3_eq V c t, blk1_4_eq V c t, blk1_5_eq V c t]
  rfl

/-- An entry of the array is in point `t`'s block when its row is among the point's 512. -/
theorem mem_blk1_6 (t : Fin cfg1.N) (i : S8192x64.Idx) :
    i ∈ ((cfg1.win 6).blk t).view.set ↔ ∀ a : Fin 2, win1_6.index t a * S512x64.size a ≤ (i a).val ∧ (i a).val < win1_6.index t a * S512x64.size a + S512x64.size a := by
  show i ∈ ((View.whole main_v11).slice (win1_6.rect t)).set ↔ _
  rw [View.set_slice_whole, Rect.mem_set_unit]
  exact Iff.rfl

/-- Row `r` of the array is written back by point `r / 512`. -/
theorem cover1 (i : S8192x64.Idx) : ∃ t : Fin cfg1.N, (cfg1.win 6).flush t = true ∧ i ∈ ((cfg1.win 6).blk t).view.set := by
  have hN : cfg1.N = 16 := N_1
  have hi0 : (i 0).val < 8192 := (i 0).isLt
  have hi1 : (i 1).val < 64 := (i 1).isLt
  refine ⟨⟨(i 0).val / 512, by rw [hN]; omega⟩, flush1_6 _, ?_⟩
  rw [mem_blk1_6]
  obtain ⟨-, -, -, -, -, -, -, -, -, -, -, -, e0, e1, -⟩ := idx1_facts ⟨(i 0).val / 512, by rw [hN]; omega⟩
  intro a
  match a with
  | ⟨0, _⟩ =>
    show win1_6.index _ (0 : Fin 2) * 512 ≤ (i 0).val ∧ (i 0).val < win1_6.index _ (0 : Fin 2) * 512 + 512
    rw [e0]; show (i 0).val / 512 * 512 ≤ (i 0).val ∧ (i 0).val < (i 0).val / 512 * 512 + 512; omega
  | ⟨1, _⟩ =>
    show win1_6.index _ (1 : Fin 2) * 64 ≤ (i 1).val ∧ (i 1).val < win1_6.index _ (1 : Fin 2) * 64 + 64
    rw [e1]; omega

/-- After the second region its output array holds one chord layer of the value array it found (the first region's
    output), with the input rows, the hidden layer's weights and bias, and the score layer's weights and bias as the
    region finds them. -/
theorem arr (c : Dev nD) :
    ((dat1 V c).arrAt 6 cfg1.N : S8192x64.Idx → EReal)
      = unc2 (layer (cur2 (V c main_arg0 : S8192x64.Idx → EReal)) (cur2 (V c main_v2 : S64x64.Idx → EReal))
          (row (V c main_v5 : S1x64.Idx → EReal)) (cur2 (V c main_v7 : S8192x64.Idx → EReal))
          (row (V c main_v10 : S1x8192.Idx → EReal)) (cur2 (V c main_v0 : S8192x64.Idx → EReal))) :=
  (dat1 V c).arrAt_eq_of_cover 6 (G1 V c) (fun t _ => flushed1_eq V c t) cover1

end Cert.KernelIdeal.R1

end
-- ==== Proof.Pay2.lean ====
import proofs.«104786_j3375844295380_1_alg».proof.Proof.Spec
import proofs.«104786_j3375844295380_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
One trip of the second chord layer, read at one entry.

The trip takes a block of 512 rows `x` of the input, the hidden layer's weights `w₀`, `b₀`, a chunk of 512 rows
`wL` and 512 entries `bL` of the score layer, and the matching 512 rows `V` of the value array.  It forms the hidden
rows `h p = max (x p · w₀ᵀ + b₀) 0`, the scores `s p b = max (h p · wL b + bL b) 0`, keeps a score only where the
pair (row of the whole array, column of the whole array) lies on the chord pattern, and adds `∑_b s p b · V b q` to
the carried entry.  Over the extended reals the narrowing and widening of formats are the identity, so every step is
an exact sum, maximum or choice, and the statement needs no finiteness.

The file has four parts: the layout operations at an entry (transposes, row broadcasts, the two counters); the three
products as sums over the contracted coordinate; the mask, an equation between 32-bit words turned into the chord
pattern on naturals that stay far below `2 ^ 32`; and the assembly.
-/

noncomputable section

namespace Cert.KernelIdeal.Pay2

open Idealize.ShloMosaic Idealize.ShloMosaic.ValueIdx Cert.KernelIdeal Cert.Chord
open scoped BigOperators

namespace K1

/-! ## Layout operations at an entry -/

section Layout
variable {α : Type}

/-- The transpose of a square array at `(a, b)` is the array at `(b, a)`. -/
theorem transpose_sq_apply (x : S64x64.Idx → α) (a b : Fin 64) :
    transpose S64x64 [1, 0] x Gen.transposes_S64x64_p1_0_S64x64 (ix2 a b) = x (ix2 b a) :=
  transpose_apply [1, 0] x Gen.transposes_S64x64_p1_0_S64x64 (ix2 a b) (ix2 b a) (fun c => match c with
    | ⟨0, _⟩ => rfl
    | ⟨1, _⟩ => rfl)

/-- The transpose of a `512 × 64` array at `(e, b)` is the array at `(b, e)`. -/
theorem transpose_tall_apply (x : S512x64.Idx → α) (e : Fin 64) (b : Fin 512) :
    transpose S64x512 [1, 0] x Gen.transposes_S512x64_p1_0_S64x512 (ix2 e b) = x (ix2 b e) :=
  transpose_apply [1, 0] x Gen.transposes_S512x64_p1_0_S64x512 (ix2 e b) (ix2 b e) (fun c => match c with
    | ⟨0, _⟩ => rfl
    | ⟨1, _⟩ => rfl)

/-- A row of 64 entries repeated down 512 rows: entry `(p, q)` is the row's entry `q`. -/
theorem bcast_row64_apply (x : S1x64.Idx → α) (p : Fin 512) (q : Fin 64) :
    broadcastTo S512x64 x Gen.broadcasts_S1x64_S512x64 (ix2 p q) = x (ix2 0 q) :=
  broadcastTo_apply x Gen.broadcasts_S1x64_S512x64 (ix2 p q) (ix2 0 q) (fun a => match a with
    | ⟨0, _⟩ => rfl
    | ⟨1, _⟩ => rfl)

/-- A row of 512 entries repeated down 512 rows: entry `(p, b)` is the row's entry `b`. -/
theorem bcast_row512_apply (x : S1x512.Idx → α) (p : Fin 512) (b : Fin 512) :
    broadcastTo S512x512 x Gen.broadcasts_S1x512_S512x512 (ix2 p b) = x (ix2 0 b) :=
  broadcastTo_apply x Gen.broadcasts_S1x512_S512x512 (ix2 p b) (ix2 0 b) (fun a => match a with
    | ⟨0, _⟩ => rfl
    | ⟨1, _⟩ => rfl)

/-- The row counter at `(p, b)` is the word of `p`. -/
theorem iota_rows_apply (p b : Fin 512) :
    iota .tc S512x512 32 [0] Gen.iota_S512x512_d0_w32 (ix2 p b) = BitVec.ofNat 32 p.val :=
  iota_single_apply .tc S512x512 32 0 Gen.iota_S512x512_d0_w32 (ix2 p b)

/-- The column counter at `(p, b)` is the word of `b`. -/
theorem iota_cols_apply (p b : Fin 512) :
    iota .tc S512x512 32 [1] Gen.iota_S512x512_d1_w32 (ix2 p b) = BitVec.ofNat 32 b.val :=
  iota_single_apply .tc S512x512 32 1 Gen.iota_S512x512_d1_w32 (ix2 p b)

end Layout

/-! ## The three products

Each product contracts the second coordinate of its left factor with the first coordinate of its right factor and
starts from the zero array, so its entry `(p, q)` is `∑ₖ A (p, k) · B (k, q)`.  For each of the three shapes the four
coordinate equations of the two operand indices come first; the sum is then re-indexed from the one-coordinate
contraction index to `Fin n`. -/

section Products

/-- In the hidden layer's product (`512 × 64` by `64 × 64`) the left factor is read at the output's row … -/
theorem lhs_hidden_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
/-- … and at the contracted coordinate. -/
theorem lhs_hidden_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
/-- The right factor is read at the contracted coordinate … -/
theorem rhs_hidden_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
/-- … and at the output's column. -/
theorem rhs_hidden_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- Entry `(p, q)` of the hidden layer's product (`512 × 64` by `64 × 64`), started from zero: `∑ₖ A (p, k) · B (k, q)`. -/
theorem matmul_hidden_apply {φ₁ φ₂ : FTy} (A : FVec Ideal S512x64 φ₁) (B : FVec Ideal S64x64 φ₂) (p : Fin 512) (q : Fin 64) :
    matmul (F := Ideal) dot_S512x64_S64x64_S512x64_1_0_0_1_n_n none A B (constant (F := Ideal) S512x64 .f32 0x00000000#32) (ix2 p q)
      = ∑ k : Fin 64, A (ix2 p k) * B (ix2 k q) := by
  simp only [matmul]
  rw [Ideal.matmul_constant_zero_apply, ← Equiv.sum_comp (ValueIdx.contrEquiv1 dot_S512x64_S64x64_S512x64_1_0_0_1_n_n 64 rfl rfl).symm]
  refine Finset.sum_congr rfl fun k _ => ?_
  have hk := ValueIdx.contrEquiv1_symm_val dot_S512x64_S64x64_S512x64_1_0_0_1_n_n 64 rfl rfl k
  have el : dot_S512x64_S64x64_S512x64_1_0_0_1_n_n.lhsIdx (ix2 p q) ((ValueIdx.contrEquiv1 dot_S512x64_S64x64_S512x64_1_0_0_1_n_n 64 rfl rfl).symm k) = ix2 p k := funext fun a => Fin.ext (by
    match a with
    | ⟨0, _⟩ => exact lhs_hidden_0 _ _
    | ⟨1, _⟩ => exact (lhs_hidden_1 _ _).trans hk)
  have er : dot_S512x64_S64x64_S512x64_1_0_0_1_n_n.rhsIdx (ix2 p q) ((ValueIdx.contrEquiv1 dot_S512x64_S64x64_S512x64_1_0_0_1_n_n 64 rfl rfl).symm k) = ix2 k q := funext fun a => Fin.ext (by
    match a with
    | ⟨0, _⟩ => exact (rhs_hidden_0 _ _).trans hk
    | ⟨1, _⟩ => exact rhs_hidden_1 _ _)
  rw [el, er]

/-- In the score product (`512 × 64` by `64 × 512`) the left factor is read at the output's row … -/
theorem lhs_score_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
/-- … and at the contracted coordinate. -/
theorem lhs_score_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
/-- The right factor is read at the contracted coordinate … -/
theorem rhs_score_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
/-- … and at the output's column. -/
theorem rhs_score_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- Entry `(p, q)` of the score product (`512 × 64` by `64 × 512`), started from zero: `∑ₖ A (p, k) · B (k, q)`. -/
theorem matmul_score_apply {φ₁ φ₂ : FTy} (A : FVec Ideal S512x64 φ₁) (B : FVec Ideal S64x512 φ₂) (p : Fin 512) (q : Fin 512) :
    matmul (F := Ideal) dot_S512x64_S64x512_S512x512_1_0_0_1_n_n none A B (constant (F := Ideal) S512x512 .f32 0x00000000#32) (ix2 p q)
      = ∑ k : Fin 64, A (ix2 p k) * B (ix2 k q) := by
  simp only [matmul]
  rw [Ideal.matmul_constant_zero_apply, ← Equiv.sum_comp (ValueIdx.contrEquiv1 dot_S512x64_S64x512_S512x512_1_0_0_1_n_n 64 rfl rfl).symm]
  refine Finset.sum_congr rfl fun k _ => ?_
  have hk := ValueIdx.contrEquiv1_symm_val dot_S512x64_S64x512_S512x512_1_0_0_1_n_n 64 rfl rfl k
  have el : dot_S512x64_S64x512_S512x512_1_0_0_1_n_n.lhsIdx (ix2 p q) ((ValueIdx.contrEquiv1 dot_S512x64_S64x512_S512x512_1_0_0_1_n_n 64 rfl rfl).symm k) = ix2 p k := funext fun a => Fin.ext (by
    match a with
    | ⟨0, _⟩ => exact lhs_score_0 _ _
    | ⟨1, _⟩ => exact (lhs_score_1 _ _).trans hk)
  have er : dot_S512x64_S64x512_S512x512_1_0_0_1_n_n.rhsIdx (ix2 p q) ((ValueIdx.contrEquiv1 dot_S512x64_S64x512_S512x512_1_0_0_1_n_n 64 rfl rfl).symm k) = ix2 k q := funext fun a => Fin.ext (by
    match a with
    | ⟨0, _⟩ => exact (rhs_score_0 _ _).trans hk
    | ⟨1, _⟩ => exact rhs_score_1 _ _)
  rw [el, er]

/-- In the product of the masked scores with the value rows (`512 × 512` by `512 × 64`) the left factor is read at the output's row … -/
theorem lhs_mix_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
/-- … and at the contracted coordinate. -/
theorem lhs_mix_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
/-- The right factor is read at the contracted coordinate … -/
theorem rhs_mix_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
/-- … and at the output's column. -/
theorem rhs_mix_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Entry `(p, q)` of the product of the masked scores with the value rows (`512 × 512` by `512 × 64`), started from zero: `∑ₖ A (p, k) · B (k, q)`. -/
theorem matmul_mix_apply {φ₁ φ₂ : FTy} (A : FVec Ideal S512x512 φ₁) (B : FVec Ideal S512x64 φ₂) (p : Fin 512) (q : Fin 64) :
    matmul (F := Ideal) dot_S512x512_S512x64_S512x64_1_0_0_1_n_n none A B (constant (F := Ideal) S512x64 .f32 0x00000000#32) (ix2 p q)
      = ∑ k : Fin 512, A (ix2 p k) * B (ix2 k q) := by
  simp only [matmul]
  rw [Ideal.matmul_constant_zero_apply, ← Equiv.sum_comp (ValueIdx.contrEquiv1 dot_S512x512_S512x64_S512x64_1_0_0_1_n_n 512 rfl rfl).symm]
  refine Finset.sum_congr rfl fun k _ => ?_
  have hk := ValueIdx.contrEquiv1_symm_val dot_S512x512_S512x64_S512x64_1_0_0_1_n_n 512 rfl rfl k
  have el : dot_S512x512_S512x64_S512x64_1_0_0_1_n_n.lhsIdx (ix2 p q) ((ValueIdx.contrEquiv1 dot_S512x512_S512x64_S512x64_1_0_0_1_n_n 512 rfl rfl).symm k) = ix2 p k := funext fun a => Fin.ext (by
    match a with
    | ⟨0, _⟩ => exact lhs_mix_0 _ _
    | ⟨1, _⟩ => exact (lhs_mix_1 _ _).trans hk)
  have er : dot_S512x512_S512x64_S512x64_1_0_0_1_n_n.rhsIdx (ix2 p q) ((ValueIdx.contrEquiv1 dot_S512x512_S512x64_S512x64_1_0_0_1_n_n 512 rfl rfl).symm k) = ix2 k q := funext fun a => Fin.ext (by
    match a with
    | ⟨0, _⟩ => exact (rhs_mix_0 _ _).trans hk
    | ⟨1, _⟩ => exact rhs_mix_1 _ _)
  rw [el, er]

end Products

/-! ## The mask

Rows and columns of the whole array are numbered below `8192`, their words are formed as `base · 512 + counter`, and the
three comparisons are equalities of such words; below `2 ^ 32` a word determines its natural. -/

section Mask

/-- Two naturals below `2 ^ 32` are equal exactly when their 32-bit words are. -/
theorem word_eq_iff (a b : ℕ) (ha : a < 2 ^ 32) (hb : b < 2 ^ 32) : BitVec.ofNat 32 a = BitVec.ofNat 32 b ↔ a = b := by
  constructor
  · intro h
    have e := congrArg BitVec.toNat h
    rwa [BitVec.toNat_ofNat, BitVec.toNat_ofNat, Nat.mod_eq_of_lt ha, Nat.mod_eq_of_lt hb] at e
  · intro h; rw [h]

/-- The chord word of a row word `r` and a column word `c`: diagonal, superdiagonal, or the corner. -/
def chordWord (R C : BitVec 32) : BitVec 1 :=
  IntOp.ori (IntOp.ori (IntOp.cmpi .eq R C) (IntOp.cmpi .eq (IntOp.addi R 1#32) C))
    (IntOp.andi (IntOp.cmpi .eq R 8191#32) (IntOp.cmpi .eq C 0#32))

theorem chordWord_iff (r c : ℕ) (hr : r + 1 < 2 ^ 32) (hc : c < 2 ^ 32) :
    chordWord (BitVec.ofNat 32 r) (BitVec.ofNat 32 c) = 1#1 ↔ chordNat r c := by
  unfold chordWord chordNat
  rw [IntOp.ori_eq_one, IntOp.ori_eq_one, IntOp.andi_eq_one, IntOp.cmpi_eq, IntOp.cmpi_eq, IntOp.cmpi_eq, IntOp.cmpi_eq]
  have e1 : IntOp.addi (BitVec.ofNat 32 r) 1#32 = BitVec.ofNat 32 (r + 1) := (BitVec.ofNat_add r 1).symm
  rw [e1, word_eq_iff r c (by omega) hc, word_eq_iff (r + 1) c hr hc,
    word_eq_iff r 8191 (by omega) (by omega), word_eq_iff c 0 hc (by omega)]
  constructor
  · rintro ((h | h) | h)
    · exact Or.inl h.symm
    · exact Or.inr (Or.inl h.symm)
    · exact Or.inr (Or.inr h)
  · rintro (h | h | h)
    · exact Or.inl (Or.inl h.symm)
    · exact Or.inl (Or.inr h.symm)
    · exact Or.inr h

/-- The row word: the block's base `512 · a` plus the row inside the block. -/
theorem row_word (a p : ℕ) :
    IntOp.addi (Scalar.muli (BitVec.ofNat 32 a) 512#32) (BitVec.ofNat 32 p) = BitVec.ofNat 32 (512 * a + p) := by
  show BitVec.ofNat 32 a * BitVec.ofNat 32 512 + BitVec.ofNat 32 p = _
  rw [← BitVec.ofNat_mul, ← BitVec.ofNat_add, Nat.mul_comm]

/-- The column word of trip `k`: the trip's base `512 · k` plus the column inside the chunk. -/
theorem col_word (k b : ℕ) :
    IntOp.addi (Scalar.muli (Scf.iv 0#32 1#32 k) 512#32) (BitVec.ofNat 32 b) = BitVec.ofNat 32 (512 * k + b) := by
  have e : Scf.iv 0#32 1#32 k = BitVec.ofNat 32 k := by
    unfold Scf.iv
    rw [BitVec.zero_add, BitVec.mul_one]
  rw [e]
  exact row_word k b

end Mask

/-! ## Pieces of the assembly -/

section Assembly

/-- The zero word is the extended real `0`. -/
theorem zero_word : (FloatOps.ofBits .f32 0x00000000#32 : Ideal .f32) = 0 := Ideal.ofBits_zero_f32

/-- The mask array at an index is the chord word of the row array and the column array there. -/
theorem mask_word (R C : IVec S512x512 32) (j : S512x512.Idx) :
    (ori (ori (cmpi .eq R C) (cmpi .eq (addi R (broadcast S512x512 1#32)) C))
      (andi (cmpi .eq R (broadcast S512x512 8191#32)) (cmpi .eq C (broadcast S512x512 0#32)))) j
      = chordWord (R j) (C j) := rfl

/-- A base word plus the row counter, at row `p`. -/
theorem row_vec_apply (w : BitVec 32) (p b : Fin 512) :
    (addi (broadcast S512x512 w) (iota .tc S512x512 32 [0] Gen.iota_S512x512_d0_w32)) (ix2 p b)
      = IntOp.addi w (BitVec.ofNat 32 p.val) := by
  show IntOp.addi w (iota .tc S512x512 32 [0] Gen.iota_S512x512_d0_w32 (ix2 p b)) = _
  rw [iota_rows_apply]

/-- A base word plus the column counter, at column `b`. -/
theorem col_vec_apply (w : BitVec 32) (p b : Fin 512) :
    (addi (broadcast S512x512 w) (iota .tc S512x512 32 [1] Gen.iota_S512x512_d1_w32)) (ix2 p b)
      = IntOp.addi w (BitVec.ofNat 32 b.val) := by
  show IntOp.addi w (iota .tc S512x512 32 [1] Gen.iota_S512x512_d1_w32 (ix2 p b)) = _
  rw [iota_cols_apply]

/-- Selecting by the chord word of two small naturals is the `if` on the chord pattern. -/
theorem select_chord (r c : ℕ) (hr : r + 1 < 2 ^ 32) (hc : c < 2 ^ 32) (x y : EReal) :
    Scalar.select (chordWord (BitVec.ofNat 32 r) (BitVec.ofNat 32 c)) x y = if chordNat r c then x else y := by
  by_cases h : chordNat r c
  · rw [if_pos h, (chordWord_iff r c hr hc).2 h, select_one]
  · rw [if_neg h, eq_zero_of_ne_one (fun e => h ((chordWord_iff r c hr hc).1 e)), select_zero]

end Assembly

end K1

open K1

/-- The accumulator of the third kernel starts at zero. -/
theorem pay2_1_apply (y : S512x64.Idx) : Gen.k2_pay1 (F := Ideal) y = 0 := by
  unfold Gen.k2_pay1
  exact Ideal.ofBits_zero_f32

/-- One trip of the third kernel's loop, at row `p`, column `q` of the row block: the carried value plus the
    trip's 512 masked scores against the trip's 512 rows of the value array.  The row of the whole array is
    `512 · i + p`, the trip's columns are `512 · k + b`. -/
theorem pay2_2_apply (i : grid2.Coords) (v1 : Vec Ideal S512x64 .f32) (v3 : Vec Ideal S64x64 .f32) (v6 : Vec Ideal S1x64 .f32)
    (k : Fin k2_t1_loop.trips) (acc : FVec Ideal S512x64 .f32) (v22 : Vec Ideal S512x64 .f32) (v26 : Vec Ideal S1x512 .f32)
    (v55 : Vec Ideal S512x64 .f32) (p : Fin 512) (q : Fin 64) :
    Gen.k2_pay2 (F := Ideal) i v1 v3 v6 k acc v22 v26 v55 (ix2 p q)
      = acc (ix2 p q) + ∑ b : Fin 512,
          (if chordNat (512 * (i 0).val + p.val) (512 * k.val + b.val)
            then max ((∑ e : Fin 64, dense (cur2 v3) (row v6) (cur2 v1 p) e * v22 (ix2 b e)) + v26 (ix2 0 b)) 0
            else 0) * v55 (ix2 b q) := by
  have hi : (i 0).val < 16 := (i 0).isLt
  have hk : k.val < 16 := Nat.lt_of_lt_of_le k.isLt Gen.k2_t1_abs.2.1
  unfold Gen.k2_pay2
  simp only [shapeCast_self]
  -- the outer sum: the carried entry plus the masked scores against the value rows
  rw [addf_apply, matmul_mix_apply]
  refine congrArg (acc (ix2 p q) + ·) (Finset.sum_congr rfl fun b _ => ?_)
  have hr : 512 * (i 0).val + p.val + 1 < 2 ^ 32 := by have := p.isLt; omega
  have hc : 512 * k.val + b.val < 2 ^ 32 := by have := b.isLt; omega
  -- the mask at `(p, b)` is the chord pattern at row `512 · i + p`, column `512 · k + b`
  rw [truncf_apply, truncf_apply, select_apply, mask_word, row_vec_apply, col_vec_apply, row_word, col_word,
    select_chord _ _ hr hc, broadcast_apply, zero_word]
  -- the score at `(p, b)`: the hidden row `p` against row `b` of the chunk, plus the chunk's bias
  rw [maximumf_apply, addf_apply, matmul_score_apply, bcast_row512_apply, broadcast_apply]
  refine congrArg (fun s => (if chordNat (512 * (i 0).val + p.val) (512 * k.val + b.val) then max (s + v26 (ix2 0 b)) 0 else 0) * v55 (ix2 b q))
    (Finset.sum_congr rfl fun e _ => ?_)
  -- the hidden entry `(p, e)` is the dense layer of row `p`
  rw [transpose_tall_apply, truncf_apply, truncf_apply, maximumf_apply, addf_apply, matmul_hidden_apply, bcast_row64_apply,
    broadcast_apply]
  unfold dense cur2 row
  refine congrArg (fun s => max (s + v6 (ix2 0 e)) 0 * v22 (ix2 b e)) (Finset.sum_congr rfl fun c _ => ?_)
  rw [truncf_apply, transpose_sq_apply, truncf_apply]

end Cert.KernelIdeal.Pay2

end
-- ==== Proof.Region2.lean ====
import proofs.«104786_j3375844295380_1_alg».proof.Proof.Spec
import proofs.«104786_j3375844295380_1_alg».proof.Proof.Pay2
import proofs.«104786_j3375844295380_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

/-!
  The third region's output array is one chord layer of the value array the region finds.

  The region's grid has sixteen points; point `t` owns rows `512 · t … 512 · t + 511`.  At a point the kernel starts a
  512 × 64 accumulator at zero and makes sixteen trips; trip `a` adds, for each of the point's rows, the masked scores
  of that row against columns `512 · a … 512 · a + 511` times those rows of the value array.  So after the sixteen
  trips entry `(p, q)` of the accumulator is the sum over the sixteen chunks of 512 columns, which is the chord
  layer's sum over all 8192 columns at row `512 · t + p`.  The point's blocks are rows of the input array (window 0)
  and the five other operands whole (windows 1 to 5); the sixteen output blocks tile the output array.
-/

noncomputable section

namespace Cert.KernelIdeal.R2

open Idealize.ShloMosaic Idealize.ShloMosaic.TcCoe Idealize.ShloMosaic.ValueIdx Idealize.SL.Sem Idealize.ShloMosaic.Tactic
open Cert.KernelIdeal Cert.KernelIdeal.Gen Cert.Chord
open scoped BigOperators

/-! ## The kernel's one store and one trip, at any float instance -/

section Generic
variable {F : FTy → Type} [FloatOps F]

/-- The zero offsets of a whole-block access. -/
theorem hz : (![0, 0] : Fin 2 → Nat) = fun _ => 0 := funext fun a => by fin_cases a <;> rfl

/-- What the kernel leaves in its output block is the loop's carried value after the last trip, started from the
    zero accumulator, over the blocks the kernel loads whole (input rows, hidden weights, hidden bias) and the contents
    of the three buffers the trips load from. -/
theorem out1_A_6_eq (c : Dev nD) (i : grid2.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec F S512x64 .f32) (x1 : Vec F S64x64 .f32) (x2 : Vec F S1x64 .f32) (x3 : Vec F S8192x64 .f32) (x4 : Vec F S1x8192 .f32) (x5 : Vec F S8192x64 .f32) :
    out2_A_6 (F := F) c i arg1 harg1 arg2 harg2 arg3 harg3 arg4 harg4 arg5 harg5 arg6 harg6 arg7 harg7 x0 x1 x2 x3 x4 x5
      = st_k2_t1 Variants.none c none i arg1 harg1 arg2 harg2 arg3 harg3 arg4 harg4 arg5 harg5 arg6 harg6 arg7 harg7 x0 x1 x2 (harg4.unread x3) (harg5.unread x4) (harg6.unread x5) k2_pay1 k2_t1_loop.trips := by
  unfold out2_A_6
  rw [View.read_writes_eq_canon _ _ _ (cover2_A_6 c i arg1 harg1 arg2 harg2 arg3 harg3 arg4 harg4 arg5 harg5 arg6 harg6 arg7 harg7 x0 x1 x2 x3 x4 x5)]
  unfold kernelRun2_A
  dsimp only
  sl_unfold_words
  rw [View.canon_unit_zero hz]
  simp only [View.readAt_eq_ld, harg1.read_unread, harg2.read_unread, harg3.read_unread, View.ld_unit_zero (S := S512x64) hz, View.ld_unit_zero (S := S64x64) hz, View.ld_unit_zero (S := S1x64) hz]

/-- One trip of the loop yields the trip's arithmetic on the carried value and on the three loads at the trip's
    offsets (512 rows of the score weights, 512 columns of the score bias, 512 rows of the value array). -/
theorem tripR_k1_t1_eq (𝒱 : Variants) (bd : Option 𝒱.V) (c : Dev nD) (i : grid2.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (v1 : Vec F S512x64 .f32) (v3 : Vec F S64x64 .f32) (v6 : Vec F S1x64 .f32) (X4 : BufTy.Contents (Elt F) arg4.view.ty) (X5 : BufTy.Contents (Elt F) arg5.view.ty) (X6 : BufTy.Contents (Elt F) arg6.view.ty) (k : Fin k2_t1_loop.trips) (acc : FVec F S512x64 .f32) :
    tripR_k2_t1 (F := F) 𝒱 c bd i arg1 harg1 arg2 harg2 arg3 harg3 arg4 harg4 arg5 harg5 arg6 harg6 arg7 harg7 v1 v3 v6 X4 X5 X6 k acc
      = k2_pay2 i v1 v3 v6 k acc
          (View.readAt (Elt F) arg4.view (Rect.unit (s := S8192x64) (k2_off1 k) S512x64.size (k2_off1_inb k)).toLoadRect X4)
          (View.readAt (Elt F) arg5.view (Rect.unit (s := S1x8192) (k2_off2 k) S1x512.size (k2_off2_inb k)).toLoadRect X5)
          (View.readAt (Elt F) arg6.view (Rect.unit (s := S8192x64) (k2_off1 k) S512x64.size (k2_off1_inb k)).toLoadRect X6) := by
  unfold tripR_k2_t1
  unfold trip_k2_t1
  dsimp only

end Generic

/-! ## The sixteen trips at the extended reals -/

/-- The loop makes sixteen trips. -/
theorem trips1 : k2_t1_loop.trips = 16 := by decide +kernel

/-- Trip number `a` of the sixteen, as the loop counts it. -/
def kk1 (a : Fin 16) : Fin k2_t1_loop.trips := ⟨a.val, by rw [trips1]; exact a.isLt⟩

/-- The trip's 512 rows of an 8192-row array are rows `512 · a + b`. -/
theorem ld1_rows (x : Vec Ideal S8192x64 .f32) (a : Fin 16) (b : Fin 512) (e : Fin 64) :
    View.ld x (Rect.unit (s := S8192x64) (k2_off1 (kk1 a)) S512x64.size (k2_off1_inb (kk1 a))) (ix2 b e) = x (ix2 (col a b) e) := by
  refine congrArg x (funext fun d => Fin.ext ?_)
  match d with
  | ⟨0, _⟩ =>
    show k2_off1 (kk1 a) 0 + 1 * b.val = 512 * a.val + b.val
    rw [k2_off1_eq]; show 512 * a.val + 1 * b.val = _; omega
  | ⟨1, _⟩ =>
    show k2_off1 (kk1 a) 1 + 1 * e.val = e.val
    rw [k2_off1_eq]; show 0 + 1 * e.val = _; omega

/-- The trip's 512 columns of the one-row array are columns `512 · a + b`. -/
theorem ld1_cols (x : Vec Ideal S1x8192 .f32) (a : Fin 16) (b : Fin 512) :
    View.ld x (Rect.unit (s := S1x8192) (k2_off2 (kk1 a)) S1x512.size (k2_off2_inb (kk1 a))) (ix2 0 b) = x (ix2 0 (col a b)) := by
  refine congrArg x (funext fun d => Fin.ext ?_)
  match d with
  | ⟨0, _⟩ =>
    show k2_off2 (kk1 a) 0 + 1 * 0 = 0
    rw [k2_off2_eq]; rfl
  | ⟨1, _⟩ =>
    show k2_off2 (kk1 a) 1 + 1 * b.val = 512 * a.val + b.val
    rw [k2_off2_eq]; show 512 * a.val + 1 * b.val = _; omega

/-- Chunk `a` of a block row's chord sum: the masked scores of row `512 · i + p` (hidden row from the block `x0`,
    the hidden layer `x1`, `x2`) against columns `512 · a + b` of the score layer `x3`, `x4`, times those rows of the
    value array `x5`, at column `q`. -/
def chunk1 (i : grid2.Coords) (x0 : Vec Ideal S512x64 .f32) (x1 : Vec Ideal S64x64 .f32) (x2 : Vec Ideal S1x64 .f32)
    (x3 : Vec Ideal S8192x64 .f32) (x4 : Vec Ideal S1x8192 .f32) (x5 : Vec Ideal S8192x64 .f32) (p : Fin 512) (q : Fin 64)
    (a : Fin 16) : EReal :=
  ∑ b : Fin 512,
    (if chordNat (512 * (i 0).val + p.val) (512 * a.val + b.val)
      then max ((∑ e : Fin 64, dense (cur2 x1) (row x2) (cur2 x0 p) e * x3 (ix2 (col a b) e)) + x4 (ix2 0 (col a b))) 0
      else 0) * x5 (ix2 (col a b) q)

/-- One trip adds its chunk to the carried value. -/
theorem trip1_apply (c : Dev nD) (i : grid2.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec Ideal S512x64 .f32) (x1 : Vec Ideal S64x64 .f32) (x2 : Vec Ideal S1x64 .f32) (x3 : Vec Ideal S8192x64 .f32) (x4 : Vec Ideal S1x8192 .f32) (x5 : Vec Ideal S8192x64 .f32)
    (a : Fin 16) (acc : FVec Ideal S512x64 .f32) (p : Fin 512) (q : Fin 64) :
    tripR_k2_t1 (F := Ideal) Variants.none c none i arg1 harg1 arg2 harg2 arg3 harg3 arg4 harg4 arg5 harg5 arg6 harg6 arg7 harg7 x0 x1 x2 (harg4.unread x3) (harg5.unread x4) (harg6.unread x5) (kk1 a) acc (ix2 p q)
      = acc (ix2 p q) + chunk1 i x0 x1 x2 x3 x4 x5 p q a := by
  rw [tripR_k1_t1_eq]
  simp only [View.readAt_eq_ld, harg4.read_unread, harg5.read_unread, harg6.read_unread]
  refine (Pay2.pay2_2_apply i x0 x1 x2 (kk1 a) acc _ _ _ p q).trans ?_
  unfold chunk1
  refine congrArg (acc (ix2 p q) + ·) (Finset.sum_congr rfl fun b _ => ?_)
  rw [ld1_rows x5 a b q, ld1_cols x4 a b]
  simp only [ld1_rows x3 a b]
  rfl

/-- The carried value before trip `n` is the sum of the first `n` chunks. -/
theorem st1_apply (c : Dev nD) (i : grid2.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec Ideal S512x64 .f32) (x1 : Vec Ideal S64x64 .f32) (x2 : Vec Ideal S1x64 .f32) (x3 : Vec Ideal S8192x64 .f32) (x4 : Vec Ideal S1x8192 .f32) (x5 : Vec Ideal S8192x64 .f32)
    (p : Fin 512) (q : Fin 64) (n : ℕ) (hn : n ≤ 16) :
    st_k2_t1 (F := Ideal) Variants.none c none i arg1 harg1 arg2 harg2 arg3 harg3 arg4 harg4 arg5 harg5 arg6 harg6 arg7 harg7 x0 x1 x2 (harg4.unread x3) (harg5.unread x4) (harg6.unread x5) k2_pay1 n (ix2 p q)
      = ∑ a ∈ Finset.range n, if h : a < 16 then chunk1 i x0 x1 x2 x3 x4 x5 p q ⟨a, h⟩ else 0 := by
  induction n with
  | zero => rw [Finset.sum_range_zero]; exact Pay2.pay2_1_apply _
  | succ n ih =>
    have h : n < 16 := hn
    rw [Finset.sum_range_succ, dif_pos h, ← ih (Nat.le_of_lt h)]
    exact (congrFun (st_k2_t1_succ (F := Ideal) Variants.none c none i arg1 harg1 arg2 harg2 arg3 harg3 arg4 harg4 arg5 harg5 arg6 harg6 arg7 harg7 x0 x1 x2 (harg4.unread x3) (harg5.unread x4) (harg6.unread x5) k2_pay1 (kk1 ⟨n, h⟩)) (ix2 p q)).trans
      (trip1_apply c i arg1 harg1 arg2 harg2 arg3 harg3 arg4 harg4 arg5 harg5 arg6 harg6 arg7 harg7 x0 x1 x2 x3 x4 x5 ⟨n, h⟩ _ p q)

/-- What the kernel leaves in its output block, entry by entry: the sixteen chunks added. -/
theorem out1_apply (c : Dev nD) (i : grid2.Coords) (arg1 : Memref sig .tc .vmem S512x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S8192x64 .f32) (harg4 : arg4.IsWhole) (arg5 : Memref sig .tc .vmem S1x8192 .f32) (harg5 : arg5.IsWhole) (arg6 : Memref sig .tc .vmem S8192x64 .f32) (harg6 : arg6.IsWhole) (arg7 : Memref sig .tc .vmem S512x64 .f32) (harg7 : arg7.IsWhole)
    (x0 : Vec Ideal S512x64 .f32) (x1 : Vec Ideal S64x64 .f32) (x2 : Vec Ideal S1x64 .f32) (x3 : Vec Ideal S8192x64 .f32) (x4 : Vec Ideal S1x8192 .f32) (x5 : Vec Ideal S8192x64 .f32)
    (p : Fin 512) (q : Fin 64) :
    out2_A_6 (F := Ideal) c i arg1 harg1 arg2 harg2 arg3 harg3 arg4 harg4 arg5 harg5 arg6 harg6 arg7 harg7 x0 x1 x2 x3 x4 x5 (ix2 p q) = ∑ a : Fin 16, chunk1 i x0 x1 x2 x3 x4 x5 p q a := by
  rw [out1_A_6_eq, trips1, st1_apply c i arg1 harg1 arg2 harg2 arg3 harg3 arg4 harg4 arg5 harg5 arg6 harg6 arg7 harg7 x0 x1 x2 x3 x4 x5 p q 16 (Nat.le_refl 16), Finset.sum_range]
  exact Finset.sum_congr rfl fun a _ => dif_pos a.isLt

/-! ## One grid point's block, in the layer's terms -/

/-- A chunk is the chord layer's masked scores against the chunk's columns, once the block's row `p` is row `r` of the
    input rows `X`. -/
theorem chunk1_eq (i : grid2.Coords) (x0 : Vec Ideal S512x64 .f32) (x1 : Vec Ideal S64x64 .f32) (x2 : Vec Ideal S1x64 .f32)
    (x3 : Vec Ideal S8192x64 .f32) (x4 : Vec Ideal S1x8192 .f32) (x5 : Vec Ideal S8192x64 .f32) (p : Fin 512) (q : Fin 64)
    (a : Fin 16) (t : ℕ) (hi : (i 0).val = t) (X : Fin 8192 → Fin 64 → EReal) (r : Fin 8192) (hr : r.val = 512 * t + p.val)
    (hX : ∀ e : Fin 64, x0 (ix2 p e) = X r e) :
    chunk1 i x0 x1 x2 x3 x4 x5 p q a
      = ∑ b : Fin 512, mscore X (cur2 x1) (row x2) (cur2 x3) (row x4) r (col a b) * cur2 x5 (col a b) q := by
  have hrow : cur2 x0 p = X r := funext hX
  unfold chunk1 mscore score chord
  rw [hrow, hi, ← hr]
  rfl

/-- The sixteen chunks of a block row are the chord layer's row. -/
theorem point1_apply (i : grid2.Coords) (x0 : Vec Ideal S512x64 .f32) (x1 : Vec Ideal S64x64 .f32) (x2 : Vec Ideal S1x64 .f32)
    (x3 : Vec Ideal S8192x64 .f32) (x4 : Vec Ideal S1x8192 .f32) (x5 : Vec Ideal S8192x64 .f32) (p : Fin 512) (q : Fin 64)
    (t : ℕ) (hi : (i 0).val = t) (X : Fin 8192 → Fin 64 → EReal) (r : Fin 8192) (hr : r.val = 512 * t + p.val)
    (hX : ∀ e : Fin 64, x0 (ix2 p e) = X r e) :
    ∑ a : Fin 16, chunk1 i x0 x1 x2 x3 x4 x5 p q a = layer X (cur2 x1) (row x2) (cur2 x3) (row x4) (cur2 x5) r q := by
  rw [layer_eq_chunks]
  exact Finset.sum_congr rfl fun a _ => chunk1_eq i x0 x1 x2 x3 x4 x5 p q a t hi X r hr hX

/-! ## The blocks the region stages -/

variable (V : (c : Dev nD) → (b : Ref sig .tc) → Buf (Elt Ideal) ((c : Thread nD τ).loc b))

/-- The seven windows' block indices over the grid: the input rows and the output move with the point, 512 rows a
    block; the five other operands are staged whole; the point's one coordinate is its number. -/
theorem idx1_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ ((grid2.coords t) 0).val = t.val :=
  (by decide +kernel : ∀ t : Fin grid2.N, _)

/-- The blocks of the six input windows at point `t`, each at its literal shape. -/
abbrev blk1_0 (c : Dev nD) (t : Fin cfg2.N) : Vec Ideal S512x64 .f32 := iblk2 V c 0 t
abbrev blk1_1 (c : Dev nD) (t : Fin cfg2.N) : Vec Ideal S64x64 .f32 := iblk2 V c 1 t
abbrev blk1_2 (c : Dev nD) (t : Fin cfg2.N) : Vec Ideal S1x64 .f32 := iblk2 V c 2 t
abbrev blk1_3 (c : Dev nD) (t : Fin cfg2.N) : Vec Ideal S8192x64 .f32 := iblk2 V c 3 t
abbrev blk1_4 (c : Dev nD) (t : Fin cfg2.N) : Vec Ideal S1x8192 .f32 := iblk2 V c 4 t
abbrev blk1_5 (c : Dev nD) (t : Fin cfg2.N) : Vec Ideal S8192x64 .f32 := iblk2 V c 5 t

/-- Row `p` of the input rows' block at point `t` is row `512 · t + p` of the array. -/
theorem blk1_0_apply (c : Dev nD) (t : Fin cfg2.N) (p : Fin 512) (e : Fin 64) (r : Fin 8192) (hr : r.val = 512 * t.val + p.val) :
    blk1_0 V c t (ix2 p e) = cur2 (V c main_arg0 : S8192x64.Idx → EReal) r e := by
  obtain ⟨e0, e1, -⟩ := idx1_facts t
  show V c main_arg0 (((cfg2.win 0).blk t).view.emb (ix2 p e)) = V c main_arg0 (ix2 r e)
  refine congrArg (V c main_arg0) (funext fun a => Fin.ext ?_)
  match a with
  | ⟨0, _⟩ => show win2_0.index t (0 : Fin 2) * 512 + 1 * p.val = r.val; rw [e0, hr]; omega
  | ⟨1, _⟩ => show win2_0.index t (1 : Fin 2) * 64 + 1 * e.val = e.val; rw [e1]; omega

/-- The hidden layer's weights are staged whole. -/
theorem blk1_1_eq (c : Dev nD) (t : Fin cfg2.N) : blk1_1 V c t = (V c main_v13 : S64x64.Idx → EReal) := by
  obtain ⟨-, -, e0, e1, -⟩ := idx1_facts t
  funext y
  show V c main_v13 (((cfg2.win 1).blk t).view.emb y) = V c main_v13 y
  refine congrArg (V c main_v13) (funext fun a => Fin.ext ?_)
  match a with
  | ⟨0, _⟩ => show win2_1.index t (0 : Fin 2) * 64 + 1 * (y 0).val = (y 0).val; rw [e0]; omega
  | ⟨1, _⟩ => show win2_1.index t (1 : Fin 2) * 64 + 1 * (y 1).val = (y 1).val; rw [e1]; omega

/-- The hidden layer's bias is staged whole. -/
theorem blk1_2_eq (c : Dev nD) (t : Fin cfg2.N) : blk1_2 V c t = (V c main_v16 : S1x64.Idx → EReal) := by
  obtain ⟨-, -, -, -, e0, e1, -⟩ := idx1_facts t
  funext y
  show V c main_v16 (((cfg2.win 2).blk t).view.emb y) = V c main_v16 y
  refine congrArg (V c main_v16) (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- The score layer's weights are staged whole. -/
theorem blk1_3_eq (c : Dev nD) (t : Fin cfg2.N) : blk1_3 V c t = (V c main_v18 : S8192x64.Idx → EReal) := by
  obtain ⟨-, -, -, -, -, -, e0, e1, -⟩ := idx1_facts t
  funext y
  show V c main_v18 (((cfg2.win 3).blk t).view.emb y) = V c main_v18 y
  refine congrArg (V c main_v18) (funext fun a => Fin.ext ?_)
  match a with
  | ⟨0, _⟩ => show win2_3.index t (0 : Fin 2) * 8192 + 1 * (y 0).val = (y 0).val; rw [e0]; omega
  | ⟨1, _⟩ => show win2_3.index t (1 : Fin 2) * 64 + 1 * (y 1).val = (y 1).val; rw [e1]; omega

/-- The score layer's bias is staged whole. -/
theorem blk1_4_eq (c : Dev nD) (t : Fin cfg2.N) : blk1_4 V c t = (V c main_v21 : S1x8192.Idx → EReal) := by
  obtain ⟨-, -, -, -, -, -, -, -, e0, e1, -⟩ := idx1_facts t
  funext y
  show V c main_v21 (((cfg2.win 4).blk t).view.emb y) = V c main_v21 y
  refine congrArg (V c main_v21) (funext fun a => Fin.ext ?_)
  match a with
  | ⟨0, _⟩ => show win2_4.index t (0 : Fin 2) * 1 + 1 * (y 0).val = (y 0).val; rw [e0]; omega
  | ⟨1, _⟩ => show win2_4.index t (1 : Fin 2) * 8192 + 1 * (y 1).val = (y 1).val; rw [e1]; omega

/-- The value array is staged whole. -/
theorem blk1_5_eq (c : Dev nD) (t : Fin cfg2.N) : blk1_5 V c t = (V c main_v11 : S8192x64.Idx → EReal) := by
  obtain ⟨-, -, -, -, -, -, -, -, -, -, e0, e1, -⟩ := idx1_facts t
  funext y
  show V c main_v11 (((cfg2.win 5).blk t).view.emb y) = V c main_v11 y
  refine congrArg (V c main_v11) (funext fun a => Fin.ext ?_)
  match a with
  | ⟨0, _⟩ => show win2_5.index t (0 : Fin 2) * 8192 + 1 * (y 0).val = (y 0).val; rw [e0]; omega
  | ⟨1, _⟩ => show win2_5.index t (1 : Fin 2) * 64 + 1 * (y 1).val = (y 1).val; rw [e1]; omega

/-! ## From the blocks to the array -/

/-- The chord layer of the value array the region finds, as an array. -/
abbrev G1 (c : Dev nD) : S8192x64.Idx → EReal :=
  unc2 (layer (cur2 (V c main_arg0 : S8192x64.Idx → EReal)) (cur2 (V c main_v13 : S64x64.Idx → EReal))
    (row (V c main_v16 : S1x64.Idx → EReal)) (cur2 (V c main_v18 : S8192x64.Idx → EReal))
    (row (V c main_v21 : S1x8192.Idx → EReal)) (cur2 (V c main_v11 : S8192x64.Idx → EReal)))

/-- What the output's staging buffer holds after point `t`, entry by entry: the sixteen chunks over the point's blocks. -/
theorem outs1_apply (c : Dev nD) (t : Fin cfg2.N) (p : Fin 512) (q : Fin 64) :
    (outsAt2 V c t : S512x64.Idx → EReal) (ix2 p q)
      = ∑ a : Fin 16, chunk1 (grid2.coords t) (blk1_0 V c t) (blk1_1 V c t) (blk1_2 V c t) (blk1_3 V c t) (blk1_4 V c t) (blk1_5 V c t) p q a := by
  unfold outsAt2
  exact out1_apply c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t)
    (blk1_0 V c t) (blk1_1 V c t) (blk1_2 V c t) (blk1_3 V c t) (blk1_4 V c t) (blk1_5 V c t) p q

/-- Point `t` writes back rows `512 · t … 512 · t + 511` of the chord layer. -/
theorem flushed1_eq (c : Dev nD) (t : Fin cfg2.N) :
    (dat2 V c).flushed 6 t = ((cfg2.win 6).blk t).view.read (Elt Ideal) (G1 V c) := by
  show (cfg2.win 6).cut (grid2.coords t) ((dat2 V c).after 6 t) = _
  rw [after2_6]
  funext y
  obtain ⟨p, q, rfl⟩ : ∃ (p : Fin 512) (q : Fin 64), y = ix2 p q := ⟨y 0, y 1, eq_ix2 y⟩
  have hN : cfg2.N = 16 := N_2
  have hr : 512 * t.val + p.val < 8192 := by have := t.isLt; have := p.isLt; omega
  obtain ⟨-, -, -, -, -, -, -, -, -, -, -, -, e0, e1, ec⟩ := idx1_facts t
  have hemb : ((cfg2.win 6).blk t).view.emb (ix2 p q) = (ix2 (⟨512 * t.val + p.val, hr⟩ : Fin 8192) q : S8192x64.Idx) := by
    funext a; apply Fin.ext
    match a with
    | ⟨0, _⟩ => show win2_6.index t (0 : Fin 2) * 512 + 1 * p.val = 512 * t.val + p.val; rw [e0]; omega
    | ⟨1, _⟩ => show win2_6.index t (1 : Fin 2) * 64 + 1 * q.val = q.val; rw [e1]; omega
  show (outsAt2 V c t : S512x64.Idx → EReal) (ix2 p q) = G1 V c (((cfg2.win 6).blk t).view.emb (ix2 p q))
  rw [hemb]
  refine (outs1_apply V c t p q).trans ?_
  refine (point1_apply (grid2.coords t) (blk1_0 V c t) (blk1_1 V c t) (blk1_2 V c t) (blk1_3 V c t) (blk1_4 V c t) (blk1_5 V c t) p q
    t.val ec (cur2 (V c main_arg0 : S8192x64.Idx → EReal)) ⟨512 * t.val + p.val, hr⟩ rfl
    (fun e => blk1_0_apply V c t p e ⟨512 * t.val + p.val, hr⟩ rfl)).trans ?_
  rw [blk1_1_eq V c t, blk1_2_eq V c t, blk1_3_eq V c t, blk1_4_eq V c t, blk1_5_eq V c t]
  rfl

/-- An entry of the array is in point `t`'s block when its row is among the point's 512. -/
theorem mem_blk1_6 (t : Fin cfg2.N) (i : S8192x64.Idx) :
    i ∈ ((cfg2.win 6).blk t).view.set ↔ ∀ a : Fin 2, win2_6.index t a * S512x64.size a ≤ (i a).val ∧ (i a).val < win2_6.index t a * S512x64.size a + S512x64.size a := by
  show i ∈ ((View.whole main_v22).slice (win2_6.rect t)).set ↔ _
  rw [View.set_slice_whole, Rect.mem_set_unit]
  exact Iff.rfl

/-- Row `r` of the array is written back by point `r / 512`. -/
theorem cover1 (i : S8192x64.Idx) : ∃ t : Fin cfg2.N, (cfg2.win 6).flush t = true ∧ i ∈ ((cfg2.win 6).blk t).view.set := by
  have hN : cfg2.N = 16 := N_2
  have hi0 : (i 0).val < 8192 := (i 0).isLt
  have hi1 : (i 1).val < 64 := (i 1).isLt
  refine ⟨⟨(i 0).val / 512, by rw [hN]; omega⟩, flush2_6 _, ?_⟩
  rw [mem_blk1_6]
  obtain ⟨-, -, -, -, -, -, -, -, -, -, -, -, e0, e1, -⟩ := idx1_facts ⟨(i 0).val / 512, by rw [hN]; omega⟩
  intro a
  match a with
  | ⟨0, _⟩ =>
    show win2_6.index _ (0 : Fin 2) * 512 ≤ (i 0).val ∧ (i 0).val < win2_6.index _ (0 : Fin 2) * 512 + 512
    rw [e0]; show (i 0).val / 512 * 512 ≤ (i 0).val ∧ (i 0).val < (i 0).val / 512 * 512 + 512; omega
  | ⟨1, _⟩ =>
    show win2_6.index _ (1 : Fin 2) * 64 ≤ (i 1).val ∧ (i 1).val < win2_6.index _ (1 : Fin 2) * 64 + 64
    rw [e1]; omega

/-- After the third region its output array holds one chord layer of the value array it found (the second region's
    output), with the input rows, the hidden layer's weights and bias, and the score layer's weights and bias as the
    region finds them. -/
theorem arr (c : Dev nD) :
    ((dat2 V c).arrAt 6 cfg2.N : S8192x64.Idx → EReal)
      = unc2 (layer (cur2 (V c main_arg0 : S8192x64.Idx → EReal)) (cur2 (V c main_v13 : S64x64.Idx → EReal))
          (row (V c main_v16 : S1x64.Idx → EReal)) (cur2 (V c main_v18 : S8192x64.Idx → EReal))
          (row (V c main_v21 : S1x8192.Idx → EReal)) (cur2 (V c main_v11 : S8192x64.Idx → EReal))) :=
  (dat2 V c).arrAt_eq_of_cover 6 (G1 V c) (fun t _ => flushed1_eq V c t) cover1

end Cert.KernelIdeal.R2

end
-- ==== Proof.KernelValue.lean ====
/-
  The kernel's result array as the specified function of the launched arguments.

  The three regions are chained through the windows each one finds: the first region leaves the dense stack of the
  input rows; the second finds that array as its value array and layer 0 of the weights, and leaves one chord layer of
  it; the third finds that in turn, with layer 1 of the weights, and leaves the second chord layer: the result.
-/
import proofs.«104786_j3375844295380_1_alg».proof.Proof.Gen.KernelIdeal.Frame
import proofs.«104786_j3375844295380_1_alg».proof.Proof.Spec
import proofs.«104786_j3375844295380_1_alg».proof.Proof.Host
import proofs.«104786_j3375844295380_1_alg».proof.Proof.Region0
import proofs.«104786_j3375844295380_1_alg».proof.Proof.Region1
import proofs.«104786_j3375844295380_1_alg».proof.Proof.Region2

noncomputable section

namespace Cert.KernelIdeal.KernelValue

open Idealize.ShloMosaic Idealize.ShloMosaic.TcCoe Idealize.ShloMosaic.ValueIdx Idealize.SL.Sem
open Cert.KernelIdeal Cert.KernelIdeal.Gen Cert.Chord

variable (m : (ℓ : Loc nD τ sig) → Buf (Elt Ideal) ℓ) (ρ : Dev nD → PrngReg)

/-- The dense stack of the launched input rows. -/
def stack (c : Dev nD) : Fin 8192 → Fin 64 → EReal :=
  gstack (cur3 (m ((c : Thread nD τ).loc main_arg1) : S2x64x64.Idx → EReal)) (cur2 (m ((c : Thread nD τ).loc main_arg2) : S2x64.Idx → EReal)) (cur2 (m ((c : Thread nD τ).loc main_arg0) : S8192x64.Idx → EReal))

/-- Chord layer `d` of the launched weights, applied to a value array. -/
def chordLayer (c : Dev nD) (d : Fin 2) (V : Fin 8192 → Fin 64 → EReal) : Fin 8192 → Fin 64 → EReal :=
  layer (cur2 (m ((c : Thread nD τ).loc main_arg0) : S8192x64.Idx → EReal)) (cur3 (m ((c : Thread nD τ).loc main_arg3) : S2x64x64.Idx → EReal) d) (cur2 (m ((c : Thread nD τ).loc main_arg4) : S2x64.Idx → EReal) d) (cur3 (m ((c : Thread nD τ).loc main_arg5) : S2x8192x64.Idx → EReal) d) (cur2 (m ((c : Thread nD τ).loc main_arg6) : S2x8192.Idx → EReal) d) V

/-- The first region's output is the dense stack. -/
theorem first (c : Dev nD) : ((dat0 (V0 m ρ) c).arrAt 3 cfg0.N : S8192x64.Idx → EReal) = unc2 (stack m c) :=
  R0.arr (V0 m ρ) c

/-- The second region's output is chord layer 0 of the dense stack. -/
theorem second (c : Dev nD) :
    ((dat1 (V2 m ρ) c).arrAt 6 cfg1.N : S8192x64.Idx → EReal) = unc2 (chordLayer m c 0 (stack m c)) := by
  have h0 : (V2 m ρ c main_arg0 : S8192x64.Idx → EReal) = (m ((c : Thread nD τ).loc main_arg0) : S8192x64.Idx → EReal) := Host.V2_main_arg0 m ρ c
  have h1 : cur2 (V2 m ρ c main_v2 : S64x64.Idx → EReal) = cur3 (m ((c : Thread nD τ).loc main_arg3) : S2x64x64.Idx → EReal) 0 :=
    funext fun p => funext fun q => Host.V2_main_v2 m ρ c p q
  have h2 : row (V2 m ρ c main_v5 : S1x64.Idx → EReal) = cur2 (m ((c : Thread nD τ).loc main_arg4) : S2x64.Idx → EReal) 0 := funext fun q => Host.V2_main_v5 m ρ c q
  have h3 : cur2 (V2 m ρ c main_v7 : S8192x64.Idx → EReal) = cur3 (m ((c : Thread nD τ).loc main_arg5) : S2x8192x64.Idx → EReal) 0 :=
    funext fun r => funext fun k => Host.V2_main_v7 m ρ c r k
  have h4 : row (V2 m ρ c main_v10 : S1x8192.Idx → EReal) = cur2 (m ((c : Thread nD τ).loc main_arg6) : S2x8192.Idx → EReal) 0 := funext fun r => Host.V2_main_v10 m ρ c r
  have h5 : cur2 (V2 m ρ c main_v0 : S8192x64.Idx → EReal) = stack m c := by
    rw [Host.V2_main_v0, first]; rfl
  rw [R1.arr (V2 m ρ) c, h0, h1, h2, h3, h4, h5]
  rfl

/-- The third region's output is chord layer 1 of the second region's. -/
theorem third (c : Dev nD) :
    ((dat2 (V4 m ρ) c).arrAt 6 cfg2.N : S8192x64.Idx → EReal) = unc2 (chordLayer m c 1 (chordLayer m c 0 (stack m c))) := by
  have h0 : (V4 m ρ c main_arg0 : S8192x64.Idx → EReal) = (m ((c : Thread nD τ).loc main_arg0) : S8192x64.Idx → EReal) := Host.V4_main_arg0 m ρ c
  have h1 : cur2 (V4 m ρ c main_v13 : S64x64.Idx → EReal) = cur3 (m ((c : Thread nD τ).loc main_arg3) : S2x64x64.Idx → EReal) 1 :=
    funext fun p => funext fun q => Host.V4_main_v13 m ρ c p q
  have h2 : row (V4 m ρ c main_v16 : S1x64.Idx → EReal) = cur2 (m ((c : Thread nD τ).loc main_arg4) : S2x64.Idx → EReal) 1 := funext fun q => Host.V4_main_v16 m ρ c q
  have h3 : cur2 (V4 m ρ c main_v18 : S8192x64.Idx → EReal) = cur3 (m ((c : Thread nD τ).loc main_arg5) : S2x8192x64.Idx → EReal) 1 :=
    funext fun r => funext fun k => Host.V4_main_v18 m ρ c r k
  have h4 : row (V4 m ρ c main_v21 : S1x8192.Idx → EReal) = cur2 (m ((c : Thread nD τ).loc main_arg6) : S2x8192.Idx → EReal) 1 := funext fun r => Host.V4_main_v21 m ρ c r
  have h5 : cur2 (V4 m ρ c main_v11 : S8192x64.Idx → EReal) = chordLayer m c 0 (stack m c) := by
    rw [Host.V4_main_v11, second]; rfl
  rw [R2.arr (V4 m ρ) c, h0, h1, h2, h3, h4, h5]
  rfl

/-- The result array after the run is the specified function of the launched arguments. -/
theorem result_eq (c : Dev nD) :
    (W5 m ρ c (Proc.devRef .tc main_v22) : S8192x64.Idx → EReal)
      = unc2 (result (cur2 (m ((c : Thread nD τ).loc main_arg0) : S8192x64.Idx → EReal)) (cur3 (m ((c : Thread nD τ).loc main_arg1) : S2x64x64.Idx → EReal)) (cur2 (m ((c : Thread nD τ).loc main_arg2) : S2x64.Idx → EReal)) (cur3 (m ((c : Thread nD τ).loc main_arg3) : S2x64x64.Idx → EReal)) (cur2 (m ((c : Thread nD τ).loc main_arg4) : S2x64.Idx → EReal)) (cur3 (m ((c : Thread nD τ).loc main_arg5) : S2x8192x64.Idx → EReal)) (cur2 (m ((c : Thread nD τ).loc main_arg6) : S2x8192.Idx → EReal))) :=
  ((W5_arr m ρ c 6).trans (third m ρ c)).trans rfl

end Cert.KernelIdeal.KernelValue

end
-- ==== Proof.RefValue.lean ====
import proofs.«104786_j3375844295380_1_alg».proof.Proof.Spec
import proofs.«104786_j3375844295380_1_alg».proof.Defs
import proofs.«104786_j3375844295380_1_alg».proof.Proof.Gen.ReferenceIdeal.Run
import proofs.«104786_j3375844295380_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Read Cert.Chord
open scoped BigOperators

/-! The reference is read one stage at a time, each stage at the coordinates `(r, j)` of an index: the chord mask, the
    two dense layers of the value stack, the hidden dense layer and the score of each chord layer, and the two chord
    layers. Every layout step (slice, reshape, transpose, broadcast) is an equation between indices, decided coordinate
    by coordinate. -/

/-! ## The chord mask -/

/-- The float literal one. -/
theorem ofBits_one_f32 : Ideal.ofBits .f32 0x3F800000#32 = 1 := by
  simp [Ideal.ofBits, Ideal.ieee]
  rw [← EReal.coe_mul, ← EReal.coe_one, EReal.coe_eq_coe_iff]; norm_num

/-- Equal words compare to the bit one. -/
theorem cmpi_eq_one {w : Nat} {a b : BitVec w} (h : a = b) : IntOp.cmpi .eq a b = 1#1 := by
  subst h; simp [IntOp.cmpi]
/-- Different words compare to the bit zero. -/
theorem cmpi_eq_zero {w : Nat} {a b : BitVec w} (h : a ≠ b) : IntOp.cmpi .eq a b = 0#1 := by
  unfold IntOp.cmpi
  rw [show (a == b) = false from beq_eq_false_iff_ne.mpr h]
  rfl

/-- The identity pattern: one on the diagonal, zero off it. -/
theorem eye_apply (r c : Fin 8192) :
    val_main_v5 (F := Ideal) (ix2 r c) = if r.val = c.val then (1 : EReal) else 0 := by
  rw [val_main_v5_apply, val_main_v4_apply, val_main_v3_apply, val_main_v0_apply, val_main_v1_apply, val_main_v2_apply,
    val_main_c_apply]
  show FloatOps.uitofp (F := Ideal) .f32 (IntOp.cmpi .eq (IntOp.addi (BitVec.ofNat 32 r.val) 0#32) (BitVec.ofNat 32 c.val)) = _
  have hr := r.isLt
  have hc := c.isLt
  by_cases h : r.val = c.val
  · rw [if_pos h, cmpi_eq_one (by rw [h]; simp [IntOp.addi])]
    show (((1#1 : BitVec 1).toNat : ℝ) : EReal) = 1
    simp
  · rw [if_neg h, cmpi_eq_zero (fun h1 => h (by
      have h2 := congrArg BitVec.toNat h1
      simp [IntOp.addi, BitVec.toNat_ofNat] at h2
      omega))]
    show (((0#1 : BitVec 1).toNat : ℝ) : EReal) = 0
    simp

/-- The rolled pattern's first column reads the identity pattern's last column. -/
theorem roll_left (r c : Fin 8192) (hc : c.val = 0) :
    val_main_v6 (F := Ideal) (ix2 r c) = val_main_v5 (F := Ideal) (ix2 r (⟨8191, by omega⟩ : Fin 8192)) := by
  unfold val_main_v6
  rw [concatenate_pair_apply_left (t := S8192x8192) (s₁ := S8192x1) (s₂ := S8192x8191) (1 : Fin 2) _ _ Gen.concatenates_S8192x1_S8192x8191_S8192x8192_d1 (ix2 r c) rfl
    (ix2 r (0 : Fin 1) : S8192x1.Idx) (fun b => by match b with | ⟨0, _⟩ => rfl | ⟨1, _⟩ => exact hc.symm)]
  rw [val_main_call0_v0_apply]
  refine congrArg _ (funext fun a => Fin.ext ?_)
  match a with
  | ⟨0, _⟩ => rfl
  | ⟨1, _⟩ => rfl

/-- Every later column of the rolled pattern reads the identity pattern one column to the left. -/
theorem roll_right (r c : Fin 8192) (hc : 1 ≤ c.val) :
    val_main_v6 (F := Ideal) (ix2 r c) = val_main_v5 (F := Ideal) (ix2 r (⟨c.val - 1, by omega⟩ : Fin 8192)) := by
  unfold val_main_v6
  rw [concatenate_pair_apply_right (t := S8192x8192) (s₁ := S8192x1) (s₂ := S8192x8191) (1 : Fin 2) _ _ Gen.concatenates_S8192x1_S8192x8191_S8192x8192_d1 (ix2 r c) rfl rfl
    (ix2 r (⟨c.val - 1, by omega⟩ : Fin 8191) : S8192x8191.Idx)
    (fun b hb => by match b, hb with | ⟨0, _⟩, _ => rfl | ⟨1, _⟩, hb => exact absurd rfl hb)
    (by show (c.val - 1) + 1 = c.val; omega)]
  rw [val_main_call0_v1_apply]
  refine congrArg _ (funext fun a => Fin.ext ?_)
  match a with
  | ⟨0, _⟩ => rfl
  | ⟨1, _⟩ => rfl

/-- The chord mask: one on the chord pattern, zero off it. -/
theorem mask_apply (r c : Fin 8192) :
    val_main_v9 (F := Ideal) (ix2 r c) = if chord r c then (1 : EReal) else 0 := by
  rw [val_main_v9_apply, val_main_v7_apply, val_main_v8_apply, val_main_cst_apply, eye_apply]
  simp only [Ideal.minimumf_def, Ideal.addf_def, Ideal.ofBits_def]
  rw [ofBits_one_f32]
  have hr := r.isLt
  have hcl := c.isLt
  by_cases hc : c.val = 0
  · rw [roll_left r c hc, eye_apply]
    show min ((if r.val = c.val then (1 : EReal) else 0) + (if r.val = 8191 then (1 : EReal) else 0)) 1 = _
    by_cases h1 : r.val = c.val
    · have hch : chord r c := by unfold chord chordNat; omega
      rw [if_pos h1, if_neg (by omega), if_pos hch]; simp
    · by_cases h2 : r.val = 8191
      · have hch : chord r c := by unfold chord chordNat; omega
        rw [if_neg h1, if_pos h2, if_pos hch]; simp
      · have hch : ¬ chord r c := by unfold chord chordNat; omega
        rw [if_neg h1, if_neg h2, if_neg hch]; simp
  · rw [roll_right r c (by omega), eye_apply]
    show min ((if r.val = c.val then (1 : EReal) else 0) + (if r.val = c.val - 1 then (1 : EReal) else 0)) 1 = _
    by_cases h1 : r.val = c.val
    · have hch : chord r c := by unfold chord chordNat; omega
      rw [if_pos h1, if_neg (by omega), if_pos hch]; simp
    · by_cases h2 : r.val = c.val - 1
      · have hch : chord r c := by unfold chord chordNat; omega
        rw [if_neg h1, if_pos h2, if_pos hch]; simp
      · have hch : ¬ chord r c := by unfold chord chordNat; omega
        rw [if_neg h1, if_neg h2, if_neg hch]; simp

/-! ## The dense stack -/

/-- The zero array a positive part compares against reads the extended real zero. -/
theorem zero_call1 (i : S8192x64.Idx) : val_main_call1_v0 (F := Ideal) i = 0 := by
  rw [val_main_call1_v0_apply, val_main_call1_cst_apply]; exact Ideal.ofBits_zero_f32

/-- The transposed weight slice at row `k`, column `j` is the weight array's entry `(0, j, k)`. -/
theorem w12 (x1 : S2x64x64.Idx → EReal) (k j : Fin 64) : val_main_v12 (F := Ideal) x1 (ix2 k j) = x1 (ix3 0 j k) := by
  rw [val_main_v12_apply, val_main_v11_apply, val_main_v10_apply]
  refine congrArg x1 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

/-- The broadcast bias slice at any row, column `j` is the bias array's entry `(0, j)`. -/
theorem b17 (x2 : S2x64.Idx → EReal) (r : Fin 8192) (j : Fin 64) : val_main_v17 (F := Ideal) x2 (ix2 r j) = x2 (ix2 0 j) := by
  rw [val_main_v17_apply, val_main_v16_apply, val_main_v15_apply, val_main_v14_apply]
  refine congrArg x2 (funext fun a => Fin.ext ?_)
  match a with
  | ⟨0, _⟩ => rfl
  | ⟨1, _⟩ => show j.val % 64 = j.val; omega

/-- The dense layer of slice `0` at row `r`, column `j`, applied to row `r` of the input array. -/
theorem d19 (x0 : S8192x64.Idx → EReal) (x1 : S2x64x64.Idx → EReal) (x2 : S2x64.Idx → EReal) (r : Fin 8192) (j : Fin 64) :
    val_main_v19 (F := Ideal) x0 x1 x2 (ix2 r j) = dense (cur3 x1 0) (cur2 x2 0) (cur2 x0 r) j := by
  rw [val_main_v19_apply, val_main_v18_apply, val_main_v13_apply, zero_call1, b17]
  simp only [Ideal.maximumf_def, Ideal.addf_def]
  unfold dense cur2 cur3
  refine congrArg (fun s => max (s + x2 (ix2 0 j)) 0) (Finset.sum_congr rfl fun k _ => ?_)
  have el : lidx_main_v13 (ix2 r j) k = ix2 r k := funext fun a => Fin.ext (by match a with | ⟨0, _⟩ => rfl | ⟨1, _⟩ => rfl)
  have er : ridx_main_v13 (ix2 r j) k = ix2 k j := funext fun a => Fin.ext (by match a with | ⟨0, _⟩ => rfl | ⟨1, _⟩ => rfl)
  rw [el, er, w12]

/-- The zero array a positive part compares against reads the extended real zero. -/
theorem zero_call2 (i : S8192x64.Idx) : val_main_call2_v0 (F := Ideal) i = 0 := by
  rw [val_main_call2_v0_apply, val_main_call2_cst_apply]; exact Ideal.ofBits_zero_f32

/-- The transposed weight slice at row `k`, column `j` is the weight array's entry `(1, j, k)`. -/
theorem w22 (x1 : S2x64x64.Idx → EReal) (k j : Fin 64) : val_main_v22 (F := Ideal) x1 (ix2 k j) = x1 (ix3 1 j k) := by
  rw [val_main_v22_apply, val_main_v21_apply, val_main_v20_apply]
  refine congrArg x1 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

/-- The broadcast bias slice at any row, column `j` is the bias array's entry `(1, j)`. -/
theorem b27 (x2 : S2x64.Idx → EReal) (r : Fin 8192) (j : Fin 64) : val_main_v27 (F := Ideal) x2 (ix2 r j) = x2 (ix2 1 j) := by
  rw [val_main_v27_apply, val_main_v26_apply, val_main_v25_apply, val_main_v24_apply]
  refine congrArg x2 (funext fun a => Fin.ext ?_)
  match a with
  | ⟨0, _⟩ => rfl
  | ⟨1, _⟩ => show j.val % 64 = j.val; omega

/-- The second dense layer reads the first: together they are the dense stack. -/
theorem d29 (x0 : S8192x64.Idx → EReal) (x1 : S2x64x64.Idx → EReal) (x2 : S2x64.Idx → EReal) (r : Fin 8192) (j : Fin 64) :
    val_main_v29 (F := Ideal) x0 x1 x2 (ix2 r j) = gstack (cur3 x1) (cur2 x2) (cur2 x0) r j := by
  rw [val_main_v29_apply, val_main_v28_apply, val_main_v23_apply, zero_call2, b27]
  simp only [Ideal.maximumf_def, Ideal.addf_def]
  unfold gstack
  rw [show dense (cur3 x1 1) (cur2 x2 1) (dense (cur3 x1 0) (cur2 x2 0) (cur2 x0 r)) j
      = max ((∑ k : Fin 64, dense (cur3 x1 0) (cur2 x2 0) (cur2 x0 r) k * x1 (ix3 1 j k)) + x2 (ix2 1 j)) 0 from rfl]
  refine congrArg (fun s => max (s + x2 (ix2 1 j)) 0) (Finset.sum_congr rfl fun k _ => ?_)
  have el : lidx_main_v23 (ix2 r j) k = ix2 r k := funext fun a => Fin.ext (by match a with | ⟨0, _⟩ => rfl | ⟨1, _⟩ => rfl)
  have er : ridx_main_v23 (ix2 r j) k = ix2 k j := funext fun a => Fin.ext (by match a with | ⟨0, _⟩ => rfl | ⟨1, _⟩ => rfl)
  rw [el, er, w22, d19]

/-! ## The hidden rows and the scores of the two chord layers -/

/-- The zero array a positive part compares against reads the extended real zero. -/
theorem zero_call3 (i : S8192x64.Idx) : val_main_call3_v0 (F := Ideal) i = 0 := by
  rw [val_main_call3_v0_apply, val_main_call3_cst_apply]; exact Ideal.ofBits_zero_f32

/-- The transposed weight slice at row `k`, column `j` is the weight array's entry `(0, j, k)`. -/
theorem w32 (x3 : S2x64x64.Idx → EReal) (k j : Fin 64) : val_main_v32 (F := Ideal) x3 (ix2 k j) = x3 (ix3 0 j k) := by
  rw [val_main_v32_apply, val_main_v31_apply, val_main_v30_apply]
  refine congrArg x3 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

/-- The broadcast bias slice at any row, column `j` is the bias array's entry `(0, j)`. -/
theorem b37 (x4 : S2x64.Idx → EReal) (r : Fin 8192) (j : Fin 64) : val_main_v37 (F := Ideal) x4 (ix2 r j) = x4 (ix2 0 j) := by
  rw [val_main_v37_apply, val_main_v36_apply, val_main_v35_apply, val_main_v34_apply]
  refine congrArg x4 (funext fun a => Fin.ext ?_)
  match a with
  | ⟨0, _⟩ => rfl
  | ⟨1, _⟩ => show j.val % 64 = j.val; omega

/-- The dense layer of slice `0` at row `r`, column `j`, applied to row `r` of the input array. -/
theorem d39 (x0 : S8192x64.Idx → EReal) (x3 : S2x64x64.Idx → EReal) (x4 : S2x64.Idx → EReal) (r : Fin 8192) (j : Fin 64) :
    val_main_v39 (F := Ideal) x0 x3 x4 (ix2 r j) = dense (cur3 x3 0) (cur2 x4 0) (cur2 x0 r) j := by
  rw [val_main_v39_apply, val_main_v38_apply, val_main_v33_apply, zero_call3, b37]
  simp only [Ideal.maximumf_def, Ideal.addf_def]
  unfold dense cur2 cur3
  refine congrArg (fun s => max (s + x4 (ix2 0 j)) 0) (Finset.sum_congr rfl fun k _ => ?_)
  have el : lidx_main_v33 (ix2 r j) k = ix2 r k := funext fun a => Fin.ext (by match a with | ⟨0, _⟩ => rfl | ⟨1, _⟩ => rfl)
  have er : ridx_main_v33 (ix2 r j) k = ix2 k j := funext fun a => Fin.ext (by match a with | ⟨0, _⟩ => rfl | ⟨1, _⟩ => rfl)
  rw [el, er, w32]

/-- The zero array a positive part compares against reads the extended real zero. -/
theorem zero_call5 (i : S8192x64.Idx) : val_main_call5_v0 (F := Ideal) i = 0 := by
  rw [val_main_call5_v0_apply, val_main_call5_cst_apply]; exact Ideal.ofBits_zero_f32

/-- The transposed weight slice at row `k`, column `j` is the weight array's entry `(1, j, k)`. -/
theorem w54 (x3 : S2x64x64.Idx → EReal) (k j : Fin 64) : val_main_v54 (F := Ideal) x3 (ix2 k j) = x3 (ix3 1 j k) := by
  rw [val_main_v54_apply, val_main_v53_apply, val_main_v52_apply]
  refine congrArg x3 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

/-- The broadcast bias slice at any row, column `j` is the bias array's entry `(1, j)`. -/
theorem b59 (x4 : S2x64.Idx → EReal) (r : Fin 8192) (j : Fin 64) : val_main_v59 (F := Ideal) x4 (ix2 r j) = x4 (ix2 1 j) := by
  rw [val_main_v59_apply, val_main_v58_apply, val_main_v57_apply, val_main_v56_apply]
  refine congrArg x4 (funext fun a => Fin.ext ?_)
  match a with
  | ⟨0, _⟩ => rfl
  | ⟨1, _⟩ => show j.val % 64 = j.val; omega

/-- The dense layer of slice `1` at row `r`, column `j`, applied to row `r` of the input array. -/
theorem d61 (x0 : S8192x64.Idx → EReal) (x3 : S2x64x64.Idx → EReal) (x4 : S2x64.Idx → EReal) (r : Fin 8192) (j : Fin 64) :
    val_main_v61 (F := Ideal) x0 x3 x4 (ix2 r j) = dense (cur3 x3 1) (cur2 x4 1) (cur2 x0 r) j := by
  rw [val_main_v61_apply, val_main_v60_apply, val_main_v55_apply, zero_call5, b59]
  simp only [Ideal.maximumf_def, Ideal.addf_def]
  unfold dense cur2 cur3
  refine congrArg (fun s => max (s + x4 (ix2 1 j)) 0) (Finset.sum_congr rfl fun k _ => ?_)
  have el : lidx_main_v55 (ix2 r j) k = ix2 r k := funext fun a => Fin.ext (by match a with | ⟨0, _⟩ => rfl | ⟨1, _⟩ => rfl)
  have er : ridx_main_v55 (ix2 r j) k = ix2 k j := funext fun a => Fin.ext (by match a with | ⟨0, _⟩ => rfl | ⟨1, _⟩ => rfl)
  rw [el, er, w54]

/-- The zero array a positive part compares against reads the extended real zero. -/
theorem zero_call4 (i : S8192x8192.Idx) : val_main_call4_v0 (F := Ideal) i = 0 := by
  rw [val_main_call4_v0_apply, val_main_call4_cst_apply]; exact Ideal.ofBits_zero_f32

/-- The transposed score weight slice at row `k`, column `c` is the weight array's entry `(0, c, k)`. -/
theorem wL42 (x5 : S2x8192x64.Idx → EReal) (k : Fin 64) (c : Fin 8192) : val_main_v42 (F := Ideal) x5 (ix2 k c) = x5 (ix3 0 c k) := by
  rw [val_main_v42_apply, val_main_v41_apply, val_main_v40_apply]
  refine congrArg x5 (funext fun a => Fin.ext ?_)
  match a with
  | ⟨0, _⟩ => rfl
  | ⟨1, _⟩ => show (c.val * 64 + k.val) / 64 % 8192 = c.val; omega
  | ⟨2, _⟩ => show (c.val * 64 + k.val) % 64 = k.val; omega

/-- The broadcast score bias slice at any row, column `c` is the bias array's entry `(0, c)`. -/
theorem bL47 (x6 : S2x8192.Idx → EReal) (r c : Fin 8192) : val_main_v47 (F := Ideal) x6 (ix2 r c) = x6 (ix2 0 c) := by
  rw [val_main_v47_apply, val_main_v46_apply, val_main_v45_apply, val_main_v44_apply]
  refine congrArg x6 (funext fun a => Fin.ext ?_)
  match a with
  | ⟨0, _⟩ => rfl
  | ⟨1, _⟩ => show c.val % 8192 = c.val; omega

/-- The score array at row `r`, column `c` is the score of the hidden row `r` against column `c`. -/
theorem s49 (x0 : S8192x64.Idx → EReal) (x3 : S2x64x64.Idx → EReal) (x4 : S2x64.Idx → EReal)
    (x5 : S2x8192x64.Idx → EReal) (x6 : S2x8192.Idx → EReal) (r c : Fin 8192) :
    val_main_v49 (F := Ideal) x0 x3 x4 x5 x6 (ix2 r c)
      = score (cur3 x5 0) (cur2 x6 0) (dense (cur3 x3 0) (cur2 x4 0) (cur2 x0 r)) c := by
  rw [val_main_v49_apply, val_main_v48_apply, val_main_v43_apply, zero_call4, bL47]
  simp only [Ideal.maximumf_def, Ideal.addf_def]
  rw [show score (cur3 x5 0) (cur2 x6 0) (dense (cur3 x3 0) (cur2 x4 0) (cur2 x0 r)) c
      = max ((∑ k : Fin 64, dense (cur3 x3 0) (cur2 x4 0) (cur2 x0 r) k * x5 (ix3 0 c k)) + x6 (ix2 0 c)) 0 from rfl]
  refine congrArg (fun s => max (s + x6 (ix2 0 c)) 0) (Finset.sum_congr rfl fun k _ => ?_)
  have el : lidx_main_v43 (ix2 r c) k = ix2 r k := funext fun a => Fin.ext (by match a with | ⟨0, _⟩ => rfl | ⟨1, _⟩ => rfl)
  have er : ridx_main_v43 (ix2 r c) k = ix2 k c := funext fun a => Fin.ext (by match a with | ⟨0, _⟩ => rfl | ⟨1, _⟩ => rfl)
  rw [el, er, wL42, d39]

/-- The zero array a positive part compares against reads the extended real zero. -/
theorem zero_call6 (i : S8192x8192.Idx) : val_main_call6_v0 (F := Ideal) i = 0 := by
  rw [val_main_call6_v0_apply, val_main_call6_cst_apply]; exact Ideal.ofBits_zero_f32

/-- The transposed score weight slice at row `k`, column `c` is the weight array's entry `(1, c, k)`. -/
theorem wL64 (x5 : S2x8192x64.Idx → EReal) (k : Fin 64) (c : Fin 8192) : val_main_v64 (F := Ideal) x5 (ix2 k c) = x5 (ix3 1 c k) := by
  rw [val_main_v64_apply, val_main_v63_apply, val_main_v62_apply]
  refine congrArg x5 (funext fun a => Fin.ext ?_)
  match a with
  | ⟨0, _⟩ => rfl
  | ⟨1, _⟩ => show (c.val * 64 + k.val) / 64 % 8192 = c.val; omega
  | ⟨2, _⟩ => show (c.val * 64 + k.val) % 64 = k.val; omega

/-- The broadcast score bias slice at any row, column `c` is the bias array's entry `(1, c)`. -/
theorem bL69 (x6 : S2x8192.Idx → EReal) (r c : Fin 8192) : val_main_v69 (F := Ideal) x6 (ix2 r c) = x6 (ix2 1 c) := by
  rw [val_main_v69_apply, val_main_v68_apply, val_main_v67_apply, val_main_v66_apply]
  refine congrArg x6 (funext fun a => Fin.ext ?_)
  match a with
  | ⟨0, _⟩ => rfl
  | ⟨1, _⟩ => show c.val % 8192 = c.val; omega

/-- The score array at row `r`, column `c` is the score of the hidden row `r` against column `c`. -/
theorem s71 (x0 : S8192x64.Idx → EReal) (x3 : S2x64x64.Idx → EReal) (x4 : S2x64.Idx → EReal)
    (x5 : S2x8192x64.Idx → EReal) (x6 : S2x8192.Idx → EReal) (r c : Fin 8192) :
    val_main_v71 (F := Ideal) x0 x3 x4 x5 x6 (ix2 r c)
      = score (cur3 x5 1) (cur2 x6 1) (dense (cur3 x3 1) (cur2 x4 1) (cur2 x0 r)) c := by
  rw [val_main_v71_apply, val_main_v70_apply, val_main_v65_apply, zero_call6, bL69]
  simp only [Ideal.maximumf_def, Ideal.addf_def]
  rw [show score (cur3 x5 1) (cur2 x6 1) (dense (cur3 x3 1) (cur2 x4 1) (cur2 x0 r)) c
      = max ((∑ k : Fin 64, dense (cur3 x3 1) (cur2 x4 1) (cur2 x0 r) k * x5 (ix3 1 c k)) + x6 (ix2 1 c)) 0 from rfl]
  refine congrArg (fun s => max (s + x6 (ix2 1 c)) 0) (Finset.sum_congr rfl fun k _ => ?_)
  have el : lidx_main_v65 (ix2 r c) k = ix2 r k := funext fun a => Fin.ext (by match a with | ⟨0, _⟩ => rfl | ⟨1, _⟩ => rfl)
  have er : ridx_main_v65 (ix2 r c) k = ix2 k c := funext fun a => Fin.ext (by match a with | ⟨0, _⟩ => rfl | ⟨1, _⟩ => rfl)
  rw [el, er, wL64, d61]

/-! ## The two chord layers -/

/-- After the first chord layer, row `r`, column `j` is the layer of slice 0 applied to the dense stack. -/
theorem l51 (x0 : S8192x64.Idx → EReal) (x1 : S2x64x64.Idx → EReal) (x2 : S2x64.Idx → EReal)
    (x3 : S2x64x64.Idx → EReal) (x4 : S2x64.Idx → EReal) (x5 : S2x8192x64.Idx → EReal) (x6 : S2x8192.Idx → EReal)
    (r : Fin 8192) (j : Fin 64) :
    val_main_v51 (F := Ideal) x0 x1 x2 x3 x4 x5 x6 (ix2 r j)
      = layer (cur2 x0) (cur3 x3 0) (cur2 x4 0) (cur3 x5 0) (cur2 x6 0) (gstack (cur3 x1) (cur2 x2) (cur2 x0)) r j := by
  rw [val_main_v51_apply]
  unfold layer
  refine Finset.sum_congr rfl fun c _ => ?_
  have el : lidx_main_v51 (ix2 r j) c = ix2 r c := funext fun a => Fin.ext (by match a with | ⟨0, _⟩ => rfl | ⟨1, _⟩ => rfl)
  have er : ridx_main_v51 (ix2 r j) c = ix2 c j := funext fun a => Fin.ext (by match a with | ⟨0, _⟩ => rfl | ⟨1, _⟩ => rfl)
  rw [el, er, val_main_v50_apply, s49, mask_apply, d29]
  simp only [Ideal.mulf_def]
  unfold mscore
  by_cases h : chord r c
  · rw [if_pos h, if_pos h, mul_one]
  · rw [if_neg h, if_neg h, mul_zero]

/-- After the second chord layer, row `r`, column `j` is the specified result. -/
theorem l73 (x0 : S8192x64.Idx → EReal) (x1 : S2x64x64.Idx → EReal) (x2 : S2x64.Idx → EReal)
    (x3 : S2x64x64.Idx → EReal) (x4 : S2x64.Idx → EReal) (x5 : S2x8192x64.Idx → EReal) (x6 : S2x8192.Idx → EReal)
    (r : Fin 8192) (j : Fin 64) :
    val_main_v73 (F := Ideal) x0 x1 x2 x3 x4 x5 x6 (ix2 r j)
      = result (cur2 x0) (cur3 x1) (cur2 x2) (cur3 x3) (cur2 x4) (cur3 x5) (cur2 x6) r j := by
  rw [val_main_v73_apply]
  unfold result
  generalize hV : layer (cur2 x0) (cur3 x3 0) (cur2 x4 0) (cur3 x5 0) (cur2 x6 0) (gstack (cur3 x1) (cur2 x2) (cur2 x0)) = V
  unfold layer
  refine Finset.sum_congr rfl fun c _ => ?_
  have el : lidx_main_v73 (ix2 r j) c = ix2 r c := funext fun a => Fin.ext (by match a with | ⟨0, _⟩ => rfl | ⟨1, _⟩ => rfl)
  have er : ridx_main_v73 (ix2 r j) c = ix2 c j := funext fun a => Fin.ext (by match a with | ⟨0, _⟩ => rfl | ⟨1, _⟩ => rfl)
  rw [el, er, val_main_v72_apply, s71, mask_apply, l51, hV]
  simp only [Ideal.mulf_def]
  unfold mscore
  by_cases h : chord r c
  · rw [if_pos h, if_pos h, mul_one]
  · rw [if_neg h, if_neg h, mul_zero]

/-- The reference's result, as a function of its seven argument arrays, is the specified function: the dense stack and
    the two chord layers, the chord mask read off the reference's own construction of it (the identity pattern plus
    its roll by one column, capped at one). -/
theorem result_eq (x0 : S8192x64.Idx → EReal) (x1 : S2x64x64.Idx → EReal) (x2 : S2x64.Idx → EReal)
    (x3 : S2x64x64.Idx → EReal) (x4 : S2x64.Idx → EReal) (x5 : S2x8192x64.Idx → EReal) (x6 : S2x8192.Idx → EReal) :
    Read.val_main_v73 (F := Ideal) x0 x1 x2 x3 x4 x5 x6
      = unc2 (result (cur2 x0) (cur3 x1) (cur2 x2) (cur3 x3) (cur2 x4) (cur3 x5) (cur2 x6)) := by
  funext i
  obtain ⟨r, j, rfl⟩ : ∃ (r : Fin 8192) (j : Fin 64), i = ix2 r j := ⟨i 0, i 1, eq_ix2 i⟩
  rw [l73, unc2_ix2]

end Cert.ReferenceIdeal.RefValue

end
-- ==== Proof.lean ====
/-
  The certificate of the chord kernel against its jnp reference, over the extended reals.

  Both programs compute, from the input rows X and the stacked weights, the function `Cert.Chord.result`:
  two dense layers `max (x · wᵀ + b) 0` on every row, then twice a chord layer, which replaces row r of the value
  array by `∑_c M r c · V c`, M r c the score `max (h r · wL cᵀ + bL c) 0` on the chord pattern (diagonal,
  superdiagonal, and the corner where the superdiagonal wraps) and zero off it.

  The kernel runs three regions. The first applies the dense stack block of rows by block of rows. The second and the
  third each compute one chord layer: for a block of 512 rows they walk the 8192 columns in 16 chunks, form the chunk's
  scores, keep those on the pattern (two index grids compared) and add the chunk's product with the matching 512 rows of
  the value array to an accumulator that starts at zero. The reference forms the whole 8192 × 8192 score matrix,
  multiplies it by a 0/1 mask built as the identity pattern plus its roll by one column capped at one, and contracts it
  with the value array in one sum.

  What joins them: a score times 1 is the score and times 0 is 0 (also at an infinity), selecting is the same as
  multiplying by that mask, and a sum over 8192 columns is the sum over 16 chunks of sums over 512 columns, in any
  grouping. No law that needs finite entries is used, so the precondition is never opened.

  The frames of the two kernel programs are the generated ones; the reference's frame is its generated run with the
  result dropped. The idealization rewrote nothing, so the preservation claim is `True`.
-/
import proofs.«104786_j3375844295380_1_alg».proof.Defs
import proofs.«104786_j3375844295380_1_alg».proof.Proof.Gen.Kernel
import proofs.«104786_j3375844295380_1_alg».proof.Proof.Gen.Kernel.Frame
import proofs.«104786_j3375844295380_1_alg».proof.Proof.Gen.KernelIdeal
import proofs.«104786_j3375844295380_1_alg».proof.Proof.Gen.KernelIdeal.Frame
import proofs.«104786_j3375844295380_1_alg».proof.Proof.Gen.ReferenceIdeal
import proofs.«104786_j3375844295380_1_alg».proof.Proof.Gen.Pre_finite_inputs
import proofs.«104786_j3375844295380_1_alg».proof.Proof.Gen.ReferenceIdeal.Run
import proofs.«104786_j3375844295380_1_alg».proof.Proof.Gen.ReferenceIdeal.Read
import proofs.«104786_j3375844295380_1_alg».proof.Proof.ValueRun
import proofs.«104786_j3375844295380_1_alg».proof.Proof.KernelValue
import proofs.«104786_j3375844295380_1_alg».proof.Proof.RefValue
import Idealize.ShloMosaic.Adequacy
import Idealize.ShloMosaic.Init

noncomputable section

namespace Cert.Proof

open Idealize.ShloMosaic Idealize.ShloMosaic.TcCoe Idealize.SL.Sem Cert.Chord

/-- From memories that agree on the arguments both idealized programs run, and both end with the result array at
    the specified function of the kernel's launched arguments: the kernel by its run with the result named and the
    chain of its three regions, the reference by its generated run read index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => unc2 (result (cur2 (m ((c.tc : Thread Cert.KernelIdeal.nD Cert.KernelIdeal.τ).loc Cert.KernelIdeal.main_arg0) : Cert.KernelIdeal.S8192x64.Idx → EReal)) (cur3 (m ((c.tc : Thread Cert.KernelIdeal.nD Cert.KernelIdeal.τ).loc Cert.KernelIdeal.main_arg1) : Cert.KernelIdeal.S2x64x64.Idx → EReal)) (cur2 (m ((c.tc : Thread Cert.KernelIdeal.nD Cert.KernelIdeal.τ).loc Cert.KernelIdeal.main_arg2) : Cert.KernelIdeal.S2x64.Idx → EReal)) (cur3 (m ((c.tc : Thread Cert.KernelIdeal.nD Cert.KernelIdeal.τ).loc Cert.KernelIdeal.main_arg3) : Cert.KernelIdeal.S2x64x64.Idx → EReal)) (cur2 (m ((c.tc : Thread Cert.KernelIdeal.nD Cert.KernelIdeal.τ).loc Cert.KernelIdeal.main_arg4) : Cert.KernelIdeal.S2x64.Idx → EReal)) (cur3 (m ((c.tc : Thread Cert.KernelIdeal.nD Cert.KernelIdeal.τ).loc Cert.KernelIdeal.main_arg5) : Cert.KernelIdeal.S2x8192x64.Idx → EReal)) (cur2 (m ((c.tc : Thread Cert.KernelIdeal.nD Cert.KernelIdeal.τ).loc Cert.KernelIdeal.main_arg6) : Cert.KernelIdeal.S2x8192.Idx → EReal))), ?_, ?_⟩
  · exact (θ_run Cert.KernelIdeal.defs _ _).mono
      (fun r h c => ⟨(h c).1.trans (Cert.KernelIdeal.KernelValue.result_eq m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v73_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
